-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x3200000 : Shape := ⟨2, ![2, 3200000]⟩
abbrev S100000 : Shape := ⟨1, ![100000]⟩
abbrev S1x32 : Shape := ⟨2, ![1, 32]⟩
abbrev S32 : Shape := ⟨1, ![32]⟩
abbrev S32x32 : Shape := ⟨2, ![32, 32]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S1x32 : S_.BroadcastsInDim S1x32 (![] : Fin 0 → Fin S1x32.rank)
  reducesTo_S1x32_S_d0_1 : S1x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_

variable [Facts]

def fn_part1 {F : FTy → Type} [FloatOps F] (main_arg8 : FVec F S32x32 .f32) (main_arg9 : FVec F S32 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg8
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg9
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  main_v28

def fn {F : FTy → Type} [FloatOps F] (main_arg0 : FVec F S100000x1 .f32) (main_arg1 : IVec S2x3200000 32) (main_arg2 : IVec S100000 32) (main_arg3 : FVec F S100000x1 .f32) (main_arg4 : IVec S2x3200000 32) (main_arg5 : IVec S100000 32) (main_arg6 : FVec F S1x32 .f32) (main_arg7 : FVec F S32 .f32) (main_arg8 : FVec F S32x32 .f32) (main_arg9 : FVec F S32 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S100000x1 .f32 := Host.absf main_arg3
  let main_cst_0 : FVec F S_ .f32 := constant S_ .f32 0x7F800000#32
  let main_v5 : FVec F S100000x1 .f32 := broadcastInDim S100000x1 ![] bcast_S_S100000x1 main_cst_0
  let main_v6 : IVec S100000x1 1 := cmpf .olt main_v4 main_v5
  let main_c_1 : IVec S_ 1 := constantI S_ 1 1#1
  let main_v7 : IVec S_ 1 := (fun x v => Host.reduce IntOp.andi x v reducesTo_S100000x1_S_d0_1 h_S_) main_v6 main_c_1
  let main_v8 : IVec S_ 1 := andi main_v3 main_v7
  let main_v9 : FVec F S1x32 .f32 := Host.absf main_arg6
  let main_cst_2 : FVec F S_ .f32 := constant S_ .f32 0x7F800000#32
  let main_v10 : FVec F S1x32 .f32 := broadcastInDim S1x32 ![] bcast_S_S1x32 main_cst_2
  let main_v11 : IVec S1x32 1 := cmpf .olt main_v9 main_v10
  let main_c_3 : IVec S_ 1 := constantI S_ 1 1#1
  let main_v12 : IVec S_ 1 := (fun x v => Host.reduce IntOp.andi x v reducesTo_S1x32_S_d0_1 h_S_) main_v11 main_c_3
  let main_v13 : IVec S_ 1 := andi main_v8 main_v12
  let main_v14 : FVec F S32 .f32 := Host.absf main_arg7
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg8 main_arg9 main_v13 main_v16
-- ==== Kernel.lean ====
abbrev S100000x1 : Shape := ⟨2, ![100000, 1]⟩
abbrev S2x3200000 : Shape := ⟨2, ![2, 3200000]⟩
abbrev S100000 : Shape := ⟨1, ![100000]⟩
abbrev S1x32 : Shape := ⟨2, ![1, 32]⟩
abbrev S32 : Shape := ⟨1, ![32]⟩
abbrev S32x32 : Shape := ⟨2, ![32, 32]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000x32 : Shape := ⟨2, ![100000, 32]⟩
abbrev S2000x1 : Shape := ⟨2, ![2000, 1]⟩
abbrev S2000x32 : Shape := ⟨2, ![2000, 32]⟩
abbrev S3200000x32 : Shape := ⟨2, ![3200000, 32]⟩
abbrev S128x32 : Shape := ⟨2, ![128, 32]⟩
abbrev S5000x32 : Shape := ⟨2, ![5000, 32]⟩
abbrev S5000x1 : Shape := ⟨2, ![5000, 1]⟩
abbrev S1x128 : Shape := ⟨2, ![1, 128]⟩
abbrev S5000x128 : Shape := ⟨2, ![5000, 128]⟩

abbrev nBuf : Space → Nat
  | .hbm => 84
  | .vmem => 42
  | .smem => 0
  | _ => 0

abbrev bufTy : (tb : Table) → Fin (tcTables nBuf tb) → BufTy
  | .hbm, ⟨0, _⟩ => ⟨S100000x1, .f32⟩
  | .hbm, ⟨1, _⟩ => ⟨S2x3200000, .i32⟩
  | .hbm, ⟨2, _⟩ => ⟨S100000, .i32⟩
  | .hbm, ⟨3, _⟩ => ⟨S100000x1, .f32⟩
  | .hbm, ⟨4, _⟩ => ⟨S2x3200000, .i32⟩
  | .hbm, ⟨5, _⟩ => ⟨S100000, .i32⟩
  | .hbm, ⟨6, _⟩ => ⟨S1x32, .f32⟩
  | .hbm, ⟨7, _⟩ => ⟨S32, .f32⟩
  | .hbm, ⟨8, _⟩ => ⟨S32x32, .f32⟩
  | .hbm, ⟨9, _⟩ => ⟨S32, .f32⟩
  | .hbm, ⟨10, _⟩ => ⟨S1x3200000, .i32⟩
  | .hbm, ⟨11, _⟩ => ⟨S3200000, .i32⟩
  | .hbm, ⟨12, _⟩ => ⟨S1x3200000, .i32⟩
  | .hbm, ⟨13, _⟩ => ⟨S3200000, .i32⟩
  | .hbm, ⟨14, _⟩ => ⟨S_, .i32⟩
  | .hbm, ⟨15, _⟩ => ⟨S3200000, .i32⟩
  | .hbm, ⟨16, _⟩ => ⟨S3200000, .i1⟩
  | .hbm, ⟨17, _⟩ => ⟨S_, .i32⟩
  | .hbm, ⟨18, _⟩ => ⟨S3200000, .i32⟩
  | .hbm, ⟨19, _⟩ => ⟨S3200000, .i32⟩
  | .hbm, ⟨20, _⟩ => ⟨S3200000, .i32⟩
  | .hbm, ⟨21, _⟩ => ⟨S3200000x1, .i32⟩
  | .hbm, ⟨22, _⟩ => ⟨S3200000x1, .f32⟩
  | .hbm, ⟨23, _⟩ => ⟨S_, .f32⟩
  | .hbm, ⟨24, _⟩ => ⟨S100000x1, .f32⟩
  | .hbm, ⟨25, _⟩ => ⟨S3200000x1, .i32⟩
  | .hbm, ⟨26, _⟩ => ⟨S100000x1, .f32⟩
  | .hbm, ⟨27, _⟩ => ⟨S1x32, .f32⟩
  | .hbm, ⟨28, _⟩ => ⟨S100000x32, .f32⟩
  | .hbm, ⟨29, _⟩ => ⟨S_, .i32⟩
  | .hbm, ⟨30, _⟩ => ⟨S3200000, .i32⟩
  | .hbm, ⟨31, _⟩ => ⟨S3200000, .i1⟩
  | .hbm, ⟨32, _⟩ => ⟨S_, .i32⟩
  | .hbm, ⟨33, _⟩ => ⟨S3200000, .i32⟩
  | .hbm, ⟨34, _⟩ => ⟨S3200000, .i32⟩
  | .hbm, ⟨35, _⟩ => ⟨S3200000, .i32⟩
  | .hbm, ⟨36, _⟩ => ⟨S3200000x1, .i32⟩
  | .hbm, ⟨37, _⟩ => ⟨S3200000x32, .f32⟩
  | .hbm, ⟨38, _⟩ => ⟨S_, .f32⟩
  | .hbm, ⟨39, _⟩ => ⟨S100000x32, .f32⟩
  | .hbm, ⟨40, _⟩ => ⟨S3200000x1, .i32⟩
  | .hbm, ⟨41, _⟩ => ⟨S100000x32, .f32⟩
  | .hbm, ⟨42, _⟩ => ⟨S1x32, .f32⟩
  | .hbm, ⟨43, _⟩ => ⟨S100000x32, .f32⟩
  | .hbm, ⟨44, _⟩ => ⟨S100000x1, .i32⟩
  | .hbm, ⟨45, _⟩ => ⟨S128x32, .f32⟩
  | .hbm, ⟨46, _⟩ => ⟨S1x3200000, .i32⟩
  | .hbm, ⟨47, _⟩ => ⟨S3200000, .i32⟩
  | .hbm, ⟨48, _⟩ => ⟨S1x3200000, .i32⟩
  | .hbm, ⟨49, _⟩ => ⟨S3200000, .i32⟩
  | .hbm, ⟨50, _⟩ => ⟨S_, .i32⟩
  | .hbm, ⟨51, _⟩ => ⟨S3200000, .i32⟩
  | .hbm, ⟨52, _⟩ => ⟨S3200000, .i1⟩
  | .hbm, ⟨53, _⟩ => ⟨S_, .i32⟩
  | .hbm, ⟨54, _⟩ => ⟨S3200000, .i32⟩
  | .hbm, ⟨55, _⟩ => ⟨S3200000, .i32⟩
  | .hbm, ⟨56, _⟩ => ⟨S3200000, .i32⟩
  | .hbm, ⟨57, _⟩ => ⟨S3200000x1, .i32⟩
  | .hbm, ⟨58, _⟩ => ⟨S3200000x1, .f32⟩
  | .hbm, ⟨59, _⟩ => ⟨S_, .f32⟩
  | .hbm, ⟨60, _⟩ => ⟨S100000x1, .f32⟩
  | .hbm, ⟨61, _⟩ => ⟨S3200000x1, .i32⟩
  | .hbm, ⟨62, _⟩ => ⟨S100000x1, .f32⟩
  | .hbm, ⟨63, _⟩ => ⟨S1x32, .f32⟩
  | .hbm, ⟨64, _⟩ => ⟨S100000x32, .f32⟩
  | .hbm, ⟨65, _⟩ => ⟨S_, .i32⟩
  | .hbm, ⟨66, _⟩ => ⟨S3200000, .i32⟩
  | .hbm, ⟨67, _⟩ => ⟨S3200000, .i1⟩
  | .hbm, ⟨68, _⟩ => ⟨S_, .i32⟩
  | .hbm, ⟨69, _⟩ => ⟨S3200000, .i32⟩
  | .hbm, ⟨70, _⟩ => ⟨S3200000, .i32⟩
  | .hbm, ⟨71, _⟩ => ⟨S3200000, .i32⟩
  | .hbm, ⟨72, _⟩ => ⟨S3200000x1, .i32⟩
  | .hbm, ⟨73, _⟩ => ⟨S3200000x32, .f32⟩
  | .hbm, ⟨74, _⟩ => ⟨S_, .f32⟩
  | .hbm, ⟨75, _⟩ => ⟨S100000x32, .f32⟩
  | .hbm, ⟨76, _⟩ => ⟨S3200000x1, .i32⟩
  | .hbm, ⟨77, _⟩ => ⟨S100000x32, .f32⟩
  | .hbm, ⟨78, _⟩ => ⟨S1x32, .f32⟩
  | .hbm, ⟨79, _⟩ => ⟨S100000x32, .f32⟩
  | .hbm, ⟨80, _⟩ => ⟨S100000x1, .i32⟩
  | .hbm, ⟨81, _⟩ => ⟨S128x32, .f32⟩
  | .hbm, ⟨82, _⟩ => ⟨S128x32, .f32⟩
  | .hbm, ⟨83, _⟩ => ⟨S128x32, .f32⟩
  | .local _ .vmem, ⟨0, _⟩ => ⟨S2000x1, .f32⟩
  | .local _ .vmem, ⟨1, _⟩ => ⟨S2000x1, .f32⟩
  | .local _ .vmem, ⟨2, _⟩ => ⟨S2000x1, .f32⟩
  | .local _ .vmem, ⟨3, _⟩ => ⟨S2000x1, .f32⟩
  | .local _ .vmem, ⟨4, _⟩ => ⟨S1x32, .f32⟩
  | .local _ .vmem, ⟨5, _⟩ => ⟨S1x32, .f32⟩
  | .local _ .vmem, ⟨6, _⟩ => ⟨S2000x32, .f32⟩
  | .local _ .vmem, ⟨7, _⟩ => ⟨S2000x32, .f32⟩
  | .local _ .vmem, ⟨8, _⟩ => ⟨S2000x32, .f32⟩
  | .local _ .vmem, ⟨9, _⟩ => ⟨S2000x32, .f32⟩
  | .local _ .vmem, ⟨10, _⟩ => ⟨S2000x32, .f32⟩
  | .local _ .vmem, ⟨11, _⟩ => ⟨S2000x32, .f32⟩
  | .local _ .vmem, ⟨12, _⟩ => ⟨S32x32, .f32⟩
  | .local _ .vmem, ⟨13, _⟩ => ⟨S1x32, .f32⟩
  | .local _ .vmem, ⟨14, _⟩ => ⟨S2000x32, .f32⟩
  | .local _ .vmem, ⟨15, _⟩ => ⟨S2000x32, .f32⟩
  | .local _ .vmem, ⟨16, _⟩ => ⟨S5000x32, .f32⟩
  | .local _ .vmem, ⟨17, _⟩ => ⟨S5000x32, .f32⟩
  | .local _ .vmem, ⟨18, _⟩ => ⟨S5000x1, .i32⟩
  | .local _ .vmem, ⟨19, _⟩ => ⟨S5000x1, .i32⟩
  | .local _ .vmem, ⟨20, _⟩ => ⟨S128x32, .f32⟩
  | .local _ .vmem, ⟨21, _⟩ => ⟨S2000x1, .f32⟩
  | .local _ .vmem, ⟨22, _⟩ => ⟨S2000x1, .f32⟩
  | .local _ .vmem, ⟨23, _⟩ => ⟨S2000x1, .f32⟩
  | .local _ .vmem, ⟨24, _⟩ => ⟨S2000x1, .f32⟩
  | .local _ .vmem, ⟨25, _⟩ => ⟨S1x32, .f32⟩
  | .local _ .vmem, ⟨26, _⟩ => ⟨S1x32, .f32⟩
  | .local _ .vmem, ⟨27, _⟩ => ⟨S2000x32, .f32⟩
  | .local _ .vmem, ⟨28, _⟩ => ⟨S2000x32, .f32⟩
  | .local _ .vmem, ⟨29, _⟩ => ⟨S2000x32, .f32⟩
  | .local _ .vmem, ⟨30, _⟩ => ⟨S2000x32, .f32⟩
  | .local _ .vmem, ⟨31, _⟩ => ⟨S2000x32, .f32⟩
  | .local _ .vmem, ⟨32, _⟩ => ⟨S2000x32, .f32⟩
  | .local _ .vmem, ⟨33, _⟩ => ⟨S32x32, .f32⟩
  | .local _ .vmem, ⟨34, _⟩ => ⟨S1x32, .f32⟩
  | .local _ .vmem, ⟨35, _⟩ => ⟨S2000x32, .f32⟩
  | .local _ .vmem, ⟨36, _⟩ => ⟨S2000x32, .f32⟩
  | .local _ .vmem, ⟨37, _⟩ => ⟨S5000x32, .f32⟩
  | .local _ .vmem, ⟨38, _⟩ => ⟨S5000x32, .f32⟩
  | .local _ .vmem, ⟨39, _⟩ => ⟨S5000x1, .i32⟩
  | .local _ .vmem, ⟨40, _⟩ => ⟨S5000x1, .i32⟩
  | .local _ .vmem, ⟨41, _⟩ => ⟨S128x32, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_1 : Ref sig .tc := ⟨.hbm, 29, rfl⟩
abbrev main_v16 : Ref sig .tc := ⟨.hbm, 30, rfl⟩
abbrev main_v17 : Ref sig .tc := ⟨.hbm, 31, rfl⟩
abbrev main_c_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_4 : Ref sig .tc := ⟨.hbm, 50, rfl⟩
abbrev main_v34 : Ref sig .tc := ⟨.hbm, 51, rfl⟩
abbrev main_v35 : Ref sig .tc := ⟨.hbm, 52, rfl⟩
abbrev main_c_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_7 : Ref sig .tc := ⟨.hbm, 65, rfl⟩
abbrev main_v46 : Ref sig .tc := ⟨.hbm, 66, rfl⟩
abbrev main_v47 : Ref sig .tc := ⟨.hbm, 67, rfl⟩
abbrev main_c_8 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_9 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg4_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg4_0 : Ref sig .tc := ⟨.vmem, 35, rfl⟩
abbrev cc4_stg4_1 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg1_1 : Ref sig .tc := ⟨.vmem, 40, rfl⟩
abbrev cc5_stg2_0 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem4_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem3_0 : DmaSem sig := 34
abbrev cc4_sem4_0 : DmaSem sig := 35
abbrev cc4_sem4_1 : DmaSem sig := 36
abbrev cc5_sem0_0 : DmaSem sig := 37
abbrev cc5_sem0_1 : DmaSem sig := 38
abbrev cc5_sem1_0 : DmaSem sig := 39
abbrev cc5_sem1_1 : DmaSem sig := 40
abbrev cc5_sem2_0 : DmaSem sig := 41

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x1 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x32 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x32 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S32x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S2000x32 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S5000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .i32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x1 : S_.BroadcastsInDim S100000x1 (![] : Fin 0 → Fin S100000x1.rank)
  shapeCasts_S32_S1x32 : S32.ShapeCasts S1x32
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  bitsLt_bf16_f32 : FTy.bits .bf16 < FTy.bits .f32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S2000x32_S2000x32_0_0 : ∀ a, (![0, 0] : Fin 2 → Nat) a + S2000x32.size a ≤ S2000x32.size a
  h_S2000x32 : 0 < S2000x32.numel
  bcast_S_S100000x32 : S_.BroadcastsInDim S100000x32 (![] : Fin 0 → Fin S100000x32.rank)
  shapeCasts_S2000x32_S2000x32 : S2000x32.ShapeCasts S2000x32
  inb_S32x32_S32x32_0_0 : ∀ a, (![0, 0] : Fin 2 → Nat) a + S32x32.size a ≤ S32x32.size a
  h_S32x32 : 0 < S32x32.numel
  shapeCasts_S100000_S100000x1 : S100000.ShapeCasts S100000x1
  inb_S128x32_S128x32_0_0 : ∀ a, (![0, 0] : Fin 2 → Nat) a + S128x32.size a ≤ S128x32.size a
  h_S128x32 : 0 < S128x32.numel
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S1x128_d1_w32 : S1x128.Iotas .tc 32 [1]
  broadcasts_S5000x1_S5000x128 : S5000x1.Broadcasts S5000x128
  broadcasts_S1x128_S5000x128 : S1x128.Broadcasts S5000x128
  natLt_1_32 : 1 < 32
  shapeCasts_S128x32_S128x32 : S128x32.ShapeCasts S128x32
  gather_S100000x1_S3200000x1_S3200000x1_1_0_n_n_0_1_11_wf : GatherDims.WF S100000x1 S3200000x1 S3200000x1 [1] [0] [] [0] [] 1 ![1, 1]
  scatter_S100000x1_S3200000x1_S3200000x1_1_0_0_1_wf : ScatterDims.WF S100000x1 S3200000x1 S3200000x1 [1] [0] [0] 1
  dot_S2000x1_S1x32_S2000x32_1_0_0_1_n_n_wf : DotDims.WF S2000x1 S1x32 S2000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S2000x32_S32x32_S2000x32_1_0_0_1_n_n_wf : DotDims.WF S2000x32 S32x32 S2000x32 [1] [0] [0] [1] [] []
  dot_S5000x128_S5000x32_S128x32_0_0_1_1_n_n_wf : DotDims.WF S5000x128 S5000x32 S128x32 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1.size a ≤ S100000x1.size a
  hwx0_0 : ∀ i : grid0.Coords, EltTy.bits .f32 = 32 ∨ (Rect.block (s := S100000x1) S2000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x32.size a ≤ S100000x32.size a
  hwx0_4 : ∀ i : grid0.Coords, EltTy.bits .f32 = 32 ∨ (Rect.block (s := S100000x32) S2000x32.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S100000x32.size a
  hwx1_0 : ∀ i : grid1.Coords, EltTy.bits .f32 = 32 ∨ (Rect.block (s := S100000x32) S2000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x32.size a ≤ S100000x32.size a
  hwx1_1 : ∀ i : grid1.Coords, EltTy.bits .f32 = 32 ∨ (Rect.block (s := S100000x32) S2000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x32.size a ≤ S100000x32.size a
  hwx1_4 : ∀ i : grid1.Coords, EltTy.bits .f32 = 32 ∨ (Rect.block (s := S100000x32) S2000x32.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .i32 = 32 ∨ (Rect.block (s := S100000x1) S5000x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x32.size a ≤ S128x32.size a
  hwx2_2 : ∀ i : grid2.Coords, EltTy.bits .f32 = 32 ∨ (Rect.block (s := S128x32) S128x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x1.size a ≤ S100000x1.size a
  hwx3_0 : ∀ i : grid3.Coords, EltTy.bits .f32 = 32 ∨ (Rect.block (s := S100000x1) S2000x1.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S100000x1.size a
  hwx3_1 : ∀ i : grid3.Coords, EltTy.bits .f32 = 32 ∨ (Rect.block (s := S100000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x32.size a ≤ S100000x32.size a
  hwx3_4 : ∀ i : grid3.Coords, EltTy.bits .f32 = 32 ∨ (Rect.block (s := S100000x32) S2000x32.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x32.size a ≤ S100000x32.size a
  hwx4_0 : ∀ i : grid4.Coords, EltTy.bits .f32 = 32 ∨ (Rect.block (s := S100000x32) S2000x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x32.size a ≤ S100000x32.size a
  hwx4_1 : ∀ i : grid4.Coords, EltTy.bits .f32 = 32 ∨ (Rect.block (s := S100000x32) S2000x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S32x32.size a ≤ S32x32.size a
  hwx4_2 : ∀ i : grid4.Coords, EltTy.bits .f32 = 32 ∨ (Rect.block (s := S32x32) S32x32.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x32.size a ≤ S1x32.size a
  hwx4_3 : ∀ i : grid4.Coords, EltTy.bits .f32 = 32 ∨ (Rect.block (s := S1x32) S1x32.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x32.size a ≤ S100000x32.size a
  hwx4_4 : ∀ i : grid4.Coords, EltTy.bits .f32 = 32 ∨ (Rect.block (s := S100000x32) S2000x32.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x32.size a ≤ S100000x32.size a
  hwx5_0 : ∀ i : grid5.Coords, EltTy.bits .f32 = 32 ∨ (Rect.block (s := S100000x32) S5000x32.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S100000x1.size a
  hwx5_1 : ∀ i : grid5.Coords, EltTy.bits .i32 = 32 ∨ (Rect.block (s := S100000x1) S5000x1.size (cc5_transform_1 i) (hinb5_1 i)).WholeWords (EltTy.packing .i32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x32.size a ≤ S128x32.size a
  hwx5_2 : ∀ i : grid5.Coords, EltTy.bits .f32 = 32 ∨ (Rect.block (s := S128x32) S128x32.size (cc5_transform_2 i) (hinb5_2 i)).WholeWords (EltTy.packing .f32)

variable [Facts₀]

def gather_S100000x1_S3200000x1_S3200000x1_1_0_n_n_0_1_11 : GatherDims S100000x1 S3200000x1 S3200000x1 where
  offsetDims := [1]
  collapsedSliceDims := [0]
  operandBatchingDims := []
  startIndicesBatchingDims := []
  startIndexMap := [0]
  indexVectorDim := 1
  sliceSizes := ![1, 1]
  wf := gather_S100000x1_S3200000x1_S3200000x1_1_0_n_n_0_1_11_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf
def dot_S2000x1_S1x32_S2000x32_1_0_0_1_n_n : DotDims S2000x1 S1x32 S2000x32 where
  lhsContracting := [1]
  rhsContracting := [0]
  lhsNonContracting := [0]
  rhsNonContracting := [1]
  lhsBatch := []
  rhsBatch := []
  wf := dot_S2000x1_S1x32_S2000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S2000x32_S32x32_S2000x32_1_0_0_1_n_n : DotDims S2000x32 S32x32 S2000x32 where
  lhsContracting := [1]
  rhsContracting := [0]
  lhsNonContracting := [0]
  rhsNonContracting := [1]
  lhsBatch := []
  rhsBatch := []
  wf := dot_S2000x32_S32x32_S2000x32_1_0_0_1_n_n_wf
def dot_S5000x128_S5000x32_S128x32_0_0_1_1_n_n : DotDims S5000x128 S5000x32 S128x32 where
  lhsContracting := [0]
  rhsContracting := [0]
  lhsNonContracting := [1]
  rhsNonContracting := [1]
  lhsBatch := []
  rhsBatch := []
  wf := dot_S5000x128_S5000x32_S128x32_0_0_1_1_n_n_wf

abbrev win0_0 : Pipeline.Window sig grid0 :=
  Pipeline.Window.ofSpec (Memref.whole main_arg0) S2000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S2000x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v15) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S2000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S2000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v27) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v29) S128x32.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg3) S2000x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg6) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v44) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v45) S2000x32.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v45) S2000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v55) S2000x32.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg8) S32x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v56) S1x32.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v57) S2000x32.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v57) S5000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v58) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v59) S128x32.size cc5_transform_2 reads5_2 true true 1 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x1 : Shape := ⟨2, ![100000, 1]⟩
abbrev S2x3200000 : Shape := ⟨2, ![2, 3200000]⟩
abbrev S100000 : Shape := ⟨1, ![100000]⟩
abbrev S1x32 : Shape := ⟨2, ![1, 32]⟩
abbrev S32 : Shape := ⟨1, ![32]⟩
abbrev S32x32 : Shape := ⟨2, ![32, 32]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000x32 : Shape := ⟨2, ![100000, 32]⟩
abbrev S3200000x32 : Shape := ⟨2, ![3200000, 32]⟩
abbrev S128x32 : Shape := ⟨2, ![128, 32]⟩

abbrev nBuf : Space → Nat
  | .hbm => 118
  | .vmem => 0
  | .smem => 0
  | _ => 0

abbrev bufTy : (tb : Table) → Fin (tcTables nBuf tb) → BufTy
  | .hbm, ⟨0, _⟩ => ⟨S100000x1, .f32⟩
  | .hbm, ⟨1, _⟩ => ⟨S2x3200000, .i32⟩
  | .hbm, ⟨2, _⟩ => ⟨S100000, .i32⟩
  | .hbm, ⟨3, _⟩ => ⟨S100000x1, .f32⟩
  | .hbm, ⟨4, _⟩ => ⟨S2x3200000, .i32⟩
  | .hbm, ⟨5, _⟩ => ⟨S100000, .i32⟩
  | .hbm, ⟨6, _⟩ => ⟨S1x32, .f32⟩
  | .hbm, ⟨7, _⟩ => ⟨S32, .f32⟩
  | .hbm, ⟨8, _⟩ => ⟨S32x32, .f32⟩
  | .hbm, ⟨9, _⟩ => ⟨S32, .f32⟩
  | .hbm, ⟨10, _⟩ => ⟨S1x3200000, .i32⟩
  | .hbm, ⟨11, _⟩ => ⟨S3200000, .i32⟩
  | .hbm, ⟨12, _⟩ => ⟨S1x3200000, .i32⟩
  | .hbm, ⟨13, _⟩ => ⟨S3200000, .i32⟩
  | .hbm, ⟨14, _⟩ => ⟨S_, .i32⟩
  | .hbm, ⟨15, _⟩ => ⟨S3200000, .i32⟩
  | .hbm, ⟨16, _⟩ => ⟨S3200000, .i1⟩
  | .hbm, ⟨17, _⟩ => ⟨S_, .i32⟩
  | .hbm, ⟨18, _⟩ => ⟨S3200000, .i32⟩
  | .hbm, ⟨19, _⟩ => ⟨S3200000, .i32⟩
  | .hbm, ⟨20, _⟩ => ⟨S3200000, .i32⟩
  | .hbm, ⟨21, _⟩ => ⟨S3200000x1, .i32⟩
  | .hbm, ⟨22, _⟩ => ⟨S3200000x1, .f32⟩
  | .hbm, ⟨23, _⟩ => ⟨S_, .f32⟩
  | .hbm, ⟨24, _⟩ => ⟨S100000x1, .f32⟩
  | .hbm, ⟨25, _⟩ => ⟨S3200000x1, .i32⟩
  | .hbm, ⟨26, _⟩ => ⟨S100000x1, .f32⟩
  | .hbm, ⟨27, _⟩ => ⟨S100000x1, .f32⟩
  | .hbm, ⟨28, _⟩ => ⟨S100000x32, .f32⟩
  | .hbm, ⟨29, _⟩ => ⟨S1x32, .f32⟩
  | .hbm, ⟨30, _⟩ => ⟨S100000x32, .f32⟩
  | .hbm, ⟨31, _⟩ => ⟨S100000x32, .f32⟩
  | .hbm, ⟨32, _⟩ => ⟨S_, .f32⟩
  | .hbm, ⟨33, _⟩ => ⟨S100000x32, .f32⟩
  | .hbm, ⟨34, _⟩ => ⟨S100000x32, .f32⟩
  | .hbm, ⟨35, _⟩ => ⟨S_, .f32⟩
  | .hbm, ⟨36, _⟩ => ⟨S100000x32, .f32⟩
  | .hbm, ⟨37, _⟩ => ⟨S100000x32, .f32⟩
  | .hbm, ⟨38, _⟩ => ⟨S_, .i32⟩
  | .hbm, ⟨39, _⟩ => ⟨S3200000, .i32⟩
  | .hbm, ⟨40, _⟩ => ⟨S3200000, .i1⟩
  | .hbm, ⟨41, _⟩ => ⟨S_, .i32⟩
  | .hbm, ⟨42, _⟩ => ⟨S3200000, .i32⟩
  | .hbm, ⟨43, _⟩ => ⟨S3200000, .i32⟩
  | .hbm, ⟨44, _⟩ => ⟨S3200000, .i32⟩
  | .hbm, ⟨45, _⟩ => ⟨S3200000x1, .i32⟩
  | .hbm, ⟨46, _⟩ => ⟨S3200000x32, .f32⟩
  | .hbm, ⟨47, _⟩ => ⟨S_, .f32⟩
  | .hbm, ⟨48, _⟩ => ⟨S100000x32, .f32⟩
  | .hbm, ⟨49, _⟩ => ⟨S3200000x1, .i32⟩
  | .hbm, ⟨50, _⟩ => ⟨S100000x32, .f32⟩
  | .hbm, ⟨51, _⟩ => ⟨S100000x32, .f32⟩
  | .hbm, ⟨52, _⟩ => ⟨S100000x32, .f32⟩
  | .hbm, ⟨53, _⟩ => ⟨S1x32, .f32⟩
  | .hbm, ⟨54, _⟩ => ⟨S100000x32, .f32⟩
  | .hbm, ⟨55, _⟩ => ⟨S100000x32, .f32⟩
  | .hbm, ⟨56, _⟩ => ⟨S_, .f32⟩
  | .hbm, ⟨57, _⟩ => ⟨S100000x32, .f32⟩
  | .hbm, ⟨58, _⟩ => ⟨S100000x32, .f32⟩
  | .hbm, ⟨59, _⟩ => ⟨S_, .f32⟩
  | .hbm, ⟨60, _⟩ => ⟨S128x32, .f32⟩
  | .hbm, ⟨61, _⟩ => ⟨S100000x1, .i32⟩
  | .hbm, ⟨62, _⟩ => ⟨S128x32, .f32⟩
  | .hbm, ⟨63, _⟩ => ⟨S1x3200000, .i32⟩
  | .hbm, ⟨64, _⟩ => ⟨S3200000, .i32⟩
  | .hbm, ⟨65, _⟩ => ⟨S1x3200000, .i32⟩
  | .hbm, ⟨66, _⟩ => ⟨S3200000, .i32⟩
  | .hbm, ⟨67, _⟩ => ⟨S_, .i32⟩
  | .hbm, ⟨68, _⟩ => ⟨S3200000, .i32⟩
  | .hbm, ⟨69, _⟩ => ⟨S3200000, .i1⟩
  | .hbm, ⟨70, _⟩ => ⟨S_, .i32⟩
  | .hbm, ⟨71, _⟩ => ⟨S3200000, .i32⟩
  | .hbm, ⟨72, _⟩ => ⟨S3200000, .i32⟩
  | .hbm, ⟨73, _⟩ => ⟨S3200000, .i32⟩
  | .hbm, ⟨74, _⟩ => ⟨S3200000x1, .i32⟩
  | .hbm, ⟨75, _⟩ => ⟨S3200000x1, .f32⟩
  | .hbm, ⟨76, _⟩ => ⟨S_, .f32⟩
  | .hbm, ⟨77, _⟩ => ⟨S100000x1, .f32⟩
  | .hbm, ⟨78, _⟩ => ⟨S3200000x1, .i32⟩
  | .hbm, ⟨79, _⟩ => ⟨S100000x1, .f32⟩
  | .hbm, ⟨80, _⟩ => ⟨S100000x1, .f32⟩
  | .hbm, ⟨81, _⟩ => ⟨S100000x32, .f32⟩
  | .hbm, ⟨82, _⟩ => ⟨S1x32, .f32⟩
  | .hbm, ⟨83, _⟩ => ⟨S100000x32, .f32⟩
  | .hbm, ⟨84, _⟩ => ⟨S100000x32, .f32⟩
  | .hbm, ⟨85, _⟩ => ⟨S_, .f32⟩
  | .hbm, ⟨86, _⟩ => ⟨S100000x32, .f32⟩
  | .hbm, ⟨87, _⟩ => ⟨S100000x32, .f32⟩
  | .hbm, ⟨88, _⟩ => ⟨S_, .f32⟩
  | .hbm, ⟨89, _⟩ => ⟨S100000x32, .f32⟩
  | .hbm, ⟨90, _⟩ => ⟨S100000x32, .f32⟩
  | .hbm, ⟨91, _⟩ => ⟨S_, .i32⟩
  | .hbm, ⟨92, _⟩ => ⟨S3200000, .i32⟩
  | .hbm, ⟨93, _⟩ => ⟨S3200000, .i1⟩
  | .hbm, ⟨94, _⟩ => ⟨S_, .i32⟩
  | .hbm, ⟨95, _⟩ => ⟨S3200000, .i32⟩
  | .hbm, ⟨96, _⟩ => ⟨S3200000, .i32⟩
  | .hbm, ⟨97, _⟩ => ⟨S3200000, .i32⟩
  | .hbm, ⟨98, _⟩ => ⟨S3200000x1, .i32⟩
  | .hbm, ⟨99, _⟩ => ⟨S3200000x32, .f32⟩
  | .hbm, ⟨100, _⟩ => ⟨S_, .f32⟩
  | .hbm, ⟨101, _⟩ => ⟨S100000x32, .f32⟩
  | .hbm, ⟨102, _⟩ => ⟨S3200000x1, .i32⟩
  | .hbm, ⟨103, _⟩ => ⟨S100000x32, .f32⟩
  | .hbm, ⟨104, _⟩ => ⟨S100000x32, .f32⟩
  | .hbm, ⟨105, _⟩ => ⟨S100000x32, .f32⟩
  | .hbm, ⟨106, _⟩ => ⟨S1x32, .f32⟩
  | .hbm, ⟨107, _⟩ => ⟨S100000x32, .f32⟩
  | .hbm, ⟨108, _⟩ => ⟨S100000x32, .f32⟩
  | .hbm, ⟨109, _⟩ => ⟨S_, .f32⟩
  | .hbm, ⟨110, _⟩ => ⟨S100000x32, .f32⟩
  | .hbm, ⟨111, _⟩ => ⟨S100000x32, .f32⟩
  | .hbm, ⟨112, _⟩ => ⟨S_, .f32⟩
  | .hbm, ⟨113, _⟩ => ⟨S128x32, .f32⟩
  | .hbm, ⟨114, _⟩ => ⟨S100000x1, .i32⟩
  | .hbm, ⟨115, _⟩ => ⟨S128x32, .f32⟩
  | .hbm, ⟨116, _⟩ => ⟨S128x32, .f32⟩
  | .hbm, ⟨117, _⟩ => ⟨S128x32, .f32⟩
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_cst : Ref sig .tc := ⟨.hbm, 32, rfl⟩
abbrev main_call0_v0 : Ref sig .tc := ⟨.hbm, 33, rfl⟩
abbrev main_v19 : Ref sig .tc := ⟨.hbm, 34, rfl⟩
abbrev main_call1_cst : Ref sig .tc := ⟨.hbm, 35, rfl⟩
abbrev main_call1_v0 : Ref sig .tc := ⟨.hbm, 36, rfl⟩
abbrev main_v20 : Ref sig .tc := ⟨.hbm, 37, rfl⟩
abbrev main_c_1 : Ref sig .tc := ⟨.hbm, 38, rfl⟩
abbrev main_v21 : Ref sig .tc := ⟨.hbm, 39, rfl⟩
abbrev main_v22 : Ref sig .tc := ⟨.hbm, 40, rfl⟩
abbrev main_c_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_call2_cst : Ref sig .tc := ⟨.hbm, 56, rfl⟩
abbrev main_call2_v0 : Ref sig .tc := ⟨.hbm, 57, rfl⟩
abbrev main_v36 : Ref sig .tc := ⟨.hbm, 58, rfl⟩
abbrev main_cst_4 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_5 : Ref sig .tc := ⟨.hbm, 67, rfl⟩
abbrev main_v44 : Ref sig .tc := ⟨.hbm, 68, rfl⟩
abbrev main_v45 : Ref sig .tc := ⟨.hbm, 69, rfl⟩
abbrev main_c_6 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_7 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_call3_cst : Ref sig .tc := ⟨.hbm, 85, rfl⟩
abbrev main_call3_v0 : Ref sig .tc := ⟨.hbm, 86, rfl⟩
abbrev main_v59 : Ref sig .tc := ⟨.hbm, 87, rfl⟩
abbrev main_call4_cst : Ref sig .tc := ⟨.hbm, 88, rfl⟩
abbrev main_call4_v0 : Ref sig .tc := ⟨.hbm, 89, rfl⟩
abbrev main_v60 : Ref sig .tc := ⟨.hbm, 90, rfl⟩
abbrev main_c_8 : Ref sig .tc := ⟨.hbm, 91, rfl⟩
abbrev main_v61 : Ref sig .tc := ⟨.hbm, 92, rfl⟩
abbrev main_v62 : Ref sig .tc := ⟨.hbm, 93, rfl⟩
abbrev main_c_9 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_10 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_call5_cst : Ref sig .tc := ⟨.hbm, 109, rfl⟩
abbrev main_call5_v0 : Ref sig .tc := ⟨.hbm, 110, rfl⟩
abbrev main_v76 : Ref sig .tc := ⟨.hbm, 111, rfl⟩
abbrev main_cst_11 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x1 : S_.BroadcastsInDim S100000x1 (![] : Fin 0 → Fin S100000x1.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S_S128x32 : S_.BroadcastsInDim S128x32 (![] : Fin 0 → Fin S128x32.rank)
  bcast_S100000_S100000x1_0 : S100000.BroadcastsInDim S100000x1 (![0] : Fin 1 → Fin S100000x1.rank)
  gather_S100000x1_S3200000x1_S3200000x1_1_0_n_n_0_1_11_wf : GatherDims.WF S100000x1 S3200000x1 S3200000x1 [1] [0] [] [0] [] 1 ![1, 1]
  scatter_S100000x1_S3200000x1_S3200000x1_1_0_0_1_wf : ScatterDims.WF S100000x1 S3200000x1 S3200000x1 [1] [0] [0] 1
  dot_S100000x1_S1x32_S100000x32_1_0_0_1_n_n_wf : DotDims.WF S100000x1 S1x32 S100000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S100000x32_S32x32_S100000x32_1_0_0_1_n_n_wf : DotDims.WF S100000x32 S32x32 S100000x32 [1] [0] [0] [1] [] []
  scatter_S128x32_S100000x1_S100000x32_1_0_0_1_wf : ScatterDims.WF S128x32 S100000x1 S100000x32 [1] [0] [0] 1

variable [Facts₀]

def gather_S100000x1_S3200000x1_S3200000x1_1_0_n_n_0_1_11 : GatherDims S100000x1 S3200000x1 S3200000x1 where
  offsetDims := [1]
  collapsedSliceDims := [0]
  operandBatchingDims := []
  startIndicesBatchingDims := []
  startIndexMap := [0]
  indexVectorDim := 1
  sliceSizes := ![1, 1]
  wf := gather_S100000x1_S3200000x1_S3200000x1_1_0_n_n_0_1_11_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf
def dot_S100000x1_S1x32_S100000x32_1_0_0_1_n_n : DotDims S100000x1 S1x32 S100000x32 where
  lhsContracting := [1]
  rhsContracting := [0]
  lhsNonContracting := [0]
  rhsNonContracting := [1]
  lhsBatch := []
  rhsBatch := []
  wf := dot_S100000x1_S1x32_S100000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def scatter_S128x32_S100000x1_S100000x32_1_0_0_1 : ScatterDims S128x32 S100000x1 S100000x32 where
  updateWindowDims := [1]
  insertedWindowDims := [0]
  scatterDimsToOperandDims := [0]
  indexVectorDim := 1
  wf := scatter_S128x32_S100000x1_S100000x32_1_0_0_1_wf

class Facts : Prop extends Facts₀ where

variable [Facts]
-- ==== Proof.LibRows.lean ====
/-
  Rows of a matrix taken at an index vector, and rows added into a matrix at an index vector, read at one index.

  Two host operations over an operand of shape [n, c], a column of integer words of shape [e, 1], and an
  array of shape [e, c]:

  • the gather with offset axis 1, collapsed slice axis 0, start index map [0], index vector axis 1 and slice
    sizes [1, c] — what h[src] of a matrix h at an index vector src lowers to. Its element (p, q) is the
    operand's element (k, q), where k is the word idx[p, 0] read as a signed integer and clamped into
    [0, n − 1] (rowGather_apply);

  • the scatter with update window axis 1, inserted window axis 0, scatter-dims-to-operand-dims [0] and index
    vector axis 1, whose body adds — what segment_sum(u, dst, num_segments = n) lowers to (over zeros). The
    update (p, q) lands on the operand's element (r, q) exactly when the word idx[p, 0], read signed and NOT
    clamped, is r (rowScatter_resultIdx); so over the extended reals the result's element (r, q) is the
    operand's plus the sum, over all p, of upd[p, q] where idx[p, 0] = r and of 0 elsewhere
    (rowScatterAdd_apply). An index outside [0, n) names no row: its update is dropped.

  The same scatter for a rank-1 operand [n] and updates [e] (no window axis): segment_sum of a vector
  (rowScatter1_resultIdx, rowScatterAdd1_apply).

  Everything is symbolic in the extents n, e, c and the word width w; no index set is enumerated.
-/
import Idealize.ShloMosaic.PureOps.Ideal
import Idealize.ShloMosaic.Lib.ValueIdx

noncomputable section

open scoped BigOperators

namespace Cert.LibRows

open Idealize.ShloMosaic Idealize.ShloMosaic.ValueIdx

/-! ## Rows taken at an index vector -/

section RowGather
variable {α : Type}

/-- The dimension numbers of "rows of an [n, c] operand at an [e, 1] column of start indices": the result
    [e, c] has one offset axis (1), the operand's axis 0 is collapsed and is the one the start index names,
    the slice is one whole row. Their conditions wf are a parameter, decided on a program's literal shapes. -/
abbrev rowGatherDims (n e c : Nat)
    (wf : GatherDims.WF ⟨2, ![n, c]⟩ ⟨2, ![e, 1]⟩ ⟨2, ![e, c]⟩ [1] [0] [] [0] [] 1 ![1, c]) :
    GatherDims ⟨2, ![n, c]⟩ ⟨2, ![e, 1]⟩ ⟨2, ![e, c]⟩ where
  offsetDims := [1]
  collapsedSliceDims := [0]
  operandBatchingDims := []
  startIndicesBatchingDims := []
  startIndexMap := [0]
  indexVectorDim := 1
  sliceSizes := ![1, c]
  wf := wf

/-- THE ROW GATHER READ AT (p, q): the operand at row idx[p, 0] — read signed and clamped into
    [0, n − 1] — and column q. -/
theorem rowGather_apply {n e c w : Nat} (hn : 0 < n)
    (wf : GatherDims.WF ⟨2, ![n, c]⟩ ⟨2, ![e, 1]⟩ ⟨2, ![e, c]⟩ [1] [0] [] [0] [] 1 ![1, c])
    (x : (⟨2, ![n, c]⟩ : Shape).Idx → α) (idx : IVec ⟨2, ![e, 1]⟩ w) (p : Fin e) (q : Fin c) :
    Host.gather (rowGatherDims n e c wf) x idx (ix2 p q)
      = x (ix2 ⟨min (idx (ix2 p (0 : Fin 1))).toInt.toNat (n - 1), by omega⟩ q) := by
  unfold Host.gather
  congr 1
  funext a
  refine Fin.ext ?_
  match a with
  | ⟨0, _⟩ =>
    -- the row axis: collapsed (no offset), not batching, named by the start index map
    show (rowGatherDims n e c wf).start (ix2 p q) idx 0 + (rowGatherDims n e c wf).batchCoord (ix2 p q) 0
        + (rowGatherDims n e c wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims n e c wf).startIndexMap from List.mem_singleton.mpr rfl)]
    have hsi : (rowGatherDims n e c wf).siIdx (ix2 p q) ⟨List.idxOf (0 : Fin 2) (rowGatherDims n e c wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    -- the column axis: not named by the start index map (start 0), not batching, the result's offset axis
    show (rowGatherDims n e c wf).start (ix2 p q) idx 1 + (rowGatherDims n e c wf).batchCoord (ix2 p q) 1
        + (rowGatherDims n e c wf).offCoord (ix2 p q) 1 = _
    rw [GatherDims.batchCoord_eq_zero _ _ _ List.not_mem_nil]
    have hst : (rowGatherDims n e c wf).start (ix2 p q) idx 1 = 0 := by
      unfold GatherDims.start
      rw [dif_neg (show (1 : Fin 2) ∉ ([0] : List (Fin 2)) by decide)]
    rw [hst]
    simp only [Nat.add_zero, Nat.zero_add]
    rfl

end RowGather

/-! ## Rows added at an index vector -/

section RowScatter

/-- The dimension numbers of "rows of [e, c] updates added into an [n, c] operand at an [e, 1] column of
    scatter indices": the updates' axis 1 is the window axis (a whole row), the operand's axis 0 is inserted
    and is the one the scatter index names. Their conditions wf are a parameter, decided on a program's
    literal shapes. -/
abbrev rowScatterDims (n e c : Nat)
    (wf : ScatterDims.WF ⟨2, ![n, c]⟩ ⟨2, ![e, 1]⟩ ⟨2, ![e, c]⟩ [1] [0] [0] 1) :
    ScatterDims ⟨2, ![n, c]⟩ ⟨2, ![e, 1]⟩ ⟨2, ![e, c]⟩ where
  updateWindowDims := [1]
  insertedWindowDims := [0]
  scatterDimsToOperandDims := [0]
  indexVectorDim := 1
  wf := wf

/-- An axis is kept by a list of axes exactly when it is not in the list. -/
theorem mem_kept {s : Shape} (axes : List (Fin s.rank)) (a : Fin s.rank) : a ∈ s.kept axes ↔ a ∉ axes := by
  simp [Shape.kept, List.mem_filter, List.mem_finRange]

variable {n e c w : Nat} (wf : ScatterDims.WF ⟨2, ![n, c]⟩ ⟨2, ![e, 1]⟩ ⟨2, ![e, c]⟩ [1] [0] [0] 1)

/-- On the row axis the window of update (p, q) starts at the word idx[p, 0], read signed … -/
theorem rowScatter_start_row (idx : IVec ⟨2, ![e, 1]⟩ w) (p : Fin e) (q : Fin c) :
    (rowScatterDims n e c wf).start (ix2 p q) idx 0 = (idx (ix2 p (0 : Fin 1))).toInt := by
  unfold ScatterDims.start
  rw [dif_pos (show (0 : Fin 2) ∈ ([0] : List (Fin 2)) from List.mem_singleton.mpr rfl)]
  have hsi : (rowScatterDims n e c wf).siIdx (ix2 p q) ⟨List.idxOf (0 : Fin 2) (rowScatterDims n e c wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]

/-- … and on the column axis, which no scatter index names, at 0. -/
theorem rowScatter_start_col (idx : IVec ⟨2, ![e, 1]⟩ w) (p : Fin e) (q : Fin c) :
    (rowScatterDims n e c wf).start (ix2 p q) idx 1 = 0 := by
  unfold ScatterDims.start
  rw [dif_neg (show (1 : Fin 2) ∉ ([0] : List (Fin 2)) by decide)]

/-- The row axis is inserted: no window coordinate. -/
theorem rowScatter_window_row (p : Fin e) (q : Fin c) : (rowScatterDims n e c wf).window (ix2 p q) 0 = 0 := by
  unfold ScatterDims.window
  rw [dif_neg (fun h => (mem_kept (s := ⟨2, ![n, c]⟩) [0] 0).mp h (List.mem_singleton.mpr rfl))]

/-- The column axis carries the update's column. -/
theorem rowScatter_window_col (p : Fin e) (q : Fin c) : (rowScatterDims n e c wf).window (ix2 p q) 1 = q.val := by
  unfold ScatterDims.window
  rw [dif_pos ((mem_kept (s := ⟨2, ![n, c]⟩) [0] 1).mpr (show (1 : Fin 2) ∉ ([0] : List (Fin 2)) by decide))]
  rfl

/-- WHERE UPDATE (p, q) LANDS: on the operand's element (r, q') exactly when the word idx[p, 0], read
    signed, is r, and the columns agree. (An index below 0 or from n on lands nowhere.) -/
theorem rowScatter_resultIdx (idx : IVec ⟨2, ![e, 1]⟩ w) (p : Fin e) (q : Fin c) (r : Fin n) (q' : Fin c) :
    (rowScatterDims n e c wf).resultIdx? (ix2 p q) idx = some (ix2 r q')
      ↔ ((idx (ix2 p (0 : Fin 1))).toInt = (r.val : Int) ∧ q = q') := by
  have h0 := rowScatter_start_row wf idx p q
  have h1 := rowScatter_start_col wf idx p q
  have w0 := rowScatter_window_row wf p q
  have w1 := rowScatter_window_col wf p q
  unfold ScatterDims.resultIdx?
  constructor
  · intro h
    split at h
    · rename_i hb
      have hf := Option.some.inj h
      have e0 := congrArg (fun f => (f 0).val) hf
      have e1 := congrArg (fun f => (f 1).val) hf
      have b0 := (hb 0).1
      simp only [h0, w0, h1, w1] at e0 e1 b0
      change ((idx (ix2 p (0 : Fin 1))).toInt + ((0 : Nat) : Int)).toNat = r.val at e0
      change ((0 : Int) + (q.val : Int)).toNat = q'.val at e1
      refine ⟨by omega, Fin.ext (by omega)⟩
    · exact absurd h (by simp)
  · rintro ⟨hr, rfl⟩
    have hb : ∀ a, 0 ≤ (rowScatterDims n e c wf).start (ix2 p q) idx a + ((rowScatterDims n e c wf).window (ix2 p q) a : Int)
        ∧ (rowScatterDims n e c wf).start (ix2 p q) idx a + ((rowScatterDims n e c wf).window (ix2 p q) a : Int)
          < ((⟨2, ![n, c]⟩ : Shape).size a : Int) := by
      intro a
      match a with
      | ⟨0, _⟩ =>
        show 0 ≤ (rowScatterDims n e c wf).start (ix2 p q) idx 0 + ((rowScatterDims n e c wf).window (ix2 p q) 0 : Int)
          ∧ (rowScatterDims n e c wf).start (ix2 p q) idx 0 + ((rowScatterDims n e c wf).window (ix2 p q) 0 : Int) < (n : Int)
        rw [h0, w0, hr]
        have := r.isLt
        omega
      | ⟨1, _⟩ =>
        show 0 ≤ (rowScatterDims n e c wf).start (ix2 p q) idx 1 + ((rowScatterDims n e c wf).window (ix2 p q) 1 : Int)
          ∧ (rowScatterDims n e c wf).start (ix2 p q) idx 1 + ((rowScatterDims n e c wf).window (ix2 p q) 1 : Int) < (c : Int)
        rw [h1, w1]
        have := q.isLt
        omega
    rw [dif_pos hb]
    congr 1
    funext a
    refine Fin.ext ?_
    match a with
    | ⟨0, _⟩ =>
      show ((rowScatterDims n e c wf).start (ix2 p q) idx 0 + ((rowScatterDims n e c wf).window (ix2 p q) 0 : Int)).toNat = r.val
      rw [h0, w0, hr]; omega
    | ⟨1, _⟩ =>
      show ((rowScatterDims n e c wf).start (ix2 p q) idx 1 + ((rowScatterDims n e c wf).window (ix2 p q) 1 : Int)).toNat = q.val
      rw [h1, w1]; omega

/-- THE ROW SCATTER-ADD READ AT (r, q), over the extended reals: the operand's element plus the sum over all
    update rows p of upd[p, q] where idx[p, 0] = r (read signed), of 0 elsewhere. -/
theorem rowScatterAdd_apply (x : (⟨2, ![n, c]⟩ : Shape).Idx → EReal) (idx : IVec ⟨2, ![e, 1]⟩ w)
    (upd : (⟨2, ![e, c]⟩ : Shape).Idx → EReal) (r : Fin n) (q : Fin c) :
    Host.scatterAdd (F := Ideal) (φ := .f32) (rowScatterDims n e c wf) x idx upd (ix2 r q)
      = x (ix2 r q) + ∑ p : Fin e, if (idx (ix2 p (0 : Fin 1))).toInt = (r.val : Int) then upd (ix2 p q) else 0 := by
  show x (ix2 r q) + ∑ j ∈ Finset.univ.filter (fun j => (rowScatterDims n e c wf).resultIdx? j idx = some (ix2 r q)), upd j = _
  congr 1
  rw [Finset.sum_filter, sum_idx2]
  refine Finset.sum_congr rfl fun p _ => ?_
  simp only [rowScatter_resultIdx]
  by_cases hp : (idx (ix2 p (0 : Fin 1))).toInt = (r.val : Int)
  · simp only [hp, true_and]
    rw [Finset.sum_ite_eq' Finset.univ q (fun b => upd (ix2 p b))]
    simp
  · simp only [hp, false_and, if_false, Finset.sum_const_zero]

end RowScatter

/-! ## Entries added into a vector at an index vector -/

section VecScatter

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of "entries of [e] updates added into an [n] operand at an [e, 1] column of scatter
    indices": the updates have no window axis, the operand's one axis is inserted and is the one the scatter
    index names. Their conditions wf are a parameter, decided on a program's literal shapes. -/
abbrev rowScatterDims1 (n e : Nat)
    (wf : ScatterDims.WF ⟨1, ![n]⟩ ⟨2, ![e, 1]⟩ ⟨1, ![e]⟩ [] [0] [0] 1) :
    ScatterDims ⟨1, ![n]⟩ ⟨2, ![e, 1]⟩ ⟨1, ![e]⟩ where
  updateWindowDims := []
  insertedWindowDims := [0]
  scatterDimsToOperandDims := [0]
  indexVectorDim := 1
  wf := wf

variable {n e w : Nat} (wf : ScatterDims.WF ⟨1, ![n]⟩ ⟨2, ![e, 1]⟩ ⟨1, ![e]⟩ [] [0] [0] 1)

/-- The window of update p starts at the word idx[p, 0], read signed … -/
theorem rowScatter1_start (idx : IVec ⟨2, ![e, 1]⟩ w) (p : Fin e) :
    (rowScatterDims1 n e wf).start (ix1 p) idx 0 = (idx (ix2 p (0 : Fin 1))).toInt := by
  unfold ScatterDims.start
  rw [dif_pos (show (0 : Fin 1) ∈ ([0] : List (Fin 1)) from List.mem_singleton.mpr rfl)]
  have hsi : (rowScatterDims1 n e wf).siIdx (ix1 p) ⟨List.idxOf (0 : Fin 1) (rowScatterDims1 n e wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]

/-- … and the operand's one axis is inserted: no window coordinate. -/
theorem rowScatter1_window (p : Fin e) : (rowScatterDims1 n e wf).window (ix1 p) 0 = 0 := by
  unfold ScatterDims.window
  rw [dif_neg (fun h => (mem_kept (s := ⟨1, ![n]⟩) [0] 0).mp h (List.mem_singleton.mpr rfl))]

/-- WHERE UPDATE p LANDS: on the operand's element r exactly when the word idx[p, 0], read signed, is r. -/
theorem rowScatter1_resultIdx (idx : IVec ⟨2, ![e, 1]⟩ w) (p : Fin e) (r : Fin n) :
    (rowScatterDims1 n e wf).resultIdx? (ix1 p) idx = some (ix1 r)
      ↔ (idx (ix2 p (0 : Fin 1))).toInt = (r.val : Int) := by
  have h0 := rowScatter1_start wf idx p
  have w0 := rowScatter1_window wf p
  unfold ScatterDims.resultIdx?
  constructor
  · intro h
    split at h
    · rename_i hb
      have hf := Option.some.inj h
      have e0 := congrArg (fun f => (f 0).val) hf
      have b0 := (hb 0).1
      simp only [h0, w0] at e0 b0
      change ((idx (ix2 p (0 : Fin 1))).toInt + ((0 : Nat) : Int)).toNat = r.val at e0
      omega
    · exact absurd h (by simp)
  · intro hr
    have hb : ∀ a, 0 ≤ (rowScatterDims1 n e wf).start (ix1 p) idx a + ((rowScatterDims1 n e wf).window (ix1 p) a : Int)
        ∧ (rowScatterDims1 n e wf).start (ix1 p) idx a + ((rowScatterDims1 n e wf).window (ix1 p) a : Int)
          < ((⟨1, ![n]⟩ : Shape).size a : Int) := by
      intro a
      match a with
      | ⟨0, _⟩ =>
        show 0 ≤ (rowScatterDims1 n e wf).start (ix1 p) idx 0 + ((rowScatterDims1 n e wf).window (ix1 p) 0 : Int)
          ∧ (rowScatterDims1 n e wf).start (ix1 p) idx 0 + ((rowScatterDims1 n e wf).window (ix1 p) 0 : Int) < (n : Int)
        rw [h0, w0, hr]
        have := r.isLt
        omega
    rw [dif_pos hb]
    congr 1
    funext a
    refine Fin.ext ?_
    match a with
    | ⟨0, _⟩ =>
      show ((rowScatterDims1 n e wf).start (ix1 p) idx 0 + ((rowScatterDims1 n e wf).window (ix1 p) 0 : Int)).toNat = r.val
      rw [h0, w0, hr]; omega

/-- THE VECTOR SCATTER-ADD READ AT r, over the extended reals: the operand's element plus the sum over all
    updates p of upd[p] where idx[p, 0] = r (read signed), of 0 elsewhere. -/
theorem rowScatterAdd1_apply (x : (⟨1, ![n]⟩ : Shape).Idx → EReal) (idx : IVec ⟨2, ![e, 1]⟩ w)
    (upd : (⟨1, ![e]⟩ : Shape).Idx → EReal) (r : Fin n) :
    Host.scatterAdd (F := Ideal) (φ := .f32) (rowScatterDims1 n e wf) x idx upd (ix1 r)
      = x (ix1 r) + ∑ p : Fin e, if (idx (ix2 p (0 : Fin 1))).toInt = (r.val : Int) then upd (ix1 p) else 0 := by
  show x (ix1 r) + ∑ j ∈ Finset.univ.filter (fun j => (rowScatterDims1 n e wf).resultIdx? j idx = some (ix1 r)), upd j = _
  congr 1
  rw [Finset.sum_filter, sum_idx1]
  refine Finset.sum_congr rfl fun p _ => ?_
  simp only [rowScatter1_resultIdx]

end VecScatter

end Cert.LibRows

end
-- ==== Proof.Spec.lean ====
/-
  The function both programs compute, stated once over literal shapes and the extended reals.

  A graph is node features x, an edge list ei (row 0 the sources, row 1 the targets) and a graph id per node bt.
  One encoder layer adds to every node the sum of its in-neighbours' features (rows taken at the sources, added at
  the targets), multiplies by a weight matrix, adds a bias row and clamps below at zero; two such layers are followed
  by a sum of the node rows per graph id.  The result is the absolute difference of two encoded graphs.

  The neighbour sum is carried as one opaque term (aggregate): both programs apply the very same host operations for
  it, so nothing here opens it.  The dense layer and the pooling are stated entry by entry (denseAt, poolAt).
-/
import Idealize.ShloMosaic.PureOps.Ideal
import Idealize.ShloMosaic.Lib.ValueIdx
import proofs.«416997_j84361747628046_2_alg».proof.Proof.LibRows

noncomputable section

open scoped BigOperators

namespace Cert.GinSpec

open Idealize.ShloMosaic Idealize.ShloMosaic.ValueIdx Cert.LibRows

/-! ## Shapes -/

abbrev S0 : Shape := ⟨0, ![]⟩
abbrev SEdges2 : Shape := ⟨2, ![2, 3200000]⟩
abbrev SEdges1 : Shape := ⟨2, ![1, 3200000]⟩
abbrev SEdges : Shape := ⟨1, ![3200000]⟩
abbrev SEdgeCol : Shape := ⟨2, ![3200000, 1]⟩
abbrev SIds : Shape := ⟨1, ![100000]⟩
abbrev SBias : Shape := ⟨1, ![32]⟩
abbrev SRow : Shape := ⟨2, ![1, 32]⟩
abbrev SPool : Shape := ⟨2, ![128, 32]⟩
/-- Node arrays of c channels, edge arrays of c channels, weight matrices of c input channels. -/
abbrev SNode (c : Nat) : Shape := ⟨2, ![100000, c]⟩
abbrev SEdge (c : Nat) : Shape := ⟨2, ![3200000, c]⟩
abbrev SWeight (c : Nat) : Shape := ⟨2, ![c, 32]⟩

/-! ## The neighbour sum, as the host computes it -/

/-- Row r of the edge list, as a vector. -/
def edgeRow (r : Nat) (ei : IVec SEdges2 32) (hs : SEdges2.Slices ![r, 0] SEdges1) : IVec SEdges 32 :=
  shapeCast SEdges (extractStridedSlice SEdges1 ![r, 0] ei hs) (by decide)

/-- The source of every edge as a column, a negative entry raised by the node count (numpy's wrap-around). -/
def sources (ei : IVec SEdges2 32) : IVec SEdgeCol 32 :=
  broadcastInDim SEdgeCol ![0] (by decide)
    (select (cmpi .slt (edgeRow 0 ei (by decide)) (broadcastInDim SEdges ![] (by decide) (constantI S0 32 0#32)))
      (addi (edgeRow 0 ei (by decide)) (broadcastInDim SEdges ![] (by decide) (constantI S0 32 100000#32)))
      (edgeRow 0 ei (by decide)))

/-- The target of every edge as a column. -/
def targets (ei : IVec SEdges2 32) : IVec SEdgeCol 32 :=
  broadcastInDim SEdgeCol ![0] (by decide) (edgeRow 1 ei (by decide))

/-- For every node the sum of the rows of h at the sources of the edges that point at it (c channels). -/
def aggregate (c : Nat) (wg : GatherDims.WF (SNode c) SEdgeCol (SEdge c) [1] [0] [] [0] [] 1 ![1, c])
    (ws : ScatterDims.WF (SNode c) SEdgeCol (SEdge c) [1] [0] [0] 1)
    (hb : S0.BroadcastsInDim (SNode c) (![] : Fin 0 → Fin (SNode c).rank))
    (h : FVec Ideal (SNode c) .f32) (ei : IVec SEdges2 32) : FVec Ideal (SNode c) .f32 :=
  Host.scatterAdd (F := Ideal) (rowScatterDims 100000 3200000 c ws)
    (broadcastInDim (SNode c) ![] hb (constant (F := Ideal) S0 .f32 0x00000000#32)) (targets ei)
    (Host.gather (rowGatherDims 100000 3200000 c wg) h (sources ei))

theorem wg1 : GatherDims.WF (SNode 1) SEdgeCol (SEdge 1) [1] [0] [] [0] [] 1 ![1, 1] := by decide
theorem ws1 : ScatterDims.WF (SNode 1) SEdgeCol (SEdge 1) [1] [0] [0] 1 := by decide
theorem wg32 : GatherDims.WF (SNode 32) SEdgeCol (SEdge 32) [1] [0] [] [0] [] 1 ![1, 32] := by decide
theorem ws32 : ScatterDims.WF (SNode 32) SEdgeCol (SEdge 32) [1] [0] [0] 1 := by decide
theorem hb1 : S0.BroadcastsInDim (SNode 1) (![] : Fin 0 → Fin (SNode 1).rank) := by decide
theorem hb32 : S0.BroadcastsInDim (SNode 32) (![] : Fin 0 → Fin (SNode 32).rank) := by decide
theorem wsPool : ScatterDims.WF SPool (SNode 1) (SNode 32) [1] [0] [0] 1 := by decide

/-! ## The dense layer and the pooling, entry by entry -/

/-- Entry (n, q) of a dense layer over c input channels: the clamp at zero of the row (x + a)[n, ·] times the
    column W[·, q], plus the bias b[0, q]. -/
def denseAt (c : Nat) (x a : FVec Ideal (SNode c) .f32) (W : FVec Ideal (SWeight c) .f32) (b : FVec Ideal SRow .f32)
    (n : Fin 100000) (q : Fin 32) : EReal :=
  max ((∑ k : Fin c, (x (ix2 n k) + a (ix2 n k)) * W (ix2 k q)) + b (ix2 (0 : Fin 1) q)) 0

/-- The dense layer's whole result. -/
def dense (c : Nat) (x a : FVec Ideal (SNode c) .f32) (W : FVec Ideal (SWeight c) .f32) (b : FVec Ideal SRow .f32) :
    FVec Ideal (SNode 32) .f32 :=
  fun j => denseAt c x a W b (j 0) (j 1)

theorem dense_ix2 (c : Nat) (x a : FVec Ideal (SNode c) .f32) (W : FVec Ideal (SWeight c) .f32) (b : FVec Ideal SRow .f32)
    (n : Fin 100000) (q : Fin 32) : dense c x a W b (ix2 n q) = denseAt c x a W b n q := rfl

/-- Entry (g, q) of the pooling: the sum of h[p, q] over the nodes p whose graph id, read signed, is g. -/
def poolAt (h : FVec Ideal (SNode 32) .f32) (ids : IVec (SNode 1) 32) (g : Fin 128) (q : Fin 32) : EReal :=
  ∑ p : Fin 100000, if (ids (ix2 p (0 : Fin 1))).toInt = (g.val : Int) then h (ix2 p q) else 0

/-- The pooling's whole result. -/
def pool (h : FVec Ideal (SNode 32) .f32) (ids : IVec (SNode 1) 32) : FVec Ideal SPool .f32 :=
  fun j => poolAt h ids (j 0) (j 1)

theorem pool_ix2 (h : FVec Ideal (SNode 32) .f32) (ids : IVec (SNode 1) 32) (g : Fin 128) (q : Fin 32) :
    pool h ids (ix2 g q) = poolAt h ids g q := rfl

/-- A bias vector as a one-row matrix. -/
def biasRow (b : FVec Ideal SBias .f32) : FVec Ideal SRow .f32 := fun j => b (ix1 (j 1))
/-- The graph ids as a column. -/
def idCol (bt : IVec SIds 32) : IVec (SNode 1) 32 := fun j => bt (ix1 (j 0))

/-! ## One graph encoded, and the result -/

/-- The first layer's node features. -/
def layer1 (x : FVec Ideal (SNode 1) .f32) (ei : IVec SEdges2 32) (W1 : FVec Ideal (SWeight 1) .f32)
    (b1 : FVec Ideal SBias .f32) : FVec Ideal (SNode 32) .f32 :=
  dense 1 x (aggregate 1 wg1 ws1 hb1 x ei) W1 (biasRow b1)

/-- The second layer's node features, from the first's. -/
def layer2 (h : FVec Ideal (SNode 32) .f32) (ei : IVec SEdges2 32) (W2 : FVec Ideal (SWeight 32) .f32)
    (b2 : FVec Ideal SBias .f32) : FVec Ideal (SNode 32) .f32 :=
  dense 32 h (aggregate 32 wg32 ws32 hb32 h ei) W2 (biasRow b2)

/-- A graph's pooled encoding. -/
def encode (x : FVec Ideal (SNode 1) .f32) (ei : IVec SEdges2 32) (bt : IVec SIds 32) (W1 : FVec Ideal (SWeight 1) .f32)
    (b1 : FVec Ideal SBias .f32) (W2 : FVec Ideal (SWeight 32) .f32) (b2 : FVec Ideal SBias .f32) : FVec Ideal SPool .f32 :=
  pool (layer2 (layer1 x ei W1 b1) ei W2 b2) (idCol bt)

/-- THE RESULT: the absolute difference of the two graphs' encodings. -/
def result (x1 : FVec Ideal (SNode 1) .f32) (ei1 : IVec SEdges2 32) (bt1 : IVec SIds 32)
    (x2 : FVec Ideal (SNode 1) .f32) (ei2 : IVec SEdges2 32) (bt2 : IVec SIds 32)
    (W1 : FVec Ideal (SWeight 1) .f32) (b1 : FVec Ideal SBias .f32) (W2 : FVec Ideal (SWeight 32) .f32)
    (b2 : FVec Ideal SBias .f32) : FVec Ideal SPool .f32 :=
  Host.absf (F := Ideal) (subf (F := Ideal) (encode x1 ei1 bt1 W1 b1 W2 b2) (encode x2 ei2 bt2 W1 b1 W2 b2))

end Cert.GinSpec

end
-- ==== Proof.KArgs.lean ====
/-
  The launch memory's ten argument arrays, each named at its literal type.
-/
import proofs.«416997_j84361747628046_2_alg».proof.Proof.Gen.KernelIdeal.Frame
import proofs.«416997_j84361747628046_2_alg».proof.Proof.Spec

set_option maxRecDepth 16384

noncomputable section

open scoped BigOperators

namespace Cert.KernelIdeal.Fold

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GinSpec

variable (m : (ℓ : Loc nD τ sig) → Buf (Elt Ideal) ℓ)

/-- Graph 1: node features, edge list, graph ids. -/
abbrev ax1 (c : Dev nD) : FVec Ideal (SNode 1) .f32 := m ((c.tc : Thread nD τ).loc main_arg0)
abbrev aei1 (c : Dev nD) : IVec SEdges2 32 := m ((c.tc : Thread nD τ).loc main_arg1)
abbrev abt1 (c : Dev nD) : IVec SIds 32 := m ((c.tc : Thread nD τ).loc main_arg2)
/-- Graph 2: node features, edge list, graph ids. -/
abbrev ax2 (c : Dev nD) : FVec Ideal (SNode 1) .f32 := m ((c.tc : Thread nD τ).loc main_arg3)
abbrev aei2 (c : Dev nD) : IVec SEdges2 32 := m ((c.tc : Thread nD τ).loc main_arg4)
abbrev abt2 (c : Dev nD) : IVec SIds 32 := m ((c.tc : Thread nD τ).loc main_arg5)
/-- The two layers' weights and biases. -/
abbrev aW1 (c : Dev nD) : FVec Ideal (SWeight 1) .f32 := m ((c.tc : Thread nD τ).loc main_arg6)
abbrev ab1 (c : Dev nD) : FVec Ideal SBias .f32 := m ((c.tc : Thread nD τ).loc main_arg7)
abbrev aW2 (c : Dev nD) : FVec Ideal (SWeight 32) .f32 := m ((c.tc : Thread nD τ).loc main_arg8)
abbrev ab2 (c : Dev nD) : FVec Ideal SBias .f32 := m ((c.tc : Thread nD τ).loc main_arg9)

end Cert.KernelIdeal.Fold

end
-- ==== Proof.Dense1Region.lean ====
/-
  The first dense layer's two launches (one per graph) as whole-array facts: whatever the TensorCore's buffers hold
  when the launch is entered, the output array ends at the dense layer of the four input arrays.

  Each launch runs 50 grid points.  Point t holds rows 2000·t … 2000·t + 1999 of the two node arrays, the whole
  weight row and the whole bias row, and writes rows 2000·t … 2000·t + 1999 of the output.  Entry (p, q) of what it
  writes is max ((x + a)[p, ·] · W[·, q] + b[0, q], 0): the product into a zero accumulator is the plain sum over
  the one input channel, and the changes of float format are the identity over the extended reals.  The 50 row
  blocks tile the 100000 rows, so the array ends at the dense layer entry by entry.
-/
import proofs.«416997_j84361747628046_2_alg».proof.Proof.Gen.KernelIdeal.Frame
import proofs.«416997_j84361747628046_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Dense1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GinSpec

/-! ## The product's operand indices

The product contracts the left operand's axis 1 with the right operand's axis 0.  At output entry (i₀, i₁) and
contraction coordinate k the left operand is read at (i₀, k) and the right one at (k, i₁); one lemma per axis. -/

theorem lhs_ax0 (i : S2000x32.Idx) (q : dot_S2000x1_S1x32_S2000x32_1_0_0_1_n_n.contr.Idx) :
    (dot_S2000x1_S1x32_S2000x32_1_0_0_1_n_n.lhsIdx i q 0).val = (i 0).val := by
  unfold DotDims.lhsIdx
  rw [dif_neg (show ¬(0 : Fin S2000x1.rank) ∈ dot_S2000x1_S1x32_S2000x32_1_0_0_1_n_n.lhsBatch by decide), dif_pos (show (0 : Fin S2000x1.rank) ∈ dot_S2000x1_S1x32_S2000x32_1_0_0_1_n_n.lhsNonContracting by decide)]
  rfl
theorem lhs_ax1 (i : S2000x32.Idx) (q : dot_S2000x1_S1x32_S2000x32_1_0_0_1_n_n.contr.Idx) :
    (dot_S2000x1_S1x32_S2000x32_1_0_0_1_n_n.lhsIdx i q 1).val = (q ⟨0, by decide⟩).val :=
  dot_S2000x1_S1x32_S2000x32_1_0_0_1_n_n.lhsIdx_val_of_single rfl i q
theorem rhs_ax0 (i : S2000x32.Idx) (q : dot_S2000x1_S1x32_S2000x32_1_0_0_1_n_n.contr.Idx) :
    (dot_S2000x1_S1x32_S2000x32_1_0_0_1_n_n.rhsIdx i q 0).val = (q ⟨0, by decide⟩).val :=
  dot_S2000x1_S1x32_S2000x32_1_0_0_1_n_n.rhsIdx_val_of_single rfl i q
theorem rhs_ax1 (i : S2000x32.Idx) (q : dot_S2000x1_S1x32_S2000x32_1_0_0_1_n_n.contr.Idx) :
    (dot_S2000x1_S1x32_S2000x32_1_0_0_1_n_n.rhsIdx i q 1).val = (i 1).val := by
  unfold DotDims.rhsIdx
  rw [dif_neg (show ¬(1 : Fin S1x32.rank) ∈ dot_S2000x1_S1x32_S2000x32_1_0_0_1_n_n.rhsBatch by decide), dif_pos (show (1 : Fin S1x32.rank) ∈ dot_S2000x1_S1x32_S2000x32_1_0_0_1_n_n.rhsNonContracting by decide)]
  rfl

/-- The [2000, 1] × [1, 32] product into the zero accumulator, at entry (p, q): the sum over the one channel k of
    l[p, k] · r[k, q]. -/
theorem matmul_at (l : FVec Ideal S2000x1 .bf16) (r : FVec Ideal S1x32 .bf16) (p : Fin 2000) (q : Fin 32) :
    FloatOps.matmul dot_S2000x1_S1x32_S2000x32_1_0_0_1_n_n none l r (constant (F := Ideal) S2000x32 .f32 0x00000000#32) (ix2 p q)
      = ∑ k : Fin 1, l (ix2 p k) * r (ix2 k q) := by
  rw [Ideal.matmul_constant_zero_apply, ← Equiv.sum_comp (ValueIdx.contrEquiv1 dot_S2000x1_S1x32_S2000x32_1_0_0_1_n_n 1 rfl rfl).symm]
  refine Finset.sum_congr rfl fun k _ => ?_
  have hk := ValueIdx.contrEquiv1_symm_val dot_S2000x1_S1x32_S2000x32_1_0_0_1_n_n 1 rfl rfl k
  have el : dot_S2000x1_S1x32_S2000x32_1_0_0_1_n_n.lhsIdx (ix2 p q) ((ValueIdx.contrEquiv1 dot_S2000x1_S1x32_S2000x32_1_0_0_1_n_n 1 rfl rfl).symm k) = ix2 p k := funext fun a => Fin.ext (by
    match a with
    | ⟨0, _⟩ => exact lhs_ax0 _ _
    | ⟨1, _⟩ => exact (lhs_ax1 _ _).trans hk)
  have er : dot_S2000x1_S1x32_S2000x32_1_0_0_1_n_n.rhsIdx (ix2 p q) ((ValueIdx.contrEquiv1 dot_S2000x1_S1x32_S2000x32_1_0_0_1_n_n 1 rfl rfl).symm k) = ix2 k q := funext fun a => Fin.ext (by
    match a with
    | ⟨0, _⟩ => exact (rhs_ax0 _ _).trans hk
    | ⟨1, _⟩ => exact rhs_ax1 _ _)
  rw [el, er]

/-! ## The body's result at an entry -/

/-- Entry (p, q) of the body's result from its four loaded blocks: the clamp at zero of the row (x0 + x1)[p, ·]
    times the column x2[·, q], plus x3[0, q].  The casts to the same shape and the narrowings of the float format
    change nothing; the bias row is repeated down the 2000 rows; the clamp's other operand is the zero word. -/
theorem pay_apply (x0 x1 : Vec Ideal S2000x1 .f32) (x2 x3 : Vec Ideal S1x32 .f32) (p : Fin 2000) (q : Fin 32) :
    k0_pay1 (F := Ideal) x0 x1 x2 x3 (ix2 p q)
      = max ((∑ k : Fin 1, (x0 (ix2 p k) + x1 (ix2 p k)) * x2 (ix2 k q)) + x3 (ix2 (0 : Fin 1) q)) 0 := by
  unfold k0_pay1
  rw [shapeCast_self, shapeCast_self]
  show max (FloatOps.matmul dot_S2000x1_S1x32_S2000x32_1_0_0_1_n_n none
        (truncf (F := Ideal) FTy.bf16 (addf (F := Ideal) x0 x1) bitsLt_bf16_f32) (truncf (F := Ideal) FTy.bf16 x2 bitsLt_bf16_f32)
        (constant (F := Ideal) S2000x32 .f32 0x00000000#32) (ix2 p q)
      + broadcastTo S2000x32 x3 broadcasts_S1x32_S2000x32 (ix2 p q)) (Ideal.ofBits .f32 0x00000000#32) = _
  rw [matmul_at, broadcastTo_1b_ab_apply, Ideal.ofBits_zero_f32]
  rfl

/-- The second graph's launch has the same body. -/
theorem pay3_eq (x0 x1 : Vec Ideal S2000x1 .f32) (x2 x3 : Vec Ideal S1x32 .f32) :
    k3_pay1 (F := Ideal) x0 x1 x2 x3 = k0_pay1 (F := Ideal) x0 x1 x2 x3 := rfl

/-- One grid point's output block from the point's four input blocks, when the first two are the rows row(·) of the
    node arrays X and A and the last two are the whole weight row W and the whole bias row B: entry (p, q) is the dense
    layer's entry (row p, q). -/
theorem point_value (X A : FVec Ideal (SNode 1) .f32) (W : FVec Ideal (SWeight 1) .f32) (B : FVec Ideal SRow .f32)
    (x0 x1 : Vec Ideal S2000x1 .f32) (x2 x3 : Vec Ideal S1x32 .f32) (row : Fin 2000 → Fin 100000)
    (h0 : ∀ (p : Fin 2000) (k : Fin 1), x0 (ix2 p k) = X (ix2 (row p) k))
    (h1 : ∀ (p : Fin 2000) (k : Fin 1), x1 (ix2 p k) = A (ix2 (row p) k))
    (h2 : ∀ (k : Fin 1) (q : Fin 32), x2 (ix2 k q) = W (ix2 k q))
    (h3 : ∀ (q : Fin 32), x3 (ix2 (0 : Fin 1) q) = B (ix2 (0 : Fin 1) q))
    (p : Fin 2000) (q : Fin 32) :
    k0_pay1 (F := Ideal) x0 x1 x2 x3 (ix2 p q) = denseAt 1 X A W B (row p) q := by
  rw [pay_apply]
  unfold denseAt
  rw [h3 q]
  refine congrArg (fun s => max (s + B (ix2 (0 : Fin 1) q)) 0) (Finset.sum_congr rfl fun k _ => ?_)
  rw [h0 p k, h1 p k, h2 k q]

/-- The zero offsets of a whole-buffer access. -/
theorem hz : (![0, 0] : Fin 2 → Nat) = fun _ => 0 := funext fun a => by
  match a with
  | ⟨0, _⟩ => rfl
  | ⟨1, _⟩ => rfl

variable (V : (c : Dev nD) → (b : Ref sig .tc) → Buf (Elt Ideal) ((c : Thread nD τ).loc b))

/-! ## Launch 0: the first graph's first layer -/

/-- The block index of every window at every point: the node arrays' windows and the output's move down the rows with
    the point, (t, 0); the weight's and the bias's stay at (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What point t writes back is rows 2000·t … 2000·t + 1999 of the dense layer of the four arrays: entry (p, q) of
    the block sits at row 2000·t + p of the output, and the point's node blocks hold exactly that row of x and a. -/
theorem flushed0_eq (c : Dev nD) (t : Fin cfg0.N) :
    (dat0 (F := Ideal) V c).flushed 4 t
      = ((cfg0.win 4).blk t).view.read (Elt Ideal) (dense 1 (V c main_arg0) (V c main_v13) (V c main_arg6) (V c main_v14)) := by
  show (cfg0.win 4).cut (grid0.coords t) ((dat0 V c).after 4 t) = _
  rw [after0_4]
  unfold out0_4
  rw [View.canon_unit_zero hz]
  simp only [View.ld_unit_zero (S := S2000x1) hz, View.ld_unit_zero (S := S1x32) hz]
  obtain ⟨e00, e01, e10, e11, e20, e21, e30, e31, e40, e41⟩ := idx_facts0 t
  have ht : t.val < 50 := lt_of_lt_of_eq t.isLt N_0
  funext j
  obtain ⟨p, q, rfl⟩ : ∃ (p : Fin 2000) (q : Fin 32), j = ix2 p q := ⟨j 0, j 1, eq_ix2 j⟩
  have hrow : ∀ p : Fin 2000, 2000 * t.val + p.val < 100000 := fun p => by have := p.isLt; omega
  show k0_pay1 (F := Ideal) (iblk0 V c 0 t) (iblk0 V c 1 t) (iblk0 V c 2 t) (iblk0 V c 3 t) (ix2 p q)
    = dense 1 (V c main_arg0) (V c main_v13) (V c main_arg6) (V c main_v14) (((cfg0.win 4).blk t).view.emb (ix2 p q))
  have he : ((cfg0.win 4).blk t).view.emb (ix2 p q) = ix2 (⟨2000 * t.val + p.val, hrow p⟩ : Fin 100000) q := by
    funext a; apply Fin.ext
    match a with
    | ⟨0, _⟩ => show win0_4.index t (0 : Fin 2) * 2000 + 1 * p.val = 2000 * t.val + p.val; rw [e40]; omega
    | ⟨1, _⟩ => show win0_4.index t (1 : Fin 2) * 32 + 1 * q.val = q.val; rw [e41]; omega
  rw [he, dense_ix2]
  refine point_value (V c main_arg0) (V c main_v13) (V c main_arg6) (V c main_v14)
    (iblk0 V c 0 t) (iblk0 V c 1 t) (iblk0 V c 2 t) (iblk0 V c 3 t) (fun p => ⟨2000 * t.val + p.val, hrow p⟩) ?_ ?_ ?_ ?_ p q
  · intro p k
    show V c main_arg0 (((cfg0.win 0).blk t).view.emb (ix2 p k)) = V c main_arg0 (ix2 (⟨2000 * t.val + p.val, hrow p⟩ : Fin 100000) k)
    refine congrArg (V c main_arg0) (funext fun a => Fin.ext ?_)
    match a with
    | ⟨0, _⟩ => show win0_0.index t (0 : Fin 2) * 2000 + 1 * p.val = 2000 * t.val + p.val; rw [e00]; omega
    | ⟨1, _⟩ => show win0_0.index t (1 : Fin 2) * 1 + 1 * k.val = k.val; rw [e01]; omega
  · intro p k
    show V c main_v13 (((cfg0.win 1).blk t).view.emb (ix2 p k)) = V c main_v13 (ix2 (⟨2000 * t.val + p.val, hrow p⟩ : Fin 100000) k)
    refine congrArg (V c main_v13) (funext fun a => Fin.ext ?_)
    match a with
    | ⟨0, _⟩ => show win0_1.index t (0 : Fin 2) * 2000 + 1 * p.val = 2000 * t.val + p.val; rw [e10]; omega
    | ⟨1, _⟩ => show win0_1.index t (1 : Fin 2) * 1 + 1 * k.val = k.val; rw [e11]; omega
  · intro k q
    show V c main_arg6 (((cfg0.win 2).blk t).view.emb (ix2 k q)) = V c main_arg6 (ix2 k q)
    refine congrArg (V c main_arg6) (funext fun a => Fin.ext ?_)
    match a with
    | ⟨0, _⟩ => show win0_2.index t (0 : Fin 2) * 1 + 1 * k.val = k.val; rw [e20]; omega
    | ⟨1, _⟩ => show win0_2.index t (1 : Fin 2) * 32 + 1 * q.val = q.val; rw [e21]; omega
  · intro q
    show V c main_v14 (((cfg0.win 3).blk t).view.emb (ix2 (0 : Fin 1) q)) = V c main_v14 (ix2 (0 : Fin 1) q)
    refine congrArg (V c main_v14) (funext fun a => Fin.ext ?_)
    match a with
    | ⟨0, _⟩ => show win0_3.index t (0 : Fin 2) * 1 + 1 * (0 : Fin 1).val = (0 : Fin 1).val; rw [e30]; rfl
    | ⟨1, _⟩ => show win0_3.index t (1 : Fin 2) * 32 + 1 * q.val = q.val; rw [e31]; omega

/-- An entry of the output array lies in point t's block iff, on each axis, its coordinate is within the block's
    extent from the block's first coordinate. -/
theorem mem_blk0 (t : Fin cfg0.N) (i : S100000x32.Idx) :
    i ∈ ((cfg0.win 4).blk t).view.set ↔ ∀ a : Fin 2, win0_4.index t a * S2000x32.size a ≤ (i a).val ∧ (i a).val < win0_4.index t a * S2000x32.size a + S2000x32.size a := by
  show i ∈ ((View.whole main_v15).slice (win0_4.rect t)).set ↔ _
  rw [View.set_slice_whole, Rect.mem_set_unit]
  exact Iff.rfl

/-- Every entry of the output array is written: row r by point r / 2000. -/
theorem cover0 (i : S100000x32.Idx) : ∃ t : Fin cfg0.N, (cfg0.win 4).flush t = true ∧ i ∈ ((cfg0.win 4).blk t).view.set := by
  have hi0 : (i 0).val < 100000 := (i 0).isLt
  have hi1 : (i 1).val < 32 := (i 1).isLt
  have hN : cfg0.N = 50 := N_0
  let t : Fin cfg0.N := ⟨(i 0).val / 2000, by rw [hN]; omega⟩
  obtain ⟨-, -, -, -, -, -, -, -, e40, e41⟩ := idx_facts0 t
  have e40' : win0_4.index t (0 : Fin 2) = (i 0).val / 2000 := e40
  refine ⟨t, flush0_4 t, ?_⟩
  rw [mem_blk0]
  intro a
  match a with
  | ⟨0, _⟩ => show win0_4.index t (0 : Fin 2) * 2000 ≤ (i 0).val ∧ (i 0).val < win0_4.index t (0 : Fin 2) * 2000 + 2000; rw [e40']; omega
  | ⟨1, _⟩ => show win0_4.index t (1 : Fin 2) * 32 ≤ (i 1).val ∧ (i 1).val < win0_4.index t (1 : Fin 2) * 32 + 32; rw [e41]; omega

/-- Launch 0 (graph 1, layer 1): the output array main_v15 after all 50 write-backs. -/
theorem region0 (c : Dev nD) :
    (dat0 (F := Ideal) V c).arrAt 4 cfg0.N = dense 1 (V c main_arg0) (V c main_v13) (V c main_arg6) (V c main_v14) :=
  (dat0 (F := Ideal) V c).arrAt_eq_of_cover 4 (dense 1 (V c main_arg0) (V c main_v13) (V c main_arg6) (V c main_v14))
    (fun t _ => flushed0_eq V c t) cover0

/-! ## Launch 3: the second graph's first layer -/

/-- The block index of every window at every point: the node arrays' windows and the output's move down the rows with
    the point, (t, 0); the weight's and the bias's stay at (0, 0). -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What point t writes back is rows 2000·t … 2000·t + 1999 of the dense layer of the four arrays: entry (p, q) of
    the block sits at row 2000·t + p of the output, and the point's node blocks hold exactly that row of x and a. -/
theorem flushed3_eq (c : Dev nD) (t : Fin cfg3.N) :
    (dat3 (F := Ideal) V c).flushed 4 t
      = ((cfg3.win 4).blk t).view.read (Elt Ideal) (dense 1 (V c main_arg3) (V c main_v43) (V c main_arg6) (V c main_v44)) := by
  show (cfg3.win 4).cut (grid3.coords t) ((dat3 V c).after 4 t) = _
  rw [after3_4]
  unfold out3_4
  rw [View.canon_unit_zero hz]
  simp only [View.ld_unit_zero (S := S2000x1) hz, View.ld_unit_zero (S := S1x32) hz]
  obtain ⟨e00, e01, e10, e11, e20, e21, e30, e31, e40, e41⟩ := idx_facts3 t
  have ht : t.val < 50 := lt_of_lt_of_eq t.isLt N_3
  funext j
  obtain ⟨p, q, rfl⟩ : ∃ (p : Fin 2000) (q : Fin 32), j = ix2 p q := ⟨j 0, j 1, eq_ix2 j⟩
  have hrow : ∀ p : Fin 2000, 2000 * t.val + p.val < 100000 := fun p => by have := p.isLt; omega
  show k3_pay1 (F := Ideal) (iblk3 V c 0 t) (iblk3 V c 1 t) (iblk3 V c 2 t) (iblk3 V c 3 t) (ix2 p q)
    = dense 1 (V c main_arg3) (V c main_v43) (V c main_arg6) (V c main_v44) (((cfg3.win 4).blk t).view.emb (ix2 p q))
  have he : ((cfg3.win 4).blk t).view.emb (ix2 p q) = ix2 (⟨2000 * t.val + p.val, hrow p⟩ : Fin 100000) q := by
    funext a; apply Fin.ext
    match a with
    | ⟨0, _⟩ => show win3_4.index t (0 : Fin 2) * 2000 + 1 * p.val = 2000 * t.val + p.val; rw [e40]; omega
    | ⟨1, _⟩ => show win3_4.index t (1 : Fin 2) * 32 + 1 * q.val = q.val; rw [e41]; omega
  rw [he, dense_ix2]
  refine (congrFun (pay3_eq (iblk3 V c 0 t) (iblk3 V c 1 t) (iblk3 V c 2 t) (iblk3 V c 3 t)) (ix2 p q)).trans ?_
  refine point_value (V c main_arg3) (V c main_v43) (V c main_arg6) (V c main_v44)
    (iblk3 V c 0 t) (iblk3 V c 1 t) (iblk3 V c 2 t) (iblk3 V c 3 t) (fun p => ⟨2000 * t.val + p.val, hrow p⟩) ?_ ?_ ?_ ?_ p q
  · intro p k
    show V c main_arg3 (((cfg3.win 0).blk t).view.emb (ix2 p k)) = V c main_arg3 (ix2 (⟨2000 * t.val + p.val, hrow p⟩ : Fin 100000) k)
    refine congrArg (V c main_arg3) (funext fun a => Fin.ext ?_)
    match a with
    | ⟨0, _⟩ => show win3_0.index t (0 : Fin 2) * 2000 + 1 * p.val = 2000 * t.val + p.val; rw [e00]; omega
    | ⟨1, _⟩ => show win3_0.index t (1 : Fin 2) * 1 + 1 * k.val = k.val; rw [e01]; omega
  · intro p k
    show V c main_v43 (((cfg3.win 1).blk t).view.emb (ix2 p k)) = V c main_v43 (ix2 (⟨2000 * t.val + p.val, hrow p⟩ : Fin 100000) k)
    refine congrArg (V c main_v43) (funext fun a => Fin.ext ?_)
    match a with
    | ⟨0, _⟩ => show win3_1.index t (0 : Fin 2) * 2000 + 1 * p.val = 2000 * t.val + p.val; rw [e10]; omega
    | ⟨1, _⟩ => show win3_1.index t (1 : Fin 2) * 1 + 1 * k.val = k.val; rw [e11]; omega
  · intro k q
    show V c main_arg6 (((cfg3.win 2).blk t).view.emb (ix2 k q)) = V c main_arg6 (ix2 k q)
    refine congrArg (V c main_arg6) (funext fun a => Fin.ext ?_)
    match a with
    | ⟨0, _⟩ => show win3_2.index t (0 : Fin 2) * 1 + 1 * k.val = k.val; rw [e20]; omega
    | ⟨1, _⟩ => show win3_2.index t (1 : Fin 2) * 32 + 1 * q.val = q.val; rw [e21]; omega
  · intro q
    show V c main_v44 (((cfg3.win 3).blk t).view.emb (ix2 (0 : Fin 1) q)) = V c main_v44 (ix2 (0 : Fin 1) q)
    refine congrArg (V c main_v44) (funext fun a => Fin.ext ?_)
    match a with
    | ⟨0, _⟩ => show win3_3.index t (0 : Fin 2) * 1 + 1 * (0 : Fin 1).val = (0 : Fin 1).val; rw [e30]; rfl
    | ⟨1, _⟩ => show win3_3.index t (1 : Fin 2) * 32 + 1 * q.val = q.val; rw [e31]; omega

/-- An entry of the output array lies in point t's block iff, on each axis, its coordinate is within the block's
    extent from the block's first coordinate. -/
theorem mem_blk3 (t : Fin cfg3.N) (i : S100000x32.Idx) :
    i ∈ ((cfg3.win 4).blk t).view.set ↔ ∀ a : Fin 2, win3_4.index t a * S2000x32.size a ≤ (i a).val ∧ (i a).val < win3_4.index t a * S2000x32.size a + S2000x32.size a := by
  show i ∈ ((View.whole main_v45).slice (win3_4.rect t)).set ↔ _
  rw [View.set_slice_whole, Rect.mem_set_unit]
  exact Iff.rfl

/-- Every entry of the output array is written: row r by point r / 2000. -/
theorem cover3 (i : S100000x32.Idx) : ∃ t : Fin cfg3.N, (cfg3.win 4).flush t = true ∧ i ∈ ((cfg3.win 4).blk t).view.set := by
  have hi0 : (i 0).val < 100000 := (i 0).isLt
  have hi1 : (i 1).val < 32 := (i 1).isLt
  have hN : cfg3.N = 50 := N_3
  let t : Fin cfg3.N := ⟨(i 0).val / 2000, by rw [hN]; omega⟩
  obtain ⟨-, -, -, -, -, -, -, -, e40, e41⟩ := idx_facts3 t
  have e40' : win3_4.index t (0 : Fin 2) = (i 0).val / 2000 := e40
  refine ⟨t, flush3_4 t, ?_⟩
  rw [mem_blk3]
  intro a
  match a with
  | ⟨0, _⟩ => show win3_4.index t (0 : Fin 2) * 2000 ≤ (i 0).val ∧ (i 0).val < win3_4.index t (0 : Fin 2) * 2000 + 2000; rw [e40']; omega
  | ⟨1, _⟩ => show win3_4.index t (1 : Fin 2) * 32 ≤ (i 1).val ∧ (i 1).val < win3_4.index t (1 : Fin 2) * 32 + 32; rw [e41]; omega

/-- Launch 3 (graph 2, layer 1): the output array main_v45 after all 50 write-backs. -/
theorem region3 (c : Dev nD) :
    (dat3 (F := Ideal) V c).arrAt 4 cfg3.N = dense 1 (V c main_arg3) (V c main_v43) (V c main_arg6) (V c main_v44) :=
  (dat3 (F := Ideal) V c).arrAt_eq_of_cover 4 (dense 1 (V c main_arg3) (V c main_v43) (V c main_arg6) (V c main_v44))
    (fun t _ => flushed3_eq V c t) cover3

end Cert.KernelIdeal.Dense1

end
-- ==== Proof.Dense32Region.lean ====
/-
  The second dense layer's two launches (one per graph) as whole-array facts: whatever the TensorCore's buffers hold
  when the launch is entered, the output array ends at the dense layer of the four input arrays.
-/
import proofs.«416997_j84361747628046_2_alg».proof.Proof.Gen.KernelIdeal.Frame
import proofs.«416997_j84361747628046_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Dense32

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GinSpec

/-! ## The body's arithmetic at an entry

The body forms x + a on the block, multiplies by the whole weight matrix (one contraction axis of extent 32: the
block's columns against the matrix's rows), adds the bias row to every row and clamps below at zero.  The operand
indices of the product at output entry (p, q) and contraction coordinate k are (p, k) and (k, q). -/

/-- Axis 0 of the left operand's index is the output's row. -/
theorem lhs_axis0 (i : S2000x32.Idx) (q : dot_S2000x32_S32x32_S2000x32_1_0_0_1_n_n.contr.Idx) :
    (dot_S2000x32_S32x32_S2000x32_1_0_0_1_n_n.lhsIdx i q 0).val = (i 0).val := by
  unfold DotDims.lhsIdx
  rw [dif_neg (show ¬(0 : Fin S2000x32.rank) ∈ dot_S2000x32_S32x32_S2000x32_1_0_0_1_n_n.lhsBatch by decide), dif_pos (show (0 : Fin S2000x32.rank) ∈ dot_S2000x32_S32x32_S2000x32_1_0_0_1_n_n.lhsNonContracting by decide)]
  rfl
/-- Axis 1 of the left operand's index is the contraction coordinate. -/
theorem lhs_axis1 (i : S2000x32.Idx) (q : dot_S2000x32_S32x32_S2000x32_1_0_0_1_n_n.contr.Idx) :
    (dot_S2000x32_S32x32_S2000x32_1_0_0_1_n_n.lhsIdx i q 1).val = (q ⟨0, by decide⟩).val :=
  dot_S2000x32_S32x32_S2000x32_1_0_0_1_n_n.lhsIdx_val_of_single rfl i q
/-- Axis 0 of the right operand's index is the contraction coordinate. -/
theorem rhs_axis0 (i : S2000x32.Idx) (q : dot_S2000x32_S32x32_S2000x32_1_0_0_1_n_n.contr.Idx) :
    (dot_S2000x32_S32x32_S2000x32_1_0_0_1_n_n.rhsIdx i q 0).val = (q ⟨0, by decide⟩).val :=
  dot_S2000x32_S32x32_S2000x32_1_0_0_1_n_n.rhsIdx_val_of_single rfl i q
/-- Axis 1 of the right operand's index is the output's column. -/
theorem rhs_axis1 (i : S2000x32.Idx) (q : dot_S2000x32_S32x32_S2000x32_1_0_0_1_n_n.contr.Idx) :
    (dot_S2000x32_S32x32_S2000x32_1_0_0_1_n_n.rhsIdx i q 1).val = (i 1).val := by
  unfold DotDims.rhsIdx
  rw [dif_neg (show ¬(1 : Fin S32x32.rank) ∈ dot_S2000x32_S32x32_S2000x32_1_0_0_1_n_n.rhsBatch by decide), dif_pos (show (1 : Fin S32x32.rank) ∈ dot_S2000x32_S32x32_S2000x32_1_0_0_1_n_n.rhsNonContracting by decide)]
  rfl

/-- The product into a zero accumulator at entry (p, q): the sum over the 32 channels k of l[p, k] · r[k, q]. -/
theorem product_entry (l : FVec Ideal S2000x32 .bf16) (r : FVec Ideal S32x32 .bf16) (p : Fin 2000) (q : Fin 32) :
    FloatOps.matmul dot_S2000x32_S32x32_S2000x32_1_0_0_1_n_n none l r (constant (F := Ideal) S2000x32 .f32 0x00000000#32) (ix2 p q)
      = ∑ k : Fin 32, l (ix2 p k) * r (ix2 k q) := by
  rw [Ideal.matmul_constant_zero_apply, ← Equiv.sum_comp (contrEquiv1 dot_S2000x32_S32x32_S2000x32_1_0_0_1_n_n 32 rfl rfl).symm]
  refine Finset.sum_congr rfl fun k _ => ?_
  have hk := contrEquiv1_symm_val dot_S2000x32_S32x32_S2000x32_1_0_0_1_n_n 32 rfl rfl k
  have el : dot_S2000x32_S32x32_S2000x32_1_0_0_1_n_n.lhsIdx (ix2 p q) ((contrEquiv1 dot_S2000x32_S32x32_S2000x32_1_0_0_1_n_n 32 rfl rfl).symm k) = ix2 p k := funext fun a => Fin.ext (by
    match a with
    | ⟨0, _⟩ => exact lhs_axis0 _ _
    | ⟨1, _⟩ => exact (lhs_axis1 _ _).trans hk)
  have er : dot_S2000x32_S32x32_S2000x32_1_0_0_1_n_n.rhsIdx (ix2 p q) ((contrEquiv1 dot_S2000x32_S32x32_S2000x32_1_0_0_1_n_n 32 rfl rfl).symm k) = ix2 k q := funext fun a => Fin.ext (by
    match a with
    | ⟨0, _⟩ => exact (rhs_axis0 _ _).trans hk
    | ⟨1, _⟩ => exact rhs_axis1 _ _)
  rw [el, er]

/-- THE BODY AT AN ENTRY: max ((∑ k, (x0[p, k] + x1[p, k]) · x2[k, q]) + x3[0, q], 0); the changes of float format
    and the casts to the same shape are the identity on the extended reals. -/
theorem body_entry (x0 x1 : Vec Ideal S2000x32 .f32) (x2 : Vec Ideal S32x32 .f32) (x3 : Vec Ideal S1x32 .f32)
    (p : Fin 2000) (q : Fin 32) :
    k1_pay1 (F := Ideal) x0 x1 x2 x3 (ix2 p q)
      = max ((∑ k : Fin 32, (x0 (ix2 p k) + x1 (ix2 p k)) * x2 (ix2 k q)) + x3 (ix2 (0 : Fin 1) q)) 0 := by
  unfold k1_pay1
  simp only [shapeCast_self]
  refine (maximumf_apply _ _ _).trans ?_
  refine congrArg₂ max ?_ ?_
  · refine (addf_apply _ _ _).trans ?_
    refine congrArg₂ (· + ·) ?_ ?_
    · exact product_entry _ _ p q
    · exact broadcastTo_1b_ab_apply x3 broadcasts_S1x32_S2000x32 p q
  · exact Ideal.ofBits_zero_f32

/-! ## One grid point

The body stores once, over the whole staging buffer, so the buffer after the body is the body's term of the four
blocks read whole.  Point t's blocks of the two node arrays are rows 2000·t … 2000·t + 1999; the weight matrix and
the bias row are read whole at every point; the output block is again rows 2000·t … 2000·t + 1999. -/

/-- The offset of a store or load over a whole buffer: zero on both axes. -/
theorem hz : (![0, 0] : Fin 2 → Nat) = fun _ => 0 := funext fun a => by fin_cases a <;> rfl

/-- The staging buffer after the body is the body's term of the four blocks. -/
theorem out1_eq (x0 x1 : Vec Ideal S2000x32 .f32) (x2 : Vec Ideal S32x32 .f32) (x3 : Vec Ideal S1x32 .f32) :
    out1_4 x0 x1 x2 x3 = k1_pay1 x0 x1 x2 x3 := by
  unfold out1_4
  rw [View.canon_unit_zero hz]
  simp only [View.ld_unit_zero (S := S2000x32) hz, View.ld_unit_zero (S := S32x32) hz, View.ld_unit_zero (S := S1x32) hz]

/-- Entry (p, q) of the staging buffer after the body is entry (n, q) of the dense layer of four arrays, when row p
    of the two node blocks is row n of the node arrays, column q of the weight block that of the weight matrix and
    the bias block's entry q the bias row's. -/
theorem point_entry (x0 x1 : Vec Ideal S2000x32 .f32) (x2 : Vec Ideal S32x32 .f32) (x3 : Vec Ideal S1x32 .f32)
    (xa aa : FVec Ideal (SNode 32) .f32) (W : FVec Ideal (SWeight 32) .f32) (b : FVec Ideal SRow .f32)
    (n : Fin 100000) (p : Fin 2000) (q : Fin 32)
    (h0 : ∀ k : Fin 32, x0 (ix2 p k) = xa (ix2 n k))
    (h1 : ∀ k : Fin 32, x1 (ix2 p k) = aa (ix2 n k))
    (h2 : ∀ k : Fin 32, x2 (ix2 k q) = W (ix2 k q))
    (h3 : x3 (ix2 (0 : Fin 1) q) = b (ix2 (0 : Fin 1) q)) :
    out1_4 x0 x1 x2 x3 (ix2 p q) = dense 32 xa aa W b (ix2 n q) := by
  rw [out1_eq, body_entry, dense_ix2]
  unfold denseAt
  rw [h3]
  refine congrArg (fun s => max (s + b (ix2 (0 : Fin 1) q)) 0) (Finset.sum_congr rfl fun k _ => ?_)
  rw [h0 k, h1 k, h2 k]

variable (V : (c : Dev nD) → (b : Ref sig .tc) → Buf (Elt Ideal) ((c : Thread nD τ).loc b))

/-! ### Launch 1 -/

/-- The index maps over the 50 points: block (t, 0) for the node arrays and the output, block (0, 0) for the
    weight matrix and the bias row. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row p of point t's block of the first node array is row 2000·t + p of the array. -/
theorem blk1_0 (c : Dev nD) (t : Fin cfg1.N) (p : Fin 2000) (k : Fin 32) (n : Fin 100000) (hn : n.val = 2000 * t.val + p.val) :
    (iblk1 V c 0 t : Vec Ideal S2000x32 .f32) (ix2 p k) = (V c main_v15 : FVec Ideal (SNode 32) .f32) (ix2 n k) := by
  obtain ⟨e0, e1, -⟩ := idx1 t
  unfold iblk1
  rw [View.read_apply]
  show V c main_v15 _ = V c main_v15 _
  refine congrArg (V c main_v15) (funext fun a => Fin.ext ?_)
  match a with
  | ⟨0, _⟩ => show win1_0.index t (0 : Fin 2) * 2000 + 1 * p.val = n.val; rw [e0, hn]; omega
  | ⟨1, _⟩ => show win1_0.index t (1 : Fin 2) * 32 + 1 * k.val = k.val; rw [e1]; omega

/-- Row p of point t's block of the second node array is row 2000·t + p of the array. -/
theorem blk1_1 (c : Dev nD) (t : Fin cfg1.N) (p : Fin 2000) (k : Fin 32) (n : Fin 100000) (hn : n.val = 2000 * t.val + p.val) :
    (iblk1 V c 1 t : Vec Ideal S2000x32 .f32) (ix2 p k) = (V c main_v25 : FVec Ideal (SNode 32) .f32) (ix2 n k) := by
  obtain ⟨-, -, e0, e1, -⟩ := idx1 t
  unfold iblk1
  rw [View.read_apply]
  show V c main_v25 _ = V c main_v25 _
  refine congrArg (V c main_v25) (funext fun a => Fin.ext ?_)
  match a with
  | ⟨0, _⟩ => show win1_1.index t (0 : Fin 2) * 2000 + 1 * p.val = n.val; rw [e0, hn]; omega
  | ⟨1, _⟩ => show win1_1.index t (1 : Fin 2) * 32 + 1 * k.val = k.val; rw [e1]; omega

/-- Every point's weight block is the whole weight matrix. -/
theorem blk1_2 (c : Dev nD) (t : Fin cfg1.N) (k q : Fin 32) :
    (iblk1 V c 2 t : Vec Ideal S32x32 .f32) (ix2 k q) = (V c main_arg8 : FVec Ideal (SWeight 32) .f32) (ix2 k q) := by
  obtain ⟨-, -, -, -, e0, e1, -⟩ := idx1 t
  unfold iblk1
  rw [View.read_apply]
  show V c main_arg8 _ = V c main_arg8 _
  refine congrArg (V c main_arg8) (funext fun a => Fin.ext ?_)
  match a with
  | ⟨0, _⟩ => show win1_2.index t (0 : Fin 2) * 32 + 1 * k.val = k.val; rw [e0]; omega
  | ⟨1, _⟩ => show win1_2.index t (1 : Fin 2) * 32 + 1 * q.val = q.val; rw [e1]; omega

/-- Every point's bias block is the whole bias row. -/
theorem blk1_3 (c : Dev nD) (t : Fin cfg1.N) (q : Fin 32) :
    (iblk1 V c 3 t : Vec Ideal S1x32 .f32) (ix2 (0 : Fin 1) q) = (V c main_v26 : FVec Ideal SRow .f32) (ix2 (0 : Fin 1) q) := by
  obtain ⟨-, -, -, -, -, -, e0, e1, -⟩ := idx1 t
  unfold iblk1
  rw [View.read_apply]
  show V c main_v26 _ = V c main_v26 _
  refine congrArg (V c main_v26) (funext fun a => Fin.ext ?_)
  match a with
  | ⟨0, _⟩ => show win1_3.index t (0 : Fin 2) * 1 + 1 * (0 : Fin 1).val = (0 : Fin 1).val; rw [e0]; rfl
  | ⟨1, _⟩ => show win1_3.index t (1 : Fin 2) * 32 + 1 * q.val = q.val; rw [e1]; omega

/-- WHAT POINT t WRITES BACK: rows 2000·t … 2000·t + 1999 of the dense layer of the four arrays. -/
theorem flushed1_eq (c : Dev nD) (t : Fin cfg1.N) :
    (dat1 V c).flushed 4 t = ((cfg1.win 4).blk t).view.read (Elt Ideal)
      (dense 32 (V c main_v15) (V c main_v25) (V c main_arg8) (V c main_v26)) := by
  have ht : t.val < 50 := lt_of_lt_of_eq t.isLt N_1
  obtain ⟨-, -, -, -, -, -, -, -, e0, e1⟩ := idx1 t
  show (cfg1.win 4).cut (grid1.coords t) ((dat1 V c).after 4 t) = _
  rw [after1_4]
  funext j
  obtain ⟨p, q, rfl⟩ : ∃ (p : Fin 2000) (q : Fin 32), j = ix2 p q := ⟨j 0, j 1, eq_ix2 j⟩
  have hn : 2000 * t.val + p.val < 100000 := by have := p.isLt; omega
  refine (point_entry (iblk1 V c 0 t) (iblk1 V c 1 t) (iblk1 V c 2 t) (iblk1 V c 3 t)
    (V c main_v15) (V c main_v25) (V c main_arg8) (V c main_v26) ⟨2000 * t.val + p.val, hn⟩ p q
    (fun k => blk1_0 V c t p k _ rfl) (fun k => blk1_1 V c t p k _ rfl) (fun k => blk1_2 V c t k q) (blk1_3 V c t q)).trans ?_
  rw [View.read_apply]
  refine congrArg (dense 32 (V c main_v15) (V c main_v25) (V c main_arg8) (V c main_v26)) (funext fun a => Fin.ext ?_)
  match a with
  | ⟨0, _⟩ => show 2000 * t.val + p.val = win1_4.index t (0 : Fin 2) * 2000 + 1 * p.val; rw [e0]; omega
  | ⟨1, _⟩ => show q.val = win1_4.index t (1 : Fin 2) * 32 + 1 * q.val; rw [e1]; omega

/-- An entry of the output array lies in point t's block iff each coordinate lies in the block's range. -/
theorem mem_blk1 (t : Fin cfg1.N) (i : S100000x32.Idx) :
    i ∈ ((cfg1.win 4).blk t).view.set ↔ ∀ a : Fin 2, win1_4.index t a * S2000x32.size a ≤ (i a).val ∧ (i a).val < win1_4.index t a * S2000x32.size a + S2000x32.size a := by
  show i ∈ ((View.whole main_v27).slice (win1_4.rect t)).set ↔ _
  rw [View.set_slice_whole, Rect.mem_set_unit]
  exact Iff.rfl

/-- THE COVER: row r of the output lies in the block of point r / 2000, and every point writes back. -/
theorem cover1 (i : S100000x32.Idx) :
    ∃ t : Fin cfg1.N, (cfg1.win 4).flush t = true ∧ i ∈ ((cfg1.win 4).blk t).view.set := by
  have hi0 : (i 0).val < 100000 := (i 0).isLt
  have hi1 : (i 1).val < 32 := (i 1).isLt
  obtain ⟨t, htv⟩ : ∃ t : Fin cfg1.N, t.val = (i 0).val / 2000 :=
    ⟨⟨(i 0).val / 2000, lt_of_lt_of_eq (by omega) N_1.symm⟩, rfl⟩
  obtain ⟨-, -, -, -, -, -, -, -, e0, e1⟩ := idx1 t
  refine ⟨t, flush1_4 t, ?_⟩
  rw [mem_blk1]
  intro a
  match a with
  | ⟨0, _⟩ =>
    show win1_4.index t (0 : Fin 2) * 2000 ≤ (i 0).val ∧ (i 0).val < win1_4.index t (0 : Fin 2) * 2000 + 2000
    rw [e0, htv]; omega
  | ⟨1, _⟩ =>
    show win1_4.index t (1 : Fin 2) * 32 ≤ (i 1).val ∧ (i 1).val < win1_4.index t (1 : Fin 2) * 32 + 32
    rw [e1]; omega

/-- Launch 1 (graph 1, layer 2): the output array main_v27 after all 50 write-backs. -/
theorem region1 (c : Dev nD) :
    (dat1 (F := Ideal) V c).arrAt 4 cfg1.N = dense 32 (V c main_v15) (V c main_v25) (V c main_arg8) (V c main_v26) :=
  (dat1 V c).arrAt_eq_of_cover 4 (dense 32 (V c main_v15) (V c main_v25) (V c main_arg8) (V c main_v26))
    (fun t _ => flushed1_eq V c t) (fun i => cover1 i)

/-! ### Launch 4

The second graph's launch has the same body, windows and index maps over its own four arrays. -/

/-- Launch 4's staging buffer after the body is the same term of the four blocks as launch 1's. -/
theorem out4_eq (x0 x1 : Vec Ideal S2000x32 .f32) (x2 : Vec Ideal S32x32 .f32) (x3 : Vec Ideal S1x32 .f32) :
    out4_4 x0 x1 x2 x3 = out1_4 x0 x1 x2 x3 := rfl

/-- Entry (p, q) of launch 4's staging buffer after the body, under the same block-to-array hypotheses. -/
theorem point_entry4 (x0 x1 : Vec Ideal S2000x32 .f32) (x2 : Vec Ideal S32x32 .f32) (x3 : Vec Ideal S1x32 .f32)
    (xa aa : FVec Ideal (SNode 32) .f32) (W : FVec Ideal (SWeight 32) .f32) (b : FVec Ideal SRow .f32)
    (n : Fin 100000) (p : Fin 2000) (q : Fin 32)
    (h0 : ∀ k : Fin 32, x0 (ix2 p k) = xa (ix2 n k))
    (h1 : ∀ k : Fin 32, x1 (ix2 p k) = aa (ix2 n k))
    (h2 : ∀ k : Fin 32, x2 (ix2 k q) = W (ix2 k q))
    (h3 : x3 (ix2 (0 : Fin 1) q) = b (ix2 (0 : Fin 1) q)) :
    out4_4 x0 x1 x2 x3 (ix2 p q) = dense 32 xa aa W b (ix2 n q) :=
  (congrFun (out4_eq x0 x1 x2 x3) (ix2 p q)).trans (point_entry x0 x1 x2 x3 xa aa W b n p q h0 h1 h2 h3)

/-- The index maps over the 50 points: block (t, 0) for the node arrays and the output, block (0, 0) for the
    weight matrix and the bias row. -/
theorem idx4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- Row p of point t's block of the first node array is row 2000·t + p of the array. -/
theorem blk4_0 (c : Dev nD) (t : Fin cfg4.N) (p : Fin 2000) (k : Fin 32) (n : Fin 100000) (hn : n.val = 2000 * t.val + p.val) :
    (iblk4 V c 0 t : Vec Ideal S2000x32 .f32) (ix2 p k) = (V c main_v45 : FVec Ideal (SNode 32) .f32) (ix2 n k) := by
  obtain ⟨e0, e1, -⟩ := idx4 t
  unfold iblk4
  rw [View.read_apply]
  show V c main_v45 _ = V c main_v45 _
  refine congrArg (V c main_v45) (funext fun a => Fin.ext ?_)
  match a with
  | ⟨0, _⟩ => show win4_0.index t (0 : Fin 2) * 2000 + 1 * p.val = n.val; rw [e0, hn]; omega
  | ⟨1, _⟩ => show win4_0.index t (1 : Fin 2) * 32 + 1 * k.val = k.val; rw [e1]; omega

/-- Row p of point t's block of the second node array is row 2000·t + p of the array. -/
theorem blk4_1 (c : Dev nD) (t : Fin cfg4.N) (p : Fin 2000) (k : Fin 32) (n : Fin 100000) (hn : n.val = 2000 * t.val + p.val) :
    (iblk4 V c 1 t : Vec Ideal S2000x32 .f32) (ix2 p k) = (V c main_v55 : FVec Ideal (SNode 32) .f32) (ix2 n k) := by
  obtain ⟨-, -, e0, e1, -⟩ := idx4 t
  unfold iblk4
  rw [View.read_apply]
  show V c main_v55 _ = V c main_v55 _
  refine congrArg (V c main_v55) (funext fun a => Fin.ext ?_)
  match a with
  | ⟨0, _⟩ => show win4_1.index t (0 : Fin 2) * 2000 + 1 * p.val = n.val; rw [e0, hn]; omega
  | ⟨1, _⟩ => show win4_1.index t (1 : Fin 2) * 32 + 1 * k.val = k.val; rw [e1]; omega

/-- Every point's weight block is the whole weight matrix. -/
theorem blk4_2 (c : Dev nD) (t : Fin cfg4.N) (k q : Fin 32) :
    (iblk4 V c 2 t : Vec Ideal S32x32 .f32) (ix2 k q) = (V c main_arg8 : FVec Ideal (SWeight 32) .f32) (ix2 k q) := by
  obtain ⟨-, -, -, -, e0, e1, -⟩ := idx4 t
  unfold iblk4
  rw [View.read_apply]
  show V c main_arg8 _ = V c main_arg8 _
  refine congrArg (V c main_arg8) (funext fun a => Fin.ext ?_)
  match a with
  | ⟨0, _⟩ => show win4_2.index t (0 : Fin 2) * 32 + 1 * k.val = k.val; rw [e0]; omega
  | ⟨1, _⟩ => show win4_2.index t (1 : Fin 2) * 32 + 1 * q.val = q.val; rw [e1]; omega

/-- Every point's bias block is the whole bias row. -/
theorem blk4_3 (c : Dev nD) (t : Fin cfg4.N) (q : Fin 32) :
    (iblk4 V c 3 t : Vec Ideal S1x32 .f32) (ix2 (0 : Fin 1) q) = (V c main_v56 : FVec Ideal SRow .f32) (ix2 (0 : Fin 1) q) := by
  obtain ⟨-, -, -, -, -, -, e0, e1, -⟩ := idx4 t
  unfold iblk4
  rw [View.read_apply]
  show V c main_v56 _ = V c main_v56 _
  refine congrArg (V c main_v56) (funext fun a => Fin.ext ?_)
  match a with
  | ⟨0, _⟩ => show win4_3.index t (0 : Fin 2) * 1 + 1 * (0 : Fin 1).val = (0 : Fin 1).val; rw [e0]; rfl
  | ⟨1, _⟩ => show win4_3.index t (1 : Fin 2) * 32 + 1 * q.val = q.val; rw [e1]; omega

/-- WHAT POINT t WRITES BACK: rows 2000·t … 2000·t + 1999 of the dense layer of the four arrays. -/
theorem flushed4_eq (c : Dev nD) (t : Fin cfg4.N) :
    (dat4 V c).flushed 4 t = ((cfg4.win 4).blk t).view.read (Elt Ideal)
      (dense 32 (V c main_v45) (V c main_v55) (V c main_arg8) (V c main_v56)) := by
  have ht : t.val < 50 := lt_of_lt_of_eq t.isLt N_4
  obtain ⟨-, -, -, -, -, -, -, -, e0, e1⟩ := idx4 t
  show (cfg4.win 4).cut (grid4.coords t) ((dat4 V c).after 4 t) = _
  rw [after4_4]
  funext j
  obtain ⟨p, q, rfl⟩ : ∃ (p : Fin 2000) (q : Fin 32), j = ix2 p q := ⟨j 0, j 1, eq_ix2 j⟩
  have hn : 2000 * t.val + p.val < 100000 := by have := p.isLt; omega
  refine (point_entry4 (iblk4 V c 0 t) (iblk4 V c 1 t) (iblk4 V c 2 t) (iblk4 V c 3 t)
    (V c main_v45) (V c main_v55) (V c main_arg8) (V c main_v56) ⟨2000 * t.val + p.val, hn⟩ p q
    (fun k => blk4_0 V c t p k _ rfl) (fun k => blk4_1 V c t p k _ rfl) (fun k => blk4_2 V c t k q) (blk4_3 V c t q)).trans ?_
  rw [View.read_apply]
  refine congrArg (dense 32 (V c main_v45) (V c main_v55) (V c main_arg8) (V c main_v56)) (funext fun a => Fin.ext ?_)
  match a with
  | ⟨0, _⟩ => show 2000 * t.val + p.val = win4_4.index t (0 : Fin 2) * 2000 + 1 * p.val; rw [e0]; omega
  | ⟨1, _⟩ => show q.val = win4_4.index t (1 : Fin 2) * 32 + 1 * q.val; rw [e1]; omega

/-- An entry of the output array lies in point t's block iff each coordinate lies in the block's range. -/
theorem mem_blk4 (t : Fin cfg4.N) (i : S100000x32.Idx) :
    i ∈ ((cfg4.win 4).blk t).view.set ↔ ∀ a : Fin 2, win4_4.index t a * S2000x32.size a ≤ (i a).val ∧ (i a).val < win4_4.index t a * S2000x32.size a + S2000x32.size a := by
  show i ∈ ((View.whole main_v57).slice (win4_4.rect t)).set ↔ _
  rw [View.set_slice_whole, Rect.mem_set_unit]
  exact Iff.rfl

/-- THE COVER: row r of the output lies in the block of point r / 2000, and every point writes back. -/
theorem cover4 (i : S100000x32.Idx) :
    ∃ t : Fin cfg4.N, (cfg4.win 4).flush t = true ∧ i ∈ ((cfg4.win 4).blk t).view.set := by
  have hi0 : (i 0).val < 100000 := (i 0).isLt
  have hi1 : (i 1).val < 32 := (i 1).isLt
  obtain ⟨t, htv⟩ : ∃ t : Fin cfg4.N, t.val = (i 0).val / 2000 :=
    ⟨⟨(i 0).val / 2000, lt_of_lt_of_eq (by omega) N_4.symm⟩, rfl⟩
  obtain ⟨-, -, -, -, -, -, -, -, e0, e1⟩ := idx4 t
  refine ⟨t, flush4_4 t, ?_⟩
  rw [mem_blk4]
  intro a
  match a with
  | ⟨0, _⟩ =>
    show win4_4.index t (0 : Fin 2) * 2000 ≤ (i 0).val ∧ (i 0).val < win4_4.index t (0 : Fin 2) * 2000 + 2000
    rw [e0, htv]; omega
  | ⟨1, _⟩ =>
    show win4_4.index t (1 : Fin 2) * 32 ≤ (i 1).val ∧ (i 1).val < win4_4.index t (1 : Fin 2) * 32 + 32
    rw [e1]; omega

/-- Launch 4 (graph 2, layer 2): the output array main_v57 after all 50 write-backs. -/
theorem region4 (c : Dev nD) :
    (dat4 (F := Ideal) V c).arrAt 4 cfg4.N = dense 32 (V c main_v45) (V c main_v55) (V c main_arg8) (V c main_v56) :=
  (dat4 V c).arrAt_eq_of_cover 4 (dense 32 (V c main_v45) (V c main_v55) (V c main_arg8) (V c main_v56))
    (fun t _ => flushed4_eq V c t) (fun i => cover4 i)

end Cert.KernelIdeal.Dense32

end
-- ==== Proof.PoolRegion.lean ====
/-
  The pooling's two launches (one per graph) as whole-array facts: whatever the TensorCore's buffers hold when the
  launch is entered, the output array ends at the per-graph sums of the node rows.
-/
import proofs.«416997_j84361747628046_2_alg».proof.Proof.Gen.KernelIdeal.Frame
import proofs.«416997_j84361747628046_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Pool

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GinSpec

/-! ## What one point leaves in the output's buffer

  At the first point the body stores a zero block, then at every point it stores the payload of the two input blocks
  and of what the buffer held: one store covers the whole [128, 32] block. -/

section Pieces
variable {F : FTy → Type} [FloatOps F]

theorem hz : (![0, 0] : Fin 2 → Nat) = fun _ => 0 := funext fun a => by fin_cases a <;> rfl

/-- Launch 2, a later point: the buffer holding xo is left at the payload of the two blocks and xo. -/
theorem out2_B (c : Dev nD) (i : grid2.Coords) (a1 : Memref sig .tc .vmem S5000x32 .f32) (h1 : a1.IsWhole)
    (a2 : Memref sig .tc .vmem S5000x1 .i32) (h2 : a2.IsWhole) (a3 : Memref sig .tc .vmem S128x32 .f32) (h3 : a3.IsWhole)
    (hc : ¬cond2_0 i) (x0 : Vec F S5000x32 .f32) (x1 : Vec F S5000x1 .i32) (xo : Vec F S128x32 .f32) :
    out2_B_2 c i a1 h1 a2 h2 a3 h3 hc x0 x1 xo = k2_pay2 x0 x1 xo := by
  unfold out2_B_2
  rw [View.read_writes_eq_canon _ _ _ (cover2_B_2 c i a1 h1 a2 h2 a3 h3 hc x0 x1 xo)]
  unfold kernelRun2_B
  dsimp only
  sl_unfold_words
  rw [View.canon_unit_zero hz]
  simp only [View.readAt_eq_ld, h1.read_unread, h2.read_unread, h3.read_unread, View.ld_unit_zero (S := S5000x32) hz,
    View.ld_unit_zero (S := S5000x1) hz, View.ld_unit_zero (S := S128x32) hz]

/-- Launch 2, the first point: the zero block is stored, read back, and the payload of it is left. -/
theorem out2_A (c : Dev nD) (i : grid2.Coords) (a1 : Memref sig .tc .vmem S5000x32 .f32) (h1 : a1.IsWhole)
    (a2 : Memref sig .tc .vmem S5000x1 .i32) (h2 : a2.IsWhole) (a3 : Memref sig .tc .vmem S128x32 .f32) (h3 : a3.IsWhole)
    (hc : cond2_0 i) (x0 : Vec F S5000x32 .f32) (x1 : Vec F S5000x1 .i32) :
    out2_A_2 c i a1 h1 a2 h2 a3 h3 hc x0 x1 = k2_pay2 x0 x1 (k2_pay1 (F := F)) := by
  unfold out2_A_2
  rw [View.read_writes_eq_canon _ _ _ (cover2_A_2 c i a1 h1 a2 h2 a3 h3 hc x0 x1)]
  unfold kernelRun2_A
  dsimp only
  sl_unfold_words
  rw [View.canon_cons_unit_zero (S := S128x32) hz]
  simp only [View.readAt_eq_ld, h1.read_unread, h2.read_unread, View.ld_unit_zero (S := S5000x32) hz,
    View.ld_unit_zero (S := S5000x1) hz, View.ld_unit_zero (S := S128x32) hz, View.readCov_unit_zero (S := S128x32) _ hz]

/-- Launch 5, a later point. -/
theorem out5_B (c : Dev nD) (i : grid5.Coords) (a1 : Memref sig .tc .vmem S5000x32 .f32) (h1 : a1.IsWhole)
    (a2 : Memref sig .tc .vmem S5000x1 .i32) (h2 : a2.IsWhole) (a3 : Memref sig .tc .vmem S128x32 .f32) (h3 : a3.IsWhole)
    (hc : ¬cond5_0 i) (x0 : Vec F S5000x32 .f32) (x1 : Vec F S5000x1 .i32) (xo : Vec F S128x32 .f32) :
    out5_B_2 c i a1 h1 a2 h2 a3 h3 hc x0 x1 xo = k2_pay2 x0 x1 xo := by
  unfold out5_B_2
  rw [View.read_writes_eq_canon _ _ _ (cover5_B_2 c i a1 h1 a2 h2 a3 h3 hc x0 x1 xo)]
  unfold kernelRun5_B
  dsimp only
  sl_unfold_words
  rw [View.canon_unit_zero hz]
  simp only [View.readAt_eq_ld, h1.read_unread, h2.read_unread, h3.read_unread, View.ld_unit_zero (S := S5000x32) hz,
    View.ld_unit_zero (S := S5000x1) hz, View.ld_unit_zero (S := S128x32) hz]
  rfl

/-- Launch 5, the first point. -/
theorem out5_A (c : Dev nD) (i : grid5.Coords) (a1 : Memref sig .tc .vmem S5000x32 .f32) (h1 : a1.IsWhole)
    (a2 : Memref sig .tc .vmem S5000x1 .i32) (h2 : a2.IsWhole) (a3 : Memref sig .tc .vmem S128x32 .f32) (h3 : a3.IsWhole)
    (hc : cond5_0 i) (x0 : Vec F S5000x32 .f32) (x1 : Vec F S5000x1 .i32) :
    out5_A_2 c i a1 h1 a2 h2 a3 h3 hc x0 x1 = k2_pay2 x0 x1 (k2_pay1 (F := F)) := by
  unfold out5_A_2
  rw [View.read_writes_eq_canon _ _ _ (cover5_A_2 c i a1 h1 a2 h2 a3 h3 hc x0 x1)]
  unfold kernelRun5_A
  dsimp only
  sl_unfold_words
  rw [View.canon_cons_unit_zero (S := S128x32) hz]
  simp only [View.readAt_eq_ld, h1.read_unread, h2.read_unread, View.ld_unit_zero (S := S5000x32) hz,
    View.ld_unit_zero (S := S5000x1) hz, View.ld_unit_zero (S := S128x32) hz, View.readCov_unit_zero (S := S128x32) _ hz]
  rfl

end Pieces

/-! ## The payload at an entry

  The payload adds to the buffer's entry (g, q) the product of the transposed one-hot matrix (row p has a one in the
  column of p's graph id, compared as 32-bit words) with the block of node rows: the sum, over the block's rows p whose
  id word is g, of the block's entry (p, q). -/

section Payload

theorem dot_lhs_0 (i : S128x32.Idx) (k : dot_S5000x128_S5000x32_S128x32_0_0_1_1_n_n.contr.Idx) :
    (dot_S5000x128_S5000x32_S128x32_0_0_1_1_n_n.lhsIdx i k 0).val = (k ⟨0, by decide⟩).val :=
  dot_S5000x128_S5000x32_S128x32_0_0_1_1_n_n.lhsIdx_val_of_single rfl i k
theorem dot_lhs_1 (i : S128x32.Idx) (k : dot_S5000x128_S5000x32_S128x32_0_0_1_1_n_n.contr.Idx) :
    (dot_S5000x128_S5000x32_S128x32_0_0_1_1_n_n.lhsIdx i k 1).val = (i 0).val := by
  unfold DotDims.lhsIdx
  rw [dif_neg (show ¬(1 : Fin S5000x128.rank) ∈ dot_S5000x128_S5000x32_S128x32_0_0_1_1_n_n.lhsBatch by decide), dif_pos (show (1 : Fin S5000x128.rank) ∈ dot_S5000x128_S5000x32_S128x32_0_0_1_1_n_n.lhsNonContracting by decide)]
  rfl
theorem dot_rhs_0 (i : S128x32.Idx) (k : dot_S5000x128_S5000x32_S128x32_0_0_1_1_n_n.contr.Idx) :
    (dot_S5000x128_S5000x32_S128x32_0_0_1_1_n_n.rhsIdx i k 0).val = (k ⟨0, by decide⟩).val :=
  dot_S5000x128_S5000x32_S128x32_0_0_1_1_n_n.rhsIdx_val_of_single rfl i k
theorem dot_rhs_1 (i : S128x32.Idx) (k : dot_S5000x128_S5000x32_S128x32_0_0_1_1_n_n.contr.Idx) :
    (dot_S5000x128_S5000x32_S128x32_0_0_1_1_n_n.rhsIdx i k 1).val = (i 1).val := by
  unfold DotDims.rhsIdx
  rw [dif_neg (show ¬(1 : Fin S5000x32.rank) ∈ dot_S5000x128_S5000x32_S128x32_0_0_1_1_n_n.rhsBatch by decide), dif_pos (show (1 : Fin S5000x32.rank) ∈ dot_S5000x128_S5000x32_S128x32_0_0_1_1_n_n.rhsNonContracting by decide)]
  rfl

/-- The product into a zero accumulator at entry (g, q): the sum over the 5000 contracted rows. -/
theorem matmul_entry (l : FVec Ideal S5000x128 .bf16) (r : FVec Ideal S5000x32 .bf16) (g : Fin 128) (q : Fin 32) :
    matmul dot_S5000x128_S5000x32_S128x32_0_0_1_1_n_n none l r (constant (F := Ideal) S128x32 .f32 0x00000000#32) (ix2 g q)
      = ∑ p : Fin 5000, l (ix2 p g) * r (ix2 p q) := by
  refine (Ideal.matmul_constant_zero_apply dot_S5000x128_S5000x32_S128x32_0_0_1_1_n_n none l r (ix2 g q)).trans ?_
  rw [← Equiv.sum_comp (ValueIdx.contrEquiv1 dot_S5000x128_S5000x32_S128x32_0_0_1_1_n_n 5000 rfl rfl).symm]
  refine Finset.sum_congr rfl fun k _ => ?_
  have hk := ValueIdx.contrEquiv1_symm_val dot_S5000x128_S5000x32_S128x32_0_0_1_1_n_n 5000 rfl rfl k
  have el : dot_S5000x128_S5000x32_S128x32_0_0_1_1_n_n.lhsIdx (ix2 g q) ((ValueIdx.contrEquiv1 dot_S5000x128_S5000x32_S128x32_0_0_1_1_n_n 5000 rfl rfl).symm k) = ix2 k g := funext fun a => Fin.ext (by
    match a with
    | ⟨0, _⟩ => exact (dot_lhs_0 _ _).trans hk
    | ⟨1, _⟩ => exact dot_lhs_1 _ _)
  have er : dot_S5000x128_S5000x32_S128x32_0_0_1_1_n_n.rhsIdx (ix2 g q) ((ValueIdx.contrEquiv1 dot_S5000x128_S5000x32_S128x32_0_0_1_1_n_n 5000 rfl rfl).symm k) = ix2 k q := funext fun a => Fin.ext (by
    match a with
    | ⟨0, _⟩ => exact (dot_rhs_0 _ _).trans hk
    | ⟨1, _⟩ => exact dot_rhs_1 _ _)
  rw [el, er]

/-- A condition bit widened to a word and read signed is 1 or 0. -/
theorem bit_toInt (c : Bool) : ((BitVec.ofBool c).setWidth 32).toInt = if c then 1 else 0 := by
  cases c <;> decide

/-- The one-hot matrix of a block of id words: entry (p, g) is 1.0 where row p's id is the word g, else 0.0. -/
def onehot (x1 : IVec S5000x1 32) : FVec Ideal S5000x128 .bf16 :=
  truncf .bf16 (sitofp (F := Ideal) .f32 (extui 32 (cmpi .eq
    (broadcastTo S5000x128 (shapeCast S5000x1 x1 shapeCasts_S5000x1_S5000x1) broadcasts_S5000x1_S5000x128)
    (broadcastTo S5000x128 (iota .tc S1x128 32 [1] iota_S1x128_d1_w32) broadcasts_S1x128_S5000x128)) natLt_1_32)) bitsLt_bf16_f32

theorem onehot_apply (x1 : IVec S5000x1 32) (p : Fin 5000) (g : Fin 128) :
    onehot x1 (ix2 p g) = if x1 (ix2 p (0 : Fin 1)) = BitVec.ofNat 32 g.val then (1 : EReal) else 0 := by
  have eA : broadcastTo S5000x128 (shapeCast S5000x1 x1 shapeCasts_S5000x1_S5000x1) broadcasts_S5000x1_S5000x128 (ix2 p g)
      = x1 (ix2 p (0 : Fin 1)) := by
    rw [shapeCast_self]
    exact broadcastTo_apply x1 broadcasts_S5000x1_S5000x128 (ix2 p g) (ix2 p (0 : Fin 1)) (fun a => by
      match a with
      | ⟨0, _⟩ => rfl
      | ⟨1, _⟩ => rfl)
  have eB : broadcastTo S5000x128 (iota .tc S1x128 32 [1] iota_S1x128_d1_w32) broadcasts_S1x128_S5000x128 (ix2 p g)
      = BitVec.ofNat 32 g.val := by
    refine (broadcastTo_apply (iota .tc S1x128 32 [1] iota_S1x128_d1_w32) broadcasts_S1x128_S5000x128 (ix2 p g) (ix2 (0 : Fin 1) g) (fun a => by
      match a with
      | ⟨0, _⟩ => rfl
      | ⟨1, _⟩ => rfl)).trans ?_
    exact iota_single_apply .tc S1x128 32 1 iota_S1x128_d1_w32 (ix2 (0 : Fin 1) g)
  show ((((BitVec.ofBool (broadcastTo S5000x128 (shapeCast S5000x1 x1 shapeCasts_S5000x1_S5000x1) broadcasts_S5000x1_S5000x128 (ix2 p g)
      == broadcastTo S5000x128 (iota .tc S1x128 32 [1] iota_S1x128_d1_w32) broadcasts_S1x128_S5000x128 (ix2 p g))).setWidth 32).toInt : ℝ) : EReal) = _
  rw [eA, eB, bit_toInt]
  by_cases h : x1 (ix2 p (0 : Fin 1)) = BitVec.ofNat 32 g.val
  · rw [if_pos h, if_pos (by simpa using h)]; norm_num
  · rw [if_neg h, if_neg (by simpa using h)]; norm_num

/-- The payload is the buffer plus the product of the transposed one-hot matrix with the block. -/
theorem pay2_eq (x0 : FVec Ideal S5000x32 .f32) (x1 : IVec S5000x1 32) (acc : FVec Ideal S128x32 .f32) :
    k2_pay2 (F := Ideal) x0 x1 acc = addf acc (matmul dot_S5000x128_S5000x32_S128x32_0_0_1_1_n_n none (onehot x1)
      (truncf .bf16 x0 bitsLt_bf16_f32) (constant (F := Ideal) S128x32 .f32 0x00000000#32)) := by
  unfold k2_pay2 onehot
  simp only [shapeCast_self]

/-- Entry (g, q) of the payload: the buffer's entry plus the block's entries (p, q) over the rows p whose id word is g. -/
theorem pay2_apply (x0 : FVec Ideal S5000x32 .f32) (x1 : IVec S5000x1 32) (acc : FVec Ideal S128x32 .f32) (g : Fin 128) (q : Fin 32) :
    k2_pay2 (F := Ideal) x0 x1 acc (ix2 g q)
      = acc (ix2 g q) + ∑ p : Fin 5000, if x1 (ix2 p (0 : Fin 1)) = BitVec.ofNat 32 g.val then x0 (ix2 p q) else 0 := by
  rw [pay2_eq]
  refine (addf_apply _ _ _).trans ?_
  refine congrArg (acc (ix2 g q) + ·) ?_
  refine (matmul_entry _ _ g q).trans ?_
  refine Finset.sum_congr rfl fun p _ => ?_
  rw [onehot_apply]
  show (if x1 (ix2 p (0 : Fin 1)) = BitVec.ofNat 32 g.val then (1 : EReal) else 0) * x0 (ix2 p q) = _
  by_cases h : x1 (ix2 p (0 : Fin 1)) = BitVec.ofNat 32 g.val
  · rw [if_pos h, if_pos h, one_mul]
  · rw [if_neg h, if_neg h, zero_mul]

/-- The zero block's entries. -/
theorem pay1_apply (j : S128x32.Idx) : k2_pay1 (F := Ideal) j = 0 := by
  show Ideal.ofBits .f32 0x00000000#32 = 0
  exact Ideal.ofBits_zero_f32

end Payload

/-! ## Sums over the first rows

  The node rows are consumed 5000 at a time.  rowTerm is row i's contribution to entry (g, q) of the pooling (zero past
  the array's end), so that the partial sums are sums over ranges of naturals and one block extends a range by 5000. -/

section Sums

/-- Row i's contribution to entry (g, q): the node entry (i, q) when row i's id word is g. -/
def rowTerm (h : FVec Ideal (SNode 32) .f32) (ids : IVec (SNode 1) 32) (g : Fin 128) (q : Fin 32) (i : ℕ) : EReal :=
  if hi : i < 100000 then (if ids (ix2 ⟨i, hi⟩ (0 : Fin 1)) = BitVec.ofNat 32 g.val then h (ix2 ⟨i, hi⟩ q) else 0) else 0

/-- One more block: the sum over the first 5000·t rows plus block t's contribution is the sum over the first
    5000·(t+1) rows, when the two blocks hold rows 5000·t … 5000·t+4999 of the arrays. -/
theorem step_sum (h : FVec Ideal (SNode 32) .f32) (ids : IVec (SNode 1) 32) (g : Fin 128) (q : Fin 32)
    (x0 : FVec Ideal S5000x32 .f32) (x1 : IVec S5000x1 32) (t : ℕ) (ht : t < 20)
    (hx0 : ∀ (p : Fin 5000) (hp : 5000 * t + p.val < 100000), x0 (ix2 p q) = h (ix2 ⟨5000 * t + p.val, hp⟩ q))
    (hx1 : ∀ (p : Fin 5000) (hp : 5000 * t + p.val < 100000), x1 (ix2 p (0 : Fin 1)) = ids (ix2 ⟨5000 * t + p.val, hp⟩ (0 : Fin 1)))
    (a : EReal) (ha : a = ∑ i ∈ Finset.range (5000 * t), rowTerm h ids g q i) :
    a + (∑ p : Fin 5000, if x1 (ix2 p (0 : Fin 1)) = BitVec.ofNat 32 g.val then x0 (ix2 p q) else 0)
      = ∑ i ∈ Finset.range (5000 * (t + 1)), rowTerm h ids g q i := by
  rw [ha, show 5000 * (t + 1) = 5000 * t + 5000 by ring, Finset.sum_range_add,
    ← Fin.sum_univ_eq_sum_range (fun x => rowTerm h ids g q (5000 * t + x)) 5000]
  refine congrArg (_ + ·) (Finset.sum_congr rfl fun p _ => ?_)
  have hp : 5000 * t + p.val < 100000 := by have := p.isLt; omega
  rw [hx0 p hp, hx1 p hp]
  unfold rowTerm
  rw [dif_pos hp]

theorem toInt_word : ∀ g : Fin 128, (BitVec.ofNat 32 g.val).toInt = (g.val : Int) := by decide

/-- An id word is the word of g exactly when, read signed, it is g (g < 128). -/
theorem word_eq_iff (w : BitVec 32) (g : Fin 128) : w = BitVec.ofNat 32 g.val ↔ w.toInt = (g.val : Int) := by
  rw [← toInt_word g]
  exact BitVec.toInt_inj.symm

/-- All 100000 rows: the pooling's entry. -/
theorem full_sum (h : FVec Ideal (SNode 32) .f32) (ids : IVec (SNode 1) 32) (g : Fin 128) (q : Fin 32) :
    ∑ i ∈ Finset.range (5000 * (19 + 1)), rowTerm h ids g q i = poolAt h ids g q := by
  unfold poolAt
  rw [show 5000 * (19 + 1) = 100000 by norm_num, ← Fin.sum_univ_eq_sum_range (fun i => rowTerm h ids g q i) 100000]
  refine Finset.sum_congr rfl fun p _ => ?_
  unfold rowTerm
  rw [dif_pos p.isLt]
  exact if_congr (word_eq_iff _ g) rfl rfl

end Sums

/-! ## The accumulation, for either launch -/

section Accumulation

/-- THE INDUCTION.  A buffer that after point 0 holds the payload of the zero block, and after each later point the
    payload of what it held, over blocks that are the arrays' consecutive 5000 rows, holds after point n, at (g, q),
    the sum of the contributions of the first 5000·(n+1) rows. -/
theorem acc_entry (N : ℕ) (hN : N = 20) (h : FVec Ideal (SNode 32) .f32) (ids : IVec (SNode 1) 32)
    (x0 : Fin N → FVec Ideal S5000x32 .f32) (x1 : Fin N → IVec S5000x1 32)
    (outs : (n : ℕ) → n < N → FVec Ideal S128x32 .f32)
    (hx0 : ∀ (t : Fin N) (p : Fin 5000) (q : Fin 32) (hp : 5000 * t.val + p.val < 100000),
      x0 t (ix2 p q) = h (ix2 ⟨5000 * t.val + p.val, hp⟩ q))
    (hx1 : ∀ (t : Fin N) (p : Fin 5000) (hp : 5000 * t.val + p.val < 100000),
      x1 t (ix2 p (0 : Fin 1)) = ids (ix2 ⟨5000 * t.val + p.val, hp⟩ (0 : Fin 1)))
    (hfirst : ∀ h0 : 0 < N, outs 0 h0 = k2_pay2 (F := Ideal) (x0 ⟨0, h0⟩) (x1 ⟨0, h0⟩) (k2_pay1 (F := Ideal)))
    (hnext : ∀ (n : ℕ) (hn : n + 1 < N),
      outs (n + 1) hn = k2_pay2 (F := Ideal) (x0 ⟨n + 1, hn⟩) (x1 ⟨n + 1, hn⟩) (outs n (Nat.lt_of_succ_lt hn)))
    (g : Fin 128) (q : Fin 32) : ∀ (n : ℕ) (hn : n < N),
    outs n hn (ix2 g q) = ∑ i ∈ Finset.range (5000 * (n + 1)), rowTerm h ids g q i
  | 0, hn => by
    rw [hfirst hn]
    refine (pay2_apply (x0 ⟨0, hn⟩) (x1 ⟨0, hn⟩) (k2_pay1 (F := Ideal)) g q).trans ?_
    exact step_sum h ids g q (x0 ⟨0, hn⟩) (x1 ⟨0, hn⟩) 0 (by norm_num)
      (fun p hp => hx0 ⟨0, hn⟩ p q hp) (fun p hp => hx1 ⟨0, hn⟩ p hp) _ ((pay1_apply (ix2 g q)).trans (by simp))
  | n + 1, hn => by
    rw [hnext n hn]
    refine (pay2_apply (x0 ⟨n + 1, hn⟩) (x1 ⟨n + 1, hn⟩) (outs n (Nat.lt_of_succ_lt hn)) g q).trans ?_
    exact step_sum h ids g q (x0 ⟨n + 1, hn⟩) (x1 ⟨n + 1, hn⟩) (n + 1) (by omega)
      (fun p hp => hx0 ⟨n + 1, hn⟩ p q hp) (fun p hp => hx1 ⟨n + 1, hn⟩ p hp) _
      (acc_entry N hN h ids x0 x1 outs hx0 hx1 hfirst hnext g q n (Nat.lt_of_succ_lt hn))

end Accumulation

variable (V : (c : Dev nD) → (b : Ref sig .tc) → Buf (Elt Ideal) ((c : Thread nD τ).loc b))

/-! ## Launch 2 (graph 1)

  Point t's blocks are rows 5000·t … 5000·t+4999 of the node array and of the id column; the buffer's contents point by
  point are the accumulation above; the last point writes the whole [128, 32] block back, and it is the whole array. -/

section Region2

/-- The node array and the id column as launch 2 finds them, and their blocks at a point. -/
abbrev harr2 (c : Dev nD) : FVec Ideal (SNode 32) .f32 := V c main_v27
abbrev iarr2 (c : Dev nD) : IVec (SNode 1) 32 := V c main_v28
abbrev hblk2 (c : Dev nD) (t : Fin cfg2.N) : FVec Ideal S5000x32 .f32 := iblk2 V c 0 t
abbrev idblk2 (c : Dev nD) (t : Fin cfg2.N) : IVec S5000x1 32 := iblk2 V c 1 t

theorem lt19_2 : 19 < cfg2.N := by rw [show cfg2.N = 20 from N_2]; norm_num
/-- The last point. -/
abbrev t19_2 : Fin cfg2.N := ⟨19, lt19_2⟩

/-- The block index of either input at point t is (t, 0); the output's is (0, 0). -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0 :=
  (by decide +kernel : ∀ t : Fin grid2.N, _)

/-- Entry (p, q) of point t's node block is the array's entry (5000·t + p, q). -/
theorem hblk2_apply (c : Dev nD) (t : Fin cfg2.N) (p : Fin 5000) (q : Fin 32) (hp : 5000 * t.val + p.val < 100000) :
    hblk2 V c t (ix2 p q) = harr2 V c (ix2 ⟨5000 * t.val + p.val, hp⟩ q) := by
  show V c main_v27 (((cfg2.win 0).blk t).view.emb (ix2 p q)) = V c main_v27 (ix2 ⟨5000 * t.val + p.val, hp⟩ q)
  refine congrArg (V c main_v27) (funext fun a => Fin.ext ?_)
  obtain ⟨e0, e1, e2, e3, e4, e5⟩ := idx_facts2 t
  match a with
  | ⟨0, _⟩ => show win2_0.index t (0 : Fin 2) * 5000 + 1 * p.val = 5000 * t.val + p.val; omega
  | ⟨1, _⟩ => show win2_0.index t (1 : Fin 2) * 32 + 1 * q.val = q.val; omega

/-- Entry (p, 0) of point t's id block is the column's entry (5000·t + p, 0). -/
theorem idblk2_apply (c : Dev nD) (t : Fin cfg2.N) (p : Fin 5000) (hp : 5000 * t.val + p.val < 100000) :
    idblk2 V c t (ix2 p (0 : Fin 1)) = iarr2 V c (ix2 ⟨5000 * t.val + p.val, hp⟩ (0 : Fin 1)) := by
  show V c main_v28 (((cfg2.win 1).blk t).view.emb (ix2 p (0 : Fin 1))) = V c main_v28 (ix2 ⟨5000 * t.val + p.val, hp⟩ (0 : Fin 1))
  refine congrArg (V c main_v28) (funext fun a => Fin.ext ?_)
  obtain ⟨e0, e1, e2, e3, e4, e5⟩ := idx_facts2 t
  match a with
  | ⟨0, _⟩ => show win2_1.index t (0 : Fin 2) * 5000 + 1 * p.val = 5000 * t.val + p.val; omega
  | ⟨1, _⟩ => show win2_1.index t (1 : Fin 2) * 1 + 1 * (0 : Fin 1).val = (0 : Fin 1).val; omega

/-- After the last point the buffer holds the pooling. -/
theorem outsAt2_last (c : Dev nD) :
    outsAt2 (F := Ideal) V c 19 lt19_2 = pool (harr2 V c) (iarr2 V c) := by
  have hN : cfg2.N = 20 := N_2
  funext j
  obtain ⟨g, q, rfl⟩ : ∃ (g : Fin 128) (q : Fin 32), j = ix2 g q := ⟨j 0, j 1, eq_ix2 j⟩
  rw [pool_ix2, ← full_sum]
  exact acc_entry cfg2.N hN (harr2 V c) (iarr2 V c) (hblk2 V c) (idblk2 V c) (outsAt2 (F := Ideal) V c)
    (fun t p q hp => hblk2_apply V c t p q hp) (fun t p hp => idblk2_apply V c t p hp)
    (fun h0 => (outsAt2_A V c ⟨0, h0⟩ rfl).trans (out2_A (F := Ideal) c (grid2.coords ⟨0, h0⟩) (ms2_0 ⟨0, h0⟩) (hs2_0 ⟨0, h0⟩)
      (ms2_1 ⟨0, h0⟩) (hs2_1 ⟨0, h0⟩) (ms2_2 ⟨0, h0⟩) (hs2_2 ⟨0, h0⟩) ((hcond2_0 ⟨0, h0⟩).mpr rfl)
      (hblk2 V c ⟨0, h0⟩) (idblk2 V c ⟨0, h0⟩)))
    (fun n hn =>
      have hB : ¬(⟨n + 1, hn⟩ : Fin cfg2.N).val % 20 = 0 := by dsimp only; omega
      (outsAt2_B V c ⟨n + 1, hn⟩ hB).trans (out2_B (F := Ideal) c (grid2.coords ⟨n + 1, hn⟩) (ms2_0 ⟨n + 1, hn⟩) (hs2_0 ⟨n + 1, hn⟩)
        (ms2_1 ⟨n + 1, hn⟩) (hs2_1 ⟨n + 1, hn⟩) (ms2_2 ⟨n + 1, hn⟩) (hs2_2 ⟨n + 1, hn⟩) (fun h => hB ((hcond2_0 ⟨n + 1, hn⟩).mp h))
        (hblk2 V c ⟨n + 1, hn⟩) (idblk2 V c ⟨n + 1, hn⟩) (outsAt2 (F := Ideal) V c n (Nat.lt_of_succ_lt hn))))
    g q 19 lt19_2

/-- The one write-back (at the last point) writes the pooling: the output's block is the whole array. -/
theorem flushed2_eq (c : Dev nD) (t : Fin cfg2.N) (hf : (cfg2.win 2).flush t = true) :
    (dat2 (F := Ideal) V c).flushed 2 t = ((cfg2.win 2).blk t).view.read (Elt Ideal) (pool (harr2 V c) (iarr2 V c)) := by
  have hN : cfg2.N = 20 := N_2
  have h19 : t.val = 19 := by have := (flush2_2 t).mp hf; have := t.isLt; omega
  obtain rfl : t = t19_2 := Fin.ext h19
  show (cfg2.win 2).cut (grid2.coords t19_2) ((dat2 (F := Ideal) V c).after 2 t19_2) = _
  rw [after2_2, outsAt2_last]
  obtain ⟨e0, e1, e2, e3, e4, e5⟩ := idx_facts2 t19_2
  have hz' : (fun a => win2_2.index t19_2 a * main_v29.ty.shape.size a) = fun _ => 0 := funext fun a => by
    match a with
    | ⟨0, _⟩ => show win2_2.index t19_2 (0 : Fin 2) * 128 = 0; rw [e4]
    | ⟨1, _⟩ => show win2_2.index t19_2 (1 : Fin 2) * 32 = 0; rw [e5]
  exact (Memref.read_access_unit_zero (Elt Ideal) main_v29 hz' (fun a => by rw [congrFun hz' a]; simp) (pool (harr2 V c) (iarr2 V c))).symm

/-- Launch 2 (graph 1): the output array main_v29 after the run's one write-back. -/
theorem region2 (c : Dev nD) :
    (dat2 (F := Ideal) V c).arrAt 2 cfg2.N = pool (V c main_v27) (V c main_v28) := by
  obtain ⟨e0, e1, e2, e3, e4, e5⟩ := idx_facts2 t19_2
  refine (dat2 (F := Ideal) V c).arrAt_eq_of_cover 2 (pool (harr2 V c) (iarr2 V c)) (flushed2_eq V c) fun i =>
    ⟨t19_2, (flush2_2 t19_2).mpr rfl, ?_⟩
  show i ∈ ((View.whole main_v29).slice (win2_2.rect t19_2)).set
  rw [View.set_slice_whole, Rect.mem_set_unit]
  intro a
  have h0 : (i 0 : Nat) < 128 := (i 0).isLt
  have h1 : (i 1 : Nat) < 32 := (i 1).isLt
  match a with
  | ⟨0, _⟩ => show win2_2.index t19_2 (0 : Fin 2) * 128 ≤ (i 0 : Nat) ∧ (i 0 : Nat) < win2_2.index t19_2 (0 : Fin 2) * 128 + 128
              rw [e4]; omega
  | ⟨1, _⟩ => show win2_2.index t19_2 (1 : Fin 2) * 32 ≤ (i 1 : Nat) ∧ (i 1 : Nat) < win2_2.index t19_2 (1 : Fin 2) * 32 + 32
              rw [e5]; omega

end Region2

/-! ## Launch 5 (graph 2)

  Point t's blocks are rows 5000·t … 5000·t+4999 of the node array and of the id column; the buffer's contents point by
  point are the accumulation above; the last point writes the whole [128, 32] block back, and it is the whole array. -/

section Region5

/-- The node array and the id column as launch 5 finds them, and their blocks at a point. -/
abbrev harr5 (c : Dev nD) : FVec Ideal (SNode 32) .f32 := V c main_v57
abbrev iarr5 (c : Dev nD) : IVec (SNode 1) 32 := V c main_v58
abbrev hblk5 (c : Dev nD) (t : Fin cfg5.N) : FVec Ideal S5000x32 .f32 := iblk5 V c 0 t
abbrev idblk5 (c : Dev nD) (t : Fin cfg5.N) : IVec S5000x1 32 := iblk5 V c 1 t

theorem lt19_5 : 19 < cfg5.N := by rw [show cfg5.N = 20 from N_5]; norm_num
/-- The last point. -/
abbrev t19_5 : Fin cfg5.N := ⟨19, lt19_5⟩

/-- The block index of either input at point t is (t, 0); the output's is (0, 0). -/
theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0 :=
  (by decide +kernel : ∀ t : Fin grid5.N, _)

/-- Entry (p, q) of point t's node block is the array's entry (5000·t + p, q). -/
theorem hblk5_apply (c : Dev nD) (t : Fin cfg5.N) (p : Fin 5000) (q : Fin 32) (hp : 5000 * t.val + p.val < 100000) :
    hblk5 V c t (ix2 p q) = harr5 V c (ix2 ⟨5000 * t.val + p.val, hp⟩ q) := by
  show V c main_v57 (((cfg5.win 0).blk t).view.emb (ix2 p q)) = V c main_v57 (ix2 ⟨5000 * t.val + p.val, hp⟩ q)
  refine congrArg (V c main_v57) (funext fun a => Fin.ext ?_)
  obtain ⟨e0, e1, e2, e3, e4, e5⟩ := idx_facts5 t
  match a with
  | ⟨0, _⟩ => show win5_0.index t (0 : Fin 2) * 5000 + 1 * p.val = 5000 * t.val + p.val; omega
  | ⟨1, _⟩ => show win5_0.index t (1 : Fin 2) * 32 + 1 * q.val = q.val; omega

/-- Entry (p, 0) of point t's id block is the column's entry (5000·t + p, 0). -/
theorem idblk5_apply (c : Dev nD) (t : Fin cfg5.N) (p : Fin 5000) (hp : 5000 * t.val + p.val < 100000) :
    idblk5 V c t (ix2 p (0 : Fin 1)) = iarr5 V c (ix2 ⟨5000 * t.val + p.val, hp⟩ (0 : Fin 1)) := by
  show V c main_v58 (((cfg5.win 1).blk t).view.emb (ix2 p (0 : Fin 1))) = V c main_v58 (ix2 ⟨5000 * t.val + p.val, hp⟩ (0 : Fin 1))
  refine congrArg (V c main_v58) (funext fun a => Fin.ext ?_)
  obtain ⟨e0, e1, e2, e3, e4, e5⟩ := idx_facts5 t
  match a with
  | ⟨0, _⟩ => show win5_1.index t (0 : Fin 2) * 5000 + 1 * p.val = 5000 * t.val + p.val; omega
  | ⟨1, _⟩ => show win5_1.index t (1 : Fin 2) * 1 + 1 * (0 : Fin 1).val = (0 : Fin 1).val; omega

/-- After the last point the buffer holds the pooling. -/
theorem outsAt5_last (c : Dev nD) :
    outsAt5 (F := Ideal) V c 19 lt19_5 = pool (harr5 V c) (iarr5 V c) := by
  have hN : cfg5.N = 20 := N_5
  funext j
  obtain ⟨g, q, rfl⟩ : ∃ (g : Fin 128) (q : Fin 32), j = ix2 g q := ⟨j 0, j 1, eq_ix2 j⟩
  rw [pool_ix2, ← full_sum]
  exact acc_entry cfg5.N hN (harr5 V c) (iarr5 V c) (hblk5 V c) (idblk5 V c) (outsAt5 (F := Ideal) V c)
    (fun t p q hp => hblk5_apply V c t p q hp) (fun t p hp => idblk5_apply V c t p hp)
    (fun h0 => (outsAt5_A V c ⟨0, h0⟩ rfl).trans (out5_A (F := Ideal) c (grid5.coords ⟨0, h0⟩) (ms5_0 ⟨0, h0⟩) (hs5_0 ⟨0, h0⟩)
      (ms5_1 ⟨0, h0⟩) (hs5_1 ⟨0, h0⟩) (ms5_2 ⟨0, h0⟩) (hs5_2 ⟨0, h0⟩) ((hcond5_0 ⟨0, h0⟩).mpr rfl)
      (hblk5 V c ⟨0, h0⟩) (idblk5 V c ⟨0, h0⟩)))
    (fun n hn =>
      have hB : ¬(⟨n + 1, hn⟩ : Fin cfg5.N).val % 20 = 0 := by dsimp only; omega
      (outsAt5_B V c ⟨n + 1, hn⟩ hB).trans (out5_B (F := Ideal) c (grid5.coords ⟨n + 1, hn⟩) (ms5_0 ⟨n + 1, hn⟩) (hs5_0 ⟨n + 1, hn⟩)
        (ms5_1 ⟨n + 1, hn⟩) (hs5_1 ⟨n + 1, hn⟩) (ms5_2 ⟨n + 1, hn⟩) (hs5_2 ⟨n + 1, hn⟩) (fun h => hB ((hcond5_0 ⟨n + 1, hn⟩).mp h))
        (hblk5 V c ⟨n + 1, hn⟩) (idblk5 V c ⟨n + 1, hn⟩) (outsAt5 (F := Ideal) V c n (Nat.lt_of_succ_lt hn))))
    g q 19 lt19_5

/-- The one write-back (at the last point) writes the pooling: the output's block is the whole array. -/
theorem flushed5_eq (c : Dev nD) (t : Fin cfg5.N) (hf : (cfg5.win 2).flush t = true) :
    (dat5 (F := Ideal) V c).flushed 2 t = ((cfg5.win 2).blk t).view.read (Elt Ideal) (pool (harr5 V c) (iarr5 V c)) := by
  have hN : cfg5.N = 20 := N_5
  have h19 : t.val = 19 := by have := (flush5_2 t).mp hf; have := t.isLt; omega
  obtain rfl : t = t19_5 := Fin.ext h19
  show (cfg5.win 2).cut (grid5.coords t19_5) ((dat5 (F := Ideal) V c).after 2 t19_5) = _
  rw [after5_2, outsAt5_last]
  obtain ⟨e0, e1, e2, e3, e4, e5⟩ := idx_facts5 t19_5
  have hz' : (fun a => win5_2.index t19_5 a * main_v59.ty.shape.size a) = fun _ => 0 := funext fun a => by
    match a with
    | ⟨0, _⟩ => show win5_2.index t19_5 (0 : Fin 2) * 128 = 0; rw [e4]
    | ⟨1, _⟩ => show win5_2.index t19_5 (1 : Fin 2) * 32 = 0; rw [e5]
  exact (Memref.read_access_unit_zero (Elt Ideal) main_v59 hz' (fun a => by rw [congrFun hz' a]; simp) (pool (harr5 V c) (iarr5 V c))).symm

/-- Launch 5 (graph 2): the output array main_v59 after the run's one write-back. -/
theorem region5 (c : Dev nD) :
    (dat5 (F := Ideal) V c).arrAt 2 cfg5.N = pool (V c main_v57) (V c main_v58) := by
  obtain ⟨e0, e1, e2, e3, e4, e5⟩ := idx_facts5 t19_5
  refine (dat5 (F := Ideal) V c).arrAt_eq_of_cover 2 (pool (harr5 V c) (iarr5 V c)) (flushed5_eq V c) fun i =>
    ⟨t19_5, (flush5_2 t19_5).mpr rfl, ?_⟩
  show i ∈ ((View.whole main_v59).slice (win5_2.rect t19_5)).set
  rw [View.set_slice_whole, Rect.mem_set_unit]
  intro a
  have h0 : (i 0 : Nat) < 128 := (i 0).isLt
  have h1 : (i 1 : Nat) < 32 := (i 1).isLt
  match a with
  | ⟨0, _⟩ => show win5_2.index t19_5 (0 : Fin 2) * 128 ≤ (i 0 : Nat) ∧ (i 0 : Nat) < win5_2.index t19_5 (0 : Fin 2) * 128 + 128
              rw [e4]; omega
  | ⟨1, _⟩ => show win5_2.index t19_5 (1 : Fin 2) * 32 ≤ (i 1 : Nat) ∧ (i 1 : Nat) < win5_2.index t19_5 (1 : Fin 2) * 32 + 32
              rw [e5]; omega

end Region5

end Cert.KernelIdeal.Pool

end
-- ==== Proof.Reshape.lean ====
/-
  Two reshapes read as the specification spells them: a bias vector as a one-row matrix, a vector of graph ids as a
  column.  Both keep the row-major order, so the entry at (0, i), respectively (i, 0), is the vector's entry i.
-/
import Idealize.ShloMosaic.Lib.Pipeline.Value
import Idealize.ShloMosaic.Lib.ValueLayout
import proofs.«416997_j84361747628046_2_alg».proof.Proof.Spec

noncomputable section

namespace Cert.GinSpec

open Idealize.ShloMosaic Idealize.ShloMosaic.ValueIdx

/-- A [32] vector cast to [1, 32] is the bias row. -/
theorem shapeCast_biasRow (b : FVec Ideal SBias .f32) (h : SBias.ShapeCasts SRow) : shapeCast SRow b h = biasRow b := by
  funext j
  obtain ⟨u, i, rfl⟩ : ∃ (u : Fin 1) (i : Fin 32), j = ix2 u i := ⟨j 0, j 1, eq_ix2 j⟩
  exact shapeCast_a_1a_apply b h u i

/-- A [100000] vector cast to [100000, 1] is the id column. -/
theorem shapeCast_idCol (bt : IVec SIds 32) (h : SIds.ShapeCasts (SNode 1)) : shapeCast (SNode 1) bt h = idCol bt := by
  funext j
  obtain ⟨p, u, rfl⟩ : ∃ (p : Fin 100000) (u : Fin 1), j = ix2 p u := ⟨j 0, j 1, eq_ix2 j⟩
  refine shapeCast_apply bt h _ (ix1 p) ?_
  have hu : u.val = 0 := by omega
  rw [Shape.rowMajor_val_two, Shape.rowMajor_val_one]
  show p.val = p.val * 1 + u.val
  rw [hu, Nat.mul_one, Nat.add_zero]

end Cert.GinSpec

end
-- ==== Proof.KFoldA.lean ====
/-
  The first graph through the program: the buffer contents at the boundaries up to the first pooling's exit, each as
  a function of the launch memory's arguments; and the second graph's arguments, the weights and the biases still
  as launched there.
-/
import proofs.«416997_j84361747628046_2_alg».proof.Proof.Gen.KernelIdeal.Frame
import proofs.«416997_j84361747628046_2_alg».proof.Proof.Spec
import proofs.«416997_j84361747628046_2_alg».proof.Proof.KArgs
import proofs.«416997_j84361747628046_2_alg».proof.Proof.Dense1Region
import proofs.«416997_j84361747628046_2_alg».proof.Proof.Dense32Region
import proofs.«416997_j84361747628046_2_alg».proof.Proof.PoolRegion
import proofs.«416997_j84361747628046_2_alg».proof.Proof.Reshape

set_option maxRecDepth 16384

noncomputable section

open scoped BigOperators

namespace Cert.KernelIdeal.Fold

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GinSpec

variable (m : (ℓ : Loc nD τ sig) → Buf (Elt Ideal) ℓ) (ρ : Dev nD → PrngReg)
/-! ## What each stretch of host operations writes, and what it therefore leaves as it was -/

/-- The buffers the host operations before the first launch write. -/
abbrev written0 : List (Ref sig .tc) :=
  [main_v0, main_v1, main_v2, main_v3, main_c, main_v4, main_v5, main_c_0, main_v6, main_v7, main_v8, main_v9, main_v10,
   main_cst, main_v11, main_v12, main_v13, main_v14]
/-- The buffers the host operations between the first and the second launch write. -/
abbrev written1 : List (Ref sig .tc) :=
  [main_c_1, main_v16, main_v17, main_c_2, main_v18, main_v19, main_v20, main_v21, main_v22, main_cst_3, main_v23, main_v24,
   main_v25, main_v26]
/-- The one buffer the host operation between the second and the third launch writes. -/
abbrev written2 : List (Ref sig .tc) := [main_v28]

theorem written0_sub : (hostOps0 : List (HloOp τ sig (Elt Ideal))).Forall fun op =>
    op.writes ⊆ (written0.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)
theorem written1_sub : (hostOps1 : List (HloOp τ sig (Elt Ideal))).Forall fun op =>
    op.writes ⊆ (written1.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)
theorem written2_sub : (hostOps2 : List (HloOp τ sig (Elt Ideal))).Forall fun op =>
    op.writes ⊆ (written2.map (Proc.devRef (τ := τ) .tc)).toFinset := by
  simp only [List.Forall]
  simp only [StableHlo.reshape_writes, Finset.singleton_subset_iff, List.mem_toFinset]
  exact List.mem_map_of_mem (by decide)

theorem W1_keep (c : Dev nD) (b : Ref sig .tc) (hb : b ∉ written0) :
    W1 m ρ c (Proc.devRef .tc b) = m ((c : Thread nD τ).loc b) :=
  (StableHlo.after_of_writes_sub hostOps0 _ written0_sub hb).trans rfl
theorem W3_keep (c : Dev nD) (b : Ref sig .tc) (hb : b ∉ written1) :
    W3 m ρ c (Proc.devRef .tc b) = W2 m ρ c (Proc.devRef .tc b) :=
  StableHlo.after_of_writes_sub hostOps1 _ written1_sub hb
theorem W5_keep (c : Dev nD) (b : Ref sig .tc) (hb : b ∉ written2) :
    W5 m ρ c (Proc.devRef .tc b) = W4 m ρ c (Proc.devRef .tc b) :=
  StableHlo.after_of_writes_sub hostOps2 _ written2_sub hb

/-! ## What each launch leaves as it was: every buffer but its output array (an input array is read, not written) -/

theorem W2_keep (c : Dev nD) (b : Ref sig .tc) (hb : b ≠ main_v15) :
    W2 m ρ c (Proc.devRef .tc b) = W1 m ρ c (Proc.devRef .tc b) := by
  by_cases h : ∀ w, Pipeline.arrRef spec0 w ≠ b
  · exact W2_of_ne m ρ c b h
  · obtain ⟨w, hw⟩ := not_forall.mp h
    obtain rfl : Pipeline.arrRef spec0 w = b := not_not.mp hw
    rcases (by decide : ∀ w : Fin cfg0.W, (cfg0.win w).isOut = false ∨ Pipeline.arrRef spec0 w = main_v15) w with hin | e
    · exact (W2_arr m ρ c w).trans (((dat0 (V1 m ρ) c).arrAt_in w hin _).trans (A_eq0 (V1 m ρ) c w))
    · exact absurd e hb
theorem W4_keep (c : Dev nD) (b : Ref sig .tc) (hb : b ≠ main_v27) :
    W4 m ρ c (Proc.devRef .tc b) = W3 m ρ c (Proc.devRef .tc b) := by
  by_cases h : ∀ w, Pipeline.arrRef spec1 w ≠ b
  · exact W4_of_ne m ρ c b h
  · obtain ⟨w, hw⟩ := not_forall.mp h
    obtain rfl : Pipeline.arrRef spec1 w = b := not_not.mp hw
    rcases (by decide : ∀ w : Fin cfg1.W, (cfg1.win w).isOut = false ∨ Pipeline.arrRef spec1 w = main_v27) w with hin | e
    · exact (W4_arr m ρ c w).trans (((dat1 (V3 m ρ) c).arrAt_in w hin _).trans (A_eq1 (V3 m ρ) c w))
    · exact absurd e hb
theorem W6_keep (c : Dev nD) (b : Ref sig .tc) (hb : b ≠ main_v29) :
    W6 m ρ c (Proc.devRef .tc b) = W5 m ρ c (Proc.devRef .tc b) := by
  by_cases h : ∀ w, Pipeline.arrRef spec2 w ≠ b
  · exact W6_of_ne m ρ c b h
  · obtain ⟨w, hw⟩ := not_forall.mp h
    obtain rfl : Pipeline.arrRef spec2 w = b := not_not.mp hw
    rcases (by decide : ∀ w : Fin cfg2.W, (cfg2.win w).isOut = false ∨ Pipeline.arrRef spec2 w = main_v29) w with hin | e
    · exact (W6_arr m ρ c w).trans (((dat2 (V5 m ρ) c).arrAt_in w hin _).trans (A_eq2 (V5 m ρ) c w))
    · exact absurd e hb

/-! ## Before the first launch: the host has sliced the edge list, summed the neighbours and laid out the bias -/

theorem W1_arg0 (c : Dev nD) : W1 m ρ c (Proc.devRef .tc main_arg0) = ax1 m c := W1_keep m ρ c main_arg0 (by decide)
theorem W1_arg6 (c : Dev nD) : W1 m ρ c (Proc.devRef .tc main_arg6) = aW1 m c := W1_keep m ρ c main_arg6 (by decide)
/-- The sources row of the first graph's edge list. -/
theorem W1_v1 (c : Dev nD) : W1 m ρ c (Proc.devRef .tc main_v1) = edgeRow 0 (aei1 m c) (by decide) := by
  show StableHlo.after hostOps0 (W0 m ρ c) (Proc.devRef .tc main_v1) = _
  after_results
  rfl
/-- The targets row of the first graph's edge list. -/
theorem W1_v3 (c : Dev nD) : W1 m ρ c (Proc.devRef .tc main_v3) = edgeRow 1 (aei1 m c) (by decide) := by
  show StableHlo.after hostOps0 (W0 m ρ c) (Proc.devRef .tc main_v3) = _
  after_results
  rfl
/-- The neighbour sum of the first graph's node features. -/
theorem W1_v13 (c : Dev nD) : W1 m ρ c (Proc.devRef .tc main_v13) = aggregate 1 wg1 ws1 hb1 (ax1 m c) (aei1 m c) := by
  show StableHlo.after hostOps0 (W0 m ρ c) (Proc.devRef .tc main_v13) = _
  after_results
  rfl
/-- The first bias as a row. -/
theorem W1_v14 (c : Dev nD) : W1 m ρ c (Proc.devRef .tc main_v14) = biasRow (ab1 m c) := by
  show StableHlo.after hostOps0 (W0 m ρ c) (Proc.devRef .tc main_v14) = _
  after_results
  exact shapeCast_biasRow (ab1 m c) _

/-! ## The first launch's exit: the first layer -/

theorem W2_v15 (c : Dev nD) : W2 m ρ c (Proc.devRef .tc main_v15) = layer1 (ax1 m c) (aei1 m c) (aW1 m c) (ab1 m c) := by
  refine ((W2_arr m ρ c 4).trans (Dense1.region0 (V1 m ρ) c)).trans ?_
  show dense 1 (W1 m ρ c (Proc.devRef .tc main_arg0)) (W1 m ρ c (Proc.devRef .tc main_v13))
      (W1 m ρ c (Proc.devRef .tc main_arg6)) (W1 m ρ c (Proc.devRef .tc main_v14)) = _
  rw [W1_arg0, W1_v13, W1_arg6, W1_v14]
  rfl
theorem W2_v1 (c : Dev nD) : W2 m ρ c (Proc.devRef .tc main_v1) = edgeRow 0 (aei1 m c) (by decide) :=
  (W2_keep m ρ c main_v1 (by decide)).trans (W1_v1 m ρ c)
theorem W2_v3 (c : Dev nD) : W2 m ρ c (Proc.devRef .tc main_v3) = edgeRow 1 (aei1 m c) (by decide) :=
  (W2_keep m ρ c main_v3 (by decide)).trans (W1_v3 m ρ c)
theorem W2_arg8 (c : Dev nD) : W2 m ρ c (Proc.devRef .tc main_arg8) = aW2 m c :=
  (W2_keep m ρ c main_arg8 (by decide)).trans (W1_keep m ρ c main_arg8 (by decide))
theorem W2_arg9 (c : Dev nD) : W2 m ρ c (Proc.devRef .tc main_arg9) = ab2 m c :=
  (W2_keep m ρ c main_arg9 (by decide)).trans (W1_keep m ρ c main_arg9 (by decide))

/-! ## Before the second launch: the neighbour sum of the first layer, the second bias as a row -/

theorem W3_v25 (c : Dev nD) : W3 m ρ c (Proc.devRef .tc main_v25)
    = aggregate 32 wg32 ws32 hb32 (layer1 (ax1 m c) (aei1 m c) (aW1 m c) (ab1 m c)) (aei1 m c) := by
  show StableHlo.after hostOps1 (W2 m ρ c) (Proc.devRef .tc main_v25) = _
  after_results
  rw [W2_v1, W2_v3, W2_v15]
  rfl
theorem W3_v26 (c : Dev nD) : W3 m ρ c (Proc.devRef .tc main_v26) = biasRow (ab2 m c) := by
  show StableHlo.after hostOps1 (W2 m ρ c) (Proc.devRef .tc main_v26) = _
  after_results
  rw [W2_arg9]
  exact shapeCast_biasRow (ab2 m c) _
theorem W3_v15 (c : Dev nD) : W3 m ρ c (Proc.devRef .tc main_v15) = layer1 (ax1 m c) (aei1 m c) (aW1 m c) (ab1 m c) :=
  (W3_keep m ρ c main_v15 (by decide)).trans (W2_v15 m ρ c)
theorem W3_arg8 (c : Dev nD) : W3 m ρ c (Proc.devRef .tc main_arg8) = aW2 m c :=
  (W3_keep m ρ c main_arg8 (by decide)).trans (W2_arg8 m ρ c)

/-! ## The second launch's exit: the second layer -/

theorem W4_v27 (c : Dev nD) : W4 m ρ c (Proc.devRef .tc main_v27)
    = layer2 (layer1 (ax1 m c) (aei1 m c) (aW1 m c) (ab1 m c)) (aei1 m c) (aW2 m c) (ab2 m c) := by
  refine ((W4_arr m ρ c 4).trans (Dense32.region1 (V3 m ρ) c)).trans ?_
  show dense 32 (W3 m ρ c (Proc.devRef .tc main_v15)) (W3 m ρ c (Proc.devRef .tc main_v25))
      (W3 m ρ c (Proc.devRef .tc main_arg8)) (W3 m ρ c (Proc.devRef .tc main_v26)) = _
  rw [W3_v15, W3_v25, W3_arg8, W3_v26]
  rfl
theorem W4_arg2 (c : Dev nD) : W4 m ρ c (Proc.devRef .tc main_arg2) = abt1 m c :=
  (W4_keep m ρ c main_arg2 (by decide)).trans <| (W3_keep m ρ c main_arg2 (by decide)).trans <|
    (W2_keep m ρ c main_arg2 (by decide)).trans (W1_keep m ρ c main_arg2 (by decide))

/-! ## Before the third launch: the graph ids as a column -/

theorem W5_v28 (c : Dev nD) : W5 m ρ c (Proc.devRef .tc main_v28) = idCol (abt1 m c) := by
  show StableHlo.after hostOps2 (W4 m ρ c) (Proc.devRef .tc main_v28) = _
  after_results
  rw [W4_arg2]
  exact shapeCast_idCol (abt1 m c) _
theorem W5_v27 (c : Dev nD) : W5 m ρ c (Proc.devRef .tc main_v27)
    = layer2 (layer1 (ax1 m c) (aei1 m c) (aW1 m c) (ab1 m c)) (aei1 m c) (aW2 m c) (ab2 m c) :=
  (W5_keep m ρ c main_v27 (by decide)).trans (W4_v27 m ρ c)

/-! ## The third launch's exit: the pooling, and the buffers nothing so far has written -/

/-- At the first pooling's exit its output array holds the first graph's encoding. -/
theorem W6_v29 (c : Dev nD) : W6 m ρ c (Proc.devRef .tc main_v29)
    = encode (ax1 m c) (aei1 m c) (abt1 m c) (aW1 m c) (ab1 m c) (aW2 m c) (ab2 m c) := by
  refine ((W6_arr m ρ c 2).trans (Pool.region2 (V5 m ρ) c)).trans ?_
  show pool (W5 m ρ c (Proc.devRef .tc main_v27)) (W5 m ρ c (Proc.devRef .tc main_v28)) = _
  rw [W5_v27, W5_v28]
  rfl

/-- A buffer that no host operation so far writes and that is no launch's output array is as launched. -/
theorem W6_launch (c : Dev nD) (b : Ref sig .tc) (h0 : b ∉ written0) (h1 : b ∉ written1) (h2 : b ∉ written2)
    (h15 : b ≠ main_v15) (h27 : b ≠ main_v27) (h29 : b ≠ main_v29) :
    W6 m ρ c (Proc.devRef .tc b) = m ((c : Thread nD τ).loc b) :=
  (W6_keep m ρ c b h29).trans <| (W5_keep m ρ c b h2).trans <| (W4_keep m ρ c b h27).trans <|
    (W3_keep m ρ c b h1).trans <| (W2_keep m ρ c b h15).trans (W1_keep m ρ c b h0)

/-- There the remaining arguments are as launched: nothing before writes them. -/
theorem W6_arg3 (c : Dev nD) : W6 m ρ c (Proc.devRef .tc main_arg3) = m ((c : Thread nD τ).loc main_arg3) :=
  W6_launch m ρ c main_arg3 (by decide) (by decide) (by decide) (by decide) (by decide) (by decide)
theorem W6_arg4 (c : Dev nD) : W6 m ρ c (Proc.devRef .tc main_arg4) = m ((c : Thread nD τ).loc main_arg4) :=
  W6_launch m ρ c main_arg4 (by decide) (by decide) (by decide) (by decide) (by decide) (by decide)
theorem W6_arg5 (c : Dev nD) : W6 m ρ c (Proc.devRef .tc main_arg5) = m ((c : Thread nD τ).loc main_arg5) :=
  W6_launch m ρ c main_arg5 (by decide) (by decide) (by decide) (by decide) (by decide) (by decide)
theorem W6_arg6 (c : Dev nD) : W6 m ρ c (Proc.devRef .tc main_arg6) = m ((c : Thread nD τ).loc main_arg6) :=
  W6_launch m ρ c main_arg6 (by decide) (by decide) (by decide) (by decide) (by decide) (by decide)
theorem W6_arg7 (c : Dev nD) : W6 m ρ c (Proc.devRef .tc main_arg7) = m ((c : Thread nD τ).loc main_arg7) :=
  W6_launch m ρ c main_arg7 (by decide) (by decide) (by decide) (by decide) (by decide) (by decide)
theorem W6_arg8 (c : Dev nD) : W6 m ρ c (Proc.devRef .tc main_arg8) = m ((c : Thread nD τ).loc main_arg8) :=
  W6_launch m ρ c main_arg8 (by decide) (by decide) (by decide) (by decide) (by decide) (by decide)
theorem W6_arg9 (c : Dev nD) : W6 m ρ c (Proc.devRef .tc main_arg9) = m ((c : Thread nD τ).loc main_arg9) :=
  W6_launch m ρ c main_arg9 (by decide) (by decide) (by decide) (by decide) (by decide) (by decide)

end Cert.KernelIdeal.Fold

end
-- ==== Proof.KFoldB.lean ====
/-
  The second graph through the program, from the first pooling's exit to the return: the second pooling's output,
  the first pooling's output kept, and the result array as the function of the launch memory's arguments.

  Every boundary's contents are read buffer by buffer.  Through a host stretch a buffer it writes holds the
  stretch's operations applied to the previous boundary's contents, any other buffer what it held; through a kernel
  launch the output array holds the launch's value at the entry contents of its input arrays, any buffer that is
  not one of its arrays what it held.
-/
import proofs.«416997_j84361747628046_2_alg».proof.Proof.Gen.KernelIdeal.Frame
import proofs.«416997_j84361747628046_2_alg».proof.Proof.Spec
import proofs.«416997_j84361747628046_2_alg».proof.Proof.KArgs
import proofs.«416997_j84361747628046_2_alg».proof.Proof.Dense1Region
import proofs.«416997_j84361747628046_2_alg».proof.Proof.Dense32Region
import proofs.«416997_j84361747628046_2_alg».proof.Proof.PoolRegion
import proofs.«416997_j84361747628046_2_alg».proof.Proof.KFoldA
import Idealize.ShloMosaic.Lib.StableHlo.Run
import proofs.«416997_j84361747628046_2_alg».proof.Proof.Reshape

set_option maxRecDepth 16384

noncomputable section

open scoped BigOperators

namespace Cert.KernelIdeal.Fold

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GinSpec

variable (m : (ℓ : Loc nD τ sig) → Buf (Elt Ideal) ℓ) (ρ : Dev nD → PrngReg)

/-! ## What the host stretches of the second graph write

Each stretch writes a literal list of buffers; any other buffer holds after it what it held before. -/

/-- The buffers written between the first pooling's exit and the second graph's first dense layer. -/
abbrev hostB3_W : List (Ref sig .tc) :=
  [main_v30, main_v31, main_v32, main_v33, main_c_4, main_v34, main_v35, main_c_5, main_v36, main_v37, main_v38, main_v39,
   main_v40, main_cst_6, main_v41, main_v42, main_v43, main_v44]
theorem hostB3_writes : (hostOps3 : List (HloOp τ sig (Elt Ideal))).Forall fun op =>
    op.writes ⊆ (hostB3_W.map (Proc.devRef (τ := τ) .tc)).toFinset := by
  simp only [List.Forall]
  simp only [StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
theorem W7_of (c : Dev nD) (r : Ref sig .tc) (h : r ∉ hostB3_W) :
    W7 m ρ c (Proc.devRef .tc r) = W6 m ρ c (Proc.devRef .tc r) :=
  StableHlo.after_of_writes_sub hostOps3 _ hostB3_writes h

/-- The buffers written between the second graph's two dense layers. -/
abbrev hostB4_W : List (Ref sig .tc) :=
  [main_c_7, main_v46, main_v47, main_c_8, main_v48, main_v49, main_v50, main_v51, main_v52, main_cst_9, main_v53, main_v54,
   main_v55, main_v56]
theorem hostB4_writes : (hostOps4 : List (HloOp τ sig (Elt Ideal))).Forall fun op =>
    op.writes ⊆ (hostB4_W.map (Proc.devRef (τ := τ) .tc)).toFinset := by
  simp only [List.Forall]
  simp only [StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
theorem W9_of (c : Dev nD) (r : Ref sig .tc) (h : r ∉ hostB4_W) :
    W9 m ρ c (Proc.devRef .tc r) = W8 m ρ c (Proc.devRef .tc r) :=
  StableHlo.after_of_writes_sub hostOps4 _ hostB4_writes h

/-- The one buffer written between the second graph's second dense layer and its pooling. -/
abbrev hostB5_W : List (Ref sig .tc) := [main_v58]
theorem hostB5_writes : (hostOps5 : List (HloOp τ sig (Elt Ideal))).Forall fun op =>
    op.writes ⊆ (hostB5_W.map (Proc.devRef (τ := τ) .tc)).toFinset := by
  simp only [List.Forall]
  simp only [StableHlo.reshape_writes, Finset.singleton_subset_iff, List.mem_toFinset]
  exact List.mem_map_of_mem (by decide)
theorem W11_of (c : Dev nD) (r : Ref sig .tc) (h : r ∉ hostB5_W) :
    W11 m ρ c (Proc.devRef .tc r) = W10 m ρ c (Proc.devRef .tc r) :=
  StableHlo.after_of_writes_sub hostOps5 _ hostB5_writes h

/-! ## The second graph's first dense layer

At its entry: the node features and the first weight matrix as launched, the neighbour sum of the node features over
the second edge list, the first bias as a row; and the two rows of the second edge list, which the next stretch reads. -/

theorem W7_arg3 (c : Dev nD) : W7 m ρ c (Proc.devRef .tc main_arg3) = ax2 m c :=
  (W7_of m ρ c main_arg3 (by decide)).trans (W6_arg3 m ρ c)
theorem W7_arg6 (c : Dev nD) : W7 m ρ c (Proc.devRef .tc main_arg6) = aW1 m c :=
  (W7_of m ρ c main_arg6 (by decide)).trans (W6_arg6 m ρ c)

set_option maxHeartbeats 1000000 in
theorem W7_v43 (c : Dev nD) : W7 m ρ c (Proc.devRef .tc main_v43) = aggregate 1 wg1 ws1 hb1 (ax2 m c) (aei2 m c) := by
  show StableHlo.after hostOps3 (W6 m ρ c) (Proc.devRef .tc main_v43) = _
  after_results_simp
  rw [W6_arg3, W6_arg4]
  rfl

theorem W7_v44 (c : Dev nD) : W7 m ρ c (Proc.devRef .tc main_v44) = biasRow (ab1 m c) := by
  show StableHlo.after hostOps3 (W6 m ρ c) (Proc.devRef .tc main_v44) = _
  after_results_simp
  rw [W6_arg7]
  exact shapeCast_biasRow (ab1 m c) _

theorem W7_v31 (c : Dev nD) : W7 m ρ c (Proc.devRef .tc main_v31) = edgeRow 0 (aei2 m c) (by decide) := by
  show StableHlo.after hostOps3 (W6 m ρ c) (Proc.devRef .tc main_v31) = _
  after_results_simp
  rw [W6_arg4]
  rfl

theorem W7_v33 (c : Dev nD) : W7 m ρ c (Proc.devRef .tc main_v33) = edgeRow 1 (aei2 m c) (by decide) := by
  show StableHlo.after hostOps3 (W6 m ρ c) (Proc.devRef .tc main_v33) = _
  after_results_simp
  rw [W6_arg4]
  rfl

/-- At its exit the output array holds the second graph's first-layer features. -/
theorem W8_v45 (c : Dev nD) : W8 m ρ c (Proc.devRef .tc main_v45) = layer1 (ax2 m c) (aei2 m c) (aW1 m c) (ab1 m c) := by
  refine (W8_arr m ρ c 4).trans ((Dense1.region3 (V7 m ρ) c).trans ?_)
  show dense 1 (W7 m ρ c (Proc.devRef .tc main_arg3)) (W7 m ρ c (Proc.devRef .tc main_v43))
    (W7 m ρ c (Proc.devRef .tc main_arg6)) (W7 m ρ c (Proc.devRef .tc main_v44)) = _
  rw [W7_arg3, W7_v43, W7_arg6, W7_v44]
  rfl

theorem W8_v31 (c : Dev nD) : W8 m ρ c (Proc.devRef .tc main_v31) = edgeRow 0 (aei2 m c) (by decide) :=
  (W8_of_ne m ρ c main_v31 (by decide)).trans (W7_v31 m ρ c)
theorem W8_v33 (c : Dev nD) : W8 m ρ c (Proc.devRef .tc main_v33) = edgeRow 1 (aei2 m c) (by decide) :=
  (W8_of_ne m ρ c main_v33 (by decide)).trans (W7_v33 m ρ c)
theorem W8_arg8 (c : Dev nD) : W8 m ρ c (Proc.devRef .tc main_arg8) = aW2 m c :=
  (W8_of_ne m ρ c main_arg8 (by decide)).trans ((W7_of m ρ c main_arg8 (by decide)).trans (W6_arg8 m ρ c))
theorem W8_arg9 (c : Dev nD) : W8 m ρ c (Proc.devRef .tc main_arg9) = ab2 m c :=
  (W8_of_ne m ρ c main_arg9 (by decide)).trans ((W7_of m ρ c main_arg9 (by decide)).trans (W6_arg9 m ρ c))
theorem W8_arg5 (c : Dev nD) : W8 m ρ c (Proc.devRef .tc main_arg5) = abt2 m c :=
  (W8_of_ne m ρ c main_arg5 (by decide)).trans ((W7_of m ρ c main_arg5 (by decide)).trans (W6_arg5 m ρ c))

/-! ## The second graph's second dense layer

At its entry: the first-layer features, their neighbour sum over the second edge list, the second weight matrix as
launched and the second bias as a row. -/

theorem W9_v45 (c : Dev nD) : W9 m ρ c (Proc.devRef .tc main_v45) = layer1 (ax2 m c) (aei2 m c) (aW1 m c) (ab1 m c) :=
  (W9_of m ρ c main_v45 (by decide)).trans (W8_v45 m ρ c)
theorem W9_arg8 (c : Dev nD) : W9 m ρ c (Proc.devRef .tc main_arg8) = aW2 m c :=
  (W9_of m ρ c main_arg8 (by decide)).trans (W8_arg8 m ρ c)

set_option maxHeartbeats 1000000 in
theorem W9_v55 (c : Dev nD) : W9 m ρ c (Proc.devRef .tc main_v55)
    = aggregate 32 wg32 ws32 hb32 (layer1 (ax2 m c) (aei2 m c) (aW1 m c) (ab1 m c)) (aei2 m c) := by
  show StableHlo.after hostOps4 (W8 m ρ c) (Proc.devRef .tc main_v55) = _
  after_results_simp
  rw [W8_v31, W8_v33, W8_v45]
  rfl

theorem W9_v56 (c : Dev nD) : W9 m ρ c (Proc.devRef .tc main_v56) = biasRow (ab2 m c) := by
  show StableHlo.after hostOps4 (W8 m ρ c) (Proc.devRef .tc main_v56) = _
  after_results_simp
  rw [W8_arg9]
  exact shapeCast_biasRow (ab2 m c) _

/-- At its exit the output array holds the second graph's second-layer features. -/
theorem W10_v57 (c : Dev nD) : W10 m ρ c (Proc.devRef .tc main_v57)
    = layer2 (layer1 (ax2 m c) (aei2 m c) (aW1 m c) (ab1 m c)) (aei2 m c) (aW2 m c) (ab2 m c) := by
  refine (W10_arr m ρ c 4).trans ((Dense32.region4 (V9 m ρ) c).trans ?_)
  show dense 32 (W9 m ρ c (Proc.devRef .tc main_v45)) (W9 m ρ c (Proc.devRef .tc main_v55))
    (W9 m ρ c (Proc.devRef .tc main_arg8)) (W9 m ρ c (Proc.devRef .tc main_v56)) = _
  rw [W9_v45, W9_v55, W9_arg8, W9_v56]
  rfl

theorem W10_arg5 (c : Dev nD) : W10 m ρ c (Proc.devRef .tc main_arg5) = abt2 m c :=
  (W10_of_ne m ρ c main_arg5 (by decide)).trans ((W9_of m ρ c main_arg5 (by decide)).trans (W8_arg5 m ρ c))

/-! ## The second graph's pooling

At its entry: the second-layer features and the second graph's ids as a column. -/

theorem W11_v57 (c : Dev nD) : W11 m ρ c (Proc.devRef .tc main_v57)
    = layer2 (layer1 (ax2 m c) (aei2 m c) (aW1 m c) (ab1 m c)) (aei2 m c) (aW2 m c) (ab2 m c) :=
  (W11_of m ρ c main_v57 (by decide)).trans (W10_v57 m ρ c)

theorem W11_v58 (c : Dev nD) : W11 m ρ c (Proc.devRef .tc main_v58) = idCol (abt2 m c) := by
  show StableHlo.after hostOps5 (W10 m ρ c) (Proc.devRef .tc main_v58) = _
  after_results_simp
  rw [W10_arg5]
  exact shapeCast_idCol (abt2 m c) _

/-- At the second pooling's exit its output array holds the second graph's encoding. -/
theorem W12_v59 (c : Dev nD) : W12 m ρ c (Proc.devRef .tc main_v59)
    = encode (ax2 m c) (aei2 m c) (abt2 m c) (aW1 m c) (ab1 m c) (aW2 m c) (ab2 m c) := by
  refine (W12_arr m ρ c 2).trans ((Pool.region5 (V11 m ρ) c).trans ?_)
  show pool (W11 m ρ c (Proc.devRef .tc main_v57)) (W11 m ρ c (Proc.devRef .tc main_v58)) = _
  rw [W11_v57, W11_v58]
  rfl

/-- Nothing after the first pooling writes its output array. -/
theorem W12_v29 (c : Dev nD) : W12 m ρ c (Proc.devRef .tc main_v29) = W6 m ρ c (Proc.devRef .tc main_v29) :=
  (W12_of_ne m ρ c main_v29 (by decide)).trans <| (W11_of m ρ c main_v29 (by decide)).trans <|
  (W10_of_ne m ρ c main_v29 (by decide)).trans <| (W9_of m ρ c main_v29 (by decide)).trans <|
  (W8_of_ne m ρ c main_v29 (by decide)).trans (W7_of m ρ c main_v29 (by decide))

/-- THE KERNEL'S VALUE: at the return the result array holds the specification's result of the arguments. -/
theorem W13_v61 (c : Dev nD) : W13 m ρ c (Proc.devRef .tc main_v61)
    = result (ax1 m c) (aei1 m c) (abt1 m c) (ax2 m c) (aei2 m c) (abt2 m c) (aW1 m c) (ab1 m c) (aW2 m c) (ab2 m c) := by
  show StableHlo.after hostOps6 (W12 m ρ c) (Proc.devRef .tc main_v61) = _
  after_results_simp
  rw [W12_v29, W6_v29, W12_v59]
  rfl

end Cert.KernelIdeal.Fold

end
-- ==== Proof.RefMath.lean ====
/-
  The reference's own spellings of the dense layer, the pooling and the neighbour sum are the specification's:
  a whole-array dot product, a bias broadcast twice and one or two clamps at zero are the dense layer entry by entry;
  a row scatter-add of all node rows over zeros is the pooling; the neighbour sum is the same term.
-/
import proofs.«416997_j84361747628046_2_alg».proof.ReferenceIdeal
import proofs.«416997_j84361747628046_2_alg».proof.Proof.Gen.ReferenceIdeal
import proofs.«416997_j84361747628046_2_alg».proof.Proof.Gen.ReferenceIdeal.Read
import Idealize.ShloMosaic.PureOps.Ideal.Laws
import Idealize.ShloMosaic.Lib.Pipeline.Value
import proofs.«416997_j84361747628046_2_alg».proof.Proof.Spec

set_option maxRecDepth 16384

noncomputable section

open scoped BigOperators

namespace Cert.ReferenceIdeal.RefMath

open Idealize.ShloMosaic Idealize.ShloMosaic.TcCoe Idealize.ShloMosaic.ValueIdx Idealize.SL.Sem
open Cert.ReferenceIdeal Cert.ReferenceIdeal.Gen Cert.GinSpec Cert.LibRows

/-! ## The pieces read at an entry -/

/-- A zero scalar broadcast to any shape is 0 at every entry. -/
theorem zeros_apply (t : Shape) (hb : S_.BroadcastsInDim t (![] : Fin 0 → Fin t.rank)) (j : t.Idx) :
    broadcastInDim t ![] hb (constant (F := Ideal) S_ .f32 0x00000000#32) j = 0 :=
  (broadcastInDim_apply _ hb (constant (F := Ideal) S_ .f32 0x00000000#32) j ix0 (fun a => a.elim0)).trans
    Ideal.ofBits_zero_f32

/-- The bias vector broadcast to one row and then to every node row reads b[q] at entry (n, q). -/
theorem bias_apply (b : FVec Ideal S32 .f32) (n : Fin 100000) (q : Fin 32) :
    broadcastInDim S100000x32 ![0, 1] bcast_S1x32_S100000x32_0_1 (broadcastInDim S1x32 ![1] bcast_S32_S1x32_1 b) (ix2 n q)
      = b (ix1 q) := by
  refine (broadcastInDim_apply _ bcast_S1x32_S100000x32_0_1 _ (ix2 n q) (ix2 (0 : Fin 1) q) (fun a => match a with
    | ⟨0, _⟩ => by show 0 = if (1 : Nat) = 1 then 0 else n.val; rw [if_pos rfl]
    | ⟨1, _⟩ => by show q.val = if (32 : Nat) = 1 then 0 else q.val; rw [if_neg (by decide)])).trans ?_
  exact broadcastInDim_apply _ bcast_S32_S1x32_1 b (ix2 (0 : Fin 1) q) (ix1 q) (fun a => match a with
    | ⟨0, _⟩ => by show q.val = if (32 : Nat) = 1 then 0 else q.val; rw [if_neg (by decide)])

/-- The graph ids broadcast to a column are the specification's id column. -/
theorem idCol_eq (bt : IVec S100000 32) :
    broadcastInDim S100000x1 ![0] bcast_S100000_S100000x1_0 bt = idCol bt := by
  funext j
  exact broadcastInDim_apply _ bcast_S100000_S100000x1_0 bt j (ix1 (j 0)) (fun a => match a with
    | ⟨0, _⟩ => by show (j 0).val = if (100000 : Nat) = 1 then 0 else (j 0).val; rw [if_neg (by decide)])

/-- The whole-array dot product over 1 input channel read at entry (n, q): the row y[n, ·] times the column W[·, q]. -/
theorem dot1_apply (y : FVec Ideal S100000x1 .f32) (W : FVec Ideal S1x32 .f32) (n : Fin 100000) (q : Fin 32) :
    Host.dotGeneral (F := Ideal) dot_S100000x1_S1x32_S100000x32_1_0_0_1_n_n none y W (ix2 n q)
      = ∑ k : Fin 1, y (ix2 n k) * W (ix2 k q) := by
  simp only [Host.dotGeneral]
  rw [Ideal.dotGeneral_apply, ← Equiv.sum_comp (contrEquiv1 dot_S100000x1_S1x32_S100000x32_1_0_0_1_n_n 1 rfl rfl).symm]
  refine Finset.sum_congr rfl fun k _ => ?_
  have hk := contrEquiv1_symm_val dot_S100000x1_S1x32_S100000x32_1_0_0_1_n_n 1 rfl rfl k
  have el : dot_S100000x1_S1x32_S100000x32_1_0_0_1_n_n.lhsIdx (ix2 n q) ((contrEquiv1 dot_S100000x1_S1x32_S100000x32_1_0_0_1_n_n 1 rfl rfl).symm k) = ix2 n k :=
    funext fun a => Fin.ext (by
      match a with
      | ⟨0, _⟩ => exact Read.lhs_main_v15_0 _ _
      | ⟨1, _⟩ => exact (Read.lhs_main_v15_1 _ _).trans hk)
  have er : dot_S100000x1_S1x32_S100000x32_1_0_0_1_n_n.rhsIdx (ix2 n q) ((contrEquiv1 dot_S100000x1_S1x32_S100000x32_1_0_0_1_n_n 1 rfl rfl).symm k) = ix2 k q :=
    funext fun a => Fin.ext (by
      match a with
      | ⟨0, _⟩ => exact (Read.rhs_main_v15_0 _ _).trans hk
      | ⟨1, _⟩ => exact Read.rhs_main_v15_1 _ _)
  rw [el, er]

/-- The whole-array dot product over 32 input channels read at entry (n, q): the row y[n, ·] times the column W[·, q]. -/
theorem dot32_apply (y : FVec Ideal S100000x32 .f32) (W : FVec Ideal S32x32 .f32) (n : Fin 100000) (q : Fin 32) :
    Host.dotGeneral (F := Ideal) dot_S100000x32_S32x32_S100000x32_1_0_0_1_n_n none y W (ix2 n q)
      = ∑ k : Fin 32, y (ix2 n k) * W (ix2 k q) := by
  simp only [Host.dotGeneral]
  rw [Ideal.dotGeneral_apply, ← Equiv.sum_comp (contrEquiv1 dot_S100000x32_S32x32_S100000x32_1_0_0_1_n_n 32 rfl rfl).symm]
  refine Finset.sum_congr rfl fun k _ => ?_
  have hk := contrEquiv1_symm_val dot_S100000x32_S32x32_S100000x32_1_0_0_1_n_n 32 rfl rfl k
  have el : dot_S100000x32_S32x32_S100000x32_1_0_0_1_n_n.lhsIdx (ix2 n q) ((contrEquiv1 dot_S100000x32_S32x32_S100000x32_1_0_0_1_n_n 32 rfl rfl).symm k) = ix2 n k :=
    funext fun a => Fin.ext (by
      match a with
      | ⟨0, _⟩ => exact Read.lhs_main_v32_0 _ _
      | ⟨1, _⟩ => exact (Read.lhs_main_v32_1 _ _).trans hk)
  have er : dot_S100000x32_S32x32_S100000x32_1_0_0_1_n_n.rhsIdx (ix2 n q) ((contrEquiv1 dot_S100000x32_S32x32_S100000x32_1_0_0_1_n_n 32 rfl rfl).symm k) = ix2 k q :=
    funext fun a => Fin.ext (by
      match a with
      | ⟨0, _⟩ => exact (Read.rhs_main_v32_0 _ _).trans hk
      | ⟨1, _⟩ => exact Read.rhs_main_v32_1 _ _)
  rw [el, er]

/-! ## The five spellings -/

/-- The first layer as the reference spells it (the clamp applied twice). -/
theorem dense1_eq (x a : FVec Ideal S100000x1 .f32) (W : FVec Ideal S1x32 .f32) (b : FVec Ideal S32 .f32) :
    maximumf (F := Ideal) (maximumf (F := Ideal) (addf (F := Ideal)
        (Host.dotGeneral (F := Ideal) dot_S100000x1_S1x32_S100000x32_1_0_0_1_n_n none (addf (F := Ideal) x a) W)
        (broadcastInDim S100000x32 ![0, 1] bcast_S1x32_S100000x32_0_1 (broadcastInDim S1x32 ![1] bcast_S32_S1x32_1 b)))
        (broadcastInDim S100000x32 ![] bcast_S_S100000x32 (constant (F := Ideal) S_ .f32 0x00000000#32)))
      (broadcastInDim S100000x32 ![] bcast_S_S100000x32 (constant (F := Ideal) S_ .f32 0x00000000#32))
    = dense 1 x a W (biasRow b) := by
  funext j
  obtain ⟨n, q, rfl⟩ : ∃ (n : Fin 100000) (q : Fin 32), j = ix2 n q := ⟨j 0, j 1, eq_ix2 j⟩
  -- entry (n, q): max (max (row · column + b[q]) 0) 0, and clamping twice is clamping once
  rw [dense_ix2, maximumf_apply, maximumf_apply, addf_apply, zeros_apply, bias_apply, dot1_apply]
  unfold denseAt
  rw [max_assoc, max_self]
  rfl

/-- The second layer as the reference spells it. -/
theorem dense32_eq (x a : FVec Ideal S100000x32 .f32) (W : FVec Ideal S32x32 .f32) (b : FVec Ideal S32 .f32) :
    maximumf (F := Ideal) (addf (F := Ideal)
        (Host.dotGeneral (F := Ideal) dot_S100000x32_S32x32_S100000x32_1_0_0_1_n_n none (addf (F := Ideal) x a) W)
        (broadcastInDim S100000x32 ![0, 1] bcast_S1x32_S100000x32_0_1 (broadcastInDim S1x32 ![1] bcast_S32_S1x32_1 b)))
      (broadcastInDim S100000x32 ![] bcast_S_S100000x32 (constant (F := Ideal) S_ .f32 0x00000000#32))
    = dense 32 x a W (biasRow b) := by
  funext j
  obtain ⟨n, q, rfl⟩ : ∃ (n : Fin 100000) (q : Fin 32), j = ix2 n q := ⟨j 0, j 1, eq_ix2 j⟩
  -- entry (n, q): max (row · column + b[q]) 0
  rw [dense_ix2, maximumf_apply, addf_apply, zeros_apply, bias_apply, dot32_apply]
  rfl

/-- The pooling as the reference spells it. -/
theorem pool_eq (h : FVec Ideal S100000x32 .f32) (bt : IVec S100000 32) :
    Host.scatterAdd (F := Ideal) scatter_S128x32_S100000x1_S100000x32_1_0_0_1
      (broadcastInDim S128x32 ![] bcast_S_S128x32 (constant (F := Ideal) S_ .f32 0x00000000#32))
      (broadcastInDim S100000x1 ![0] bcast_S100000_S100000x1_0 bt) h
    = pool h (idCol bt) := by
  rw [idCol_eq]
  funext j
  obtain ⟨g, q, rfl⟩ : ∃ (g : Fin 128) (q : Fin 32), j = ix2 g q := ⟨j 0, j 1, eq_ix2 j⟩
  -- entry (g, q): the zero array's entry plus the sum of h[p, q] over the nodes p whose id is g
  show Host.scatterAdd (F := Ideal) (φ := .f32) (rowScatterDims 128 100000 32 wsPool)
      (broadcastInDim S128x32 ![] bcast_S_S128x32 (constant (F := Ideal) S_ .f32 0x00000000#32)) (idCol bt) h (ix2 g q) = _
  refine (rowScatterAdd_apply wsPool _ _ _ g q).trans ?_
  rw [zeros_apply, zero_add]
  rfl

/-- The neighbour sum of one-channel features as the reference spells it. -/
theorem aggregate1_eq (x : FVec Ideal S100000x1 .f32) (ei : IVec S2x3200000 32) :
    Host.scatterAdd (F := Ideal) scatter_S100000x1_S3200000x1_S3200000x1_1_0_0_1
      (broadcastInDim S100000x1 ![] bcast_S_S100000x1 (constant (F := Ideal) S_ .f32 0x00000000#32))
      (broadcastInDim S3200000x1 ![0] bcast_S3200000_S3200000x1_0
        (shapeCast _ (extractStridedSlice S1x3200000 ![1, 0] ei slices_S2x3200000_S1x3200000_1_0) shapeCasts_S1x3200000_S3200000))
      (Host.gather gather_S100000x1_S3200000x1_S3200000x1_1_0_n_n_0_1_11 x
        (broadcastInDim S3200000x1 ![0] bcast_S3200000_S3200000x1_0
          (select (cmpi .slt (shapeCast _ (extractStridedSlice S1x3200000 ![0, 0] ei slices_S2x3200000_S1x3200000_0_0) shapeCasts_S1x3200000_S3200000)
              (broadcastInDim S3200000 ![] bcast_S_S3200000 (constantI S_ 32 0#32)))
            (addi (shapeCast _ (extractStridedSlice S1x3200000 ![0, 0] ei slices_S2x3200000_S1x3200000_0_0) shapeCasts_S1x3200000_S3200000)
              (broadcastInDim S3200000 ![] bcast_S_S3200000 (constantI S_ 32 100000#32)))
            (shapeCast _ (extractStridedSlice S1x3200000 ![0, 0] ei slices_S2x3200000_S1x3200000_0_0) shapeCasts_S1x3200000_S3200000))))
    = aggregate 1 wg1 ws1 hb1 x ei := by
  unfold aggregate sources targets edgeRow
  rfl

/-- The neighbour sum of 32-channel features as the reference spells it. -/
theorem aggregate32_eq (x : FVec Ideal S100000x32 .f32) (ei : IVec S2x3200000 32) :
    Host.scatterAdd (F := Ideal) scatter_S100000x32_S3200000x1_S3200000x32_1_0_0_1
      (broadcastInDim S100000x32 ![] bcast_S_S100000x32 (constant (F := Ideal) S_ .f32 0x00000000#32))
      (broadcastInDim S3200000x1 ![0] bcast_S3200000_S3200000x1_0
        (shapeCast _ (extractStridedSlice S1x3200000 ![1, 0] ei slices_S2x3200000_S1x3200000_1_0) shapeCasts_S1x3200000_S3200000))
      (Host.gather gather_S100000x32_S3200000x1_S3200000x32_1_0_n_n_0_1_132 x
        (broadcastInDim S3200000x1 ![0] bcast_S3200000_S3200000x1_0
          (select (cmpi .slt (shapeCast _ (extractStridedSlice S1x3200000 ![0, 0] ei slices_S2x3200000_S1x3200000_0_0) shapeCasts_S1x3200000_S3200000)
              (broadcastInDim S3200000 ![] bcast_S_S3200000 (constantI S_ 32 0#32)))
            (addi (shapeCast _ (extractStridedSlice S1x3200000 ![0, 0] ei slices_S2x3200000_S1x3200000_0_0) shapeCasts_S1x3200000_S3200000)
              (broadcastInDim S3200000 ![] bcast_S_S3200000 (constantI S_ 32 100000#32)))
            (shapeCast _ (extractStridedSlice S1x3200000 ![0, 0] ei slices_S2x3200000_S1x3200000_0_0) shapeCasts_S1x3200000_S3200000))))
    = aggregate 32 wg32 ws32 hb32 x ei := by
  unfold aggregate sources targets edgeRow
  rfl

end Cert.ReferenceIdeal.RefMath

end
-- ==== Proof.RefTerm.lean ====
/-
  The reference's run read back: its result array's composed term of the launch memory's arguments is the
  specification's result.
-/
import proofs.«416997_j84361747628046_2_alg».proof.Proof.Gen.ReferenceIdeal.Run
import proofs.«416997_j84361747628046_2_alg».proof.Proof.Gen.ReferenceIdeal.Read
import proofs.«416997_j84361747628046_2_alg».proof.Proof.Spec
import proofs.«416997_j84361747628046_2_alg».proof.Proof.RefMath

set_option maxRecDepth 16384

noncomputable section

open scoped BigOperators

namespace Cert.ReferenceIdeal.RefTerm

open Idealize.ShloMosaic Idealize.ShloMosaic.TcCoe Idealize.ShloMosaic.ValueIdx Idealize.SL.Sem
open Cert.ReferenceIdeal Cert.ReferenceIdeal.Gen Cert.GinSpec Cert.LibRows

variable (m : (ℓ : Loc nD τ sig) → Buf (Elt Ideal) ℓ)

/-- The reference's result term is the specification's result of the ten arguments. -/
theorem res_eq (c : Dev nD) : Cert.ReferenceIdeal.Value.res_main_v81 (F := Ideal) m c
    = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) := by
  unfold Cert.ReferenceIdeal.Value.res_main_v81
  -- bottom-up, once per graph: the neighbour sum of the inputs, the first dense layer, the neighbour sum of its
  -- result, the second dense layer, the pooling; what is left is the specification's result, unfolded
  rw [RefMath.aggregate1_eq, RefMath.aggregate1_eq, RefMath.dense1_eq, RefMath.dense1_eq,
    RefMath.aggregate32_eq, RefMath.aggregate32_eq, RefMath.dense32_eq, RefMath.dense32_eq,
    RefMath.pool_eq, RefMath.pool_eq]
  rfl

end Cert.ReferenceIdeal.RefTerm

end
-- ==== Proof.lean ====
/-
  Two graph encoders compared: every node's feature row plus the sum of its in-neighbours' rows goes through a dense
  layer (twice), the node rows are summed per graph id, and the result is the absolute difference of the two graphs'
  pooled rows.  The kernel program runs the dense layers row block by row block and the pooling as a product with a
  one-hot matrix accumulated over node blocks; the reference runs them as whole-array operations and a row
  scatter-add.  Over the extended reals both are the one function GinSpec.result of the ten arguments:
  the kernel's run ends with its result array at that function (Fold.W13_v61 over the named run), the reference's
  composed term is that function (RefTerm.res_eq), and agreeing arguments make the two equal.
  The neighbour sum is the same host term in both programs and is never opened; no finiteness is used.
-/
import proofs.«416997_j84361747628046_2_alg».proof.Defs
import proofs.«416997_j84361747628046_2_alg».proof.Proof.Gen.Kernel
import proofs.«416997_j84361747628046_2_alg».proof.Proof.Gen.Kernel.Frame
import proofs.«416997_j84361747628046_2_alg».proof.Proof.Gen.KernelIdeal
import proofs.«416997_j84361747628046_2_alg».proof.Proof.Gen.KernelIdeal.Frame
import proofs.«416997_j84361747628046_2_alg».proof.Proof.Gen.ReferenceIdeal
import proofs.«416997_j84361747628046_2_alg».proof.Proof.Gen.ReferenceIdeal.Run
import proofs.«416997_j84361747628046_2_alg».proof.Proof.Gen.Pre_finite_inputs
import proofs.«416997_j84361747628046_2_alg».proof.Proof.KRun
import proofs.«416997_j84361747628046_2_alg».proof.Proof.KFoldB
import proofs.«416997_j84361747628046_2_alg».proof.Proof.RefTerm

noncomputable section

namespace Cert.Proof

open Idealize.ShloMosaic Idealize.SL.Sem

/-- The word-level kernel program runs and keeps its arguments. -/
theorem frame_k : Cert.frame_Kernel (hKernel := Cert.Kernel.Gen.facts) (hPre_finite_inputs := Cert.Pre_finite_inputs.Gen.facts) :=
  fun m ρ _ => Cert.Kernel.Gen.frame m ρ

/-- So does the kernel program over the extended reals. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end at the specification's result of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.GinSpec.result (Cert.KernelIdeal.Fold.ax1 m c) (Cert.KernelIdeal.Fold.aei1 m c) (Cert.KernelIdeal.Fold.abt1 m c)
      (Cert.KernelIdeal.Fold.ax2 m c) (Cert.KernelIdeal.Fold.aei2 m c) (Cert.KernelIdeal.Fold.abt2 m c)
      (Cert.KernelIdeal.Fold.aW1 m c) (Cert.KernelIdeal.Fold.ab1 m c) (Cert.KernelIdeal.Fold.aW2 m c) (Cert.KernelIdeal.Fold.ab2 m c), ?_, ?_⟩
  · exact (θ_run Cert.KernelIdeal.defs _ _).mono
      (fun _ h c => ⟨(h c).1.trans (Cert.KernelIdeal.Fold.W13_v61 m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefTerm.res_eq m' c, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
